-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S2x512 : Shape := ⟨2, ![2, 512]⟩
abbrev S15x512 : Shape := ⟨2, ![15, 512]⟩
abbrev S40x512 : Shape := ⟨2, ![40, 512]⟩
abbrev S24x512 : Shape := ⟨2, ![24, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  bcast_S_S15x512 : S_.BroadcastsInDim S15x512 (![] : Fin 0 → Fin S15x512.rank)
  reducesTo_S15x512_S_d0_1 : S15x512.ReducesTo [0, 1] S_
  bcast_S_S40x512 : S_.BroadcastsInDim S40x512 (![] : Fin 0 → Fin S40x512.rank)
  reducesTo_S40x512_S_d0_1 : S40x512.ReducesTo [0, 1] S_
  bcast_S_S24x512 : S_.BroadcastsInDim S24x512 (![] : Fin 0 → Fin S24x512.rank)
  reducesTo_S24x512_S_d0_1 : S24x512.ReducesTo [0, 1] S_

variable [Facts]

def fn_part1 {F : FTy → Type} [FloatOps F] (main_arg4 : FVec F S40x512 .f32) (main_arg5 : FVec F S24x512 .f32) (main_v13 : IVec S_ 1) (main_v16 : IVec S40x512 1) : IVec S_ 1 :=
  let main_c_5 : IVec S_ 1 := constantI S_ 1 1#1
  let main_v17 : IVec S_ 1 := (fun x v => Host.reduce IntOp.andi x v reducesTo_S40x512_S_d0_1 h_S_) main_v16 main_c_5
  let main_v18 : IVec S_ 1 := andi main_v13 main_v17
  let main_v19 : FVec F S40x512 .f32 := Host.absf main_arg4
  let main_cst_6 : FVec F S_ .f32 := constant S_ .f32 0x7F800000#32
  let main_v20 : FVec F S40x512 .f32 := broadcastInDim S40x512 ![] bcast_S_S40x512 main_cst_6
  let main_v21 : IVec S40x512 1 := cmpf .olt main_v19 main_v20
  let main_c_7 : IVec S_ 1 := constantI S_ 1 1#1
  let main_v22 : IVec S_ 1 := (fun x v => Host.reduce IntOp.andi x v reducesTo_S40x512_S_d0_1 h_S_) main_v21 main_c_7
  let main_v23 : IVec S_ 1 := andi main_v18 main_v22
  let main_v24 : FVec F S24x512 .f32 := Host.absf main_arg5
  let main_cst_8 : FVec F S_ .f32 := constant S_ .f32 0x7F800000#32
  let main_v25 : FVec F S24x512 .f32 := broadcastInDim S24x512 ![] bcast_S_S24x512 main_cst_8
  let main_v26 : IVec S24x512 1 := cmpf .olt main_v24 main_v25
  let main_c_9 : IVec S_ 1 := constantI S_ 1 1#1
  let main_v27 : IVec S_ 1 := (fun x v => Host.reduce IntOp.andi x v reducesTo_S24x512_S_d0_1 h_S_) main_v26 main_c_9
  let main_v28 : IVec S_ 1 := andi main_v23 main_v27
  main_v28

def fn {F : FTy → Type} [FloatOps F] (main_arg0 : FVec F S32768x512 .f32) (main_arg1 : FVec F S2x512 .f32) (main_arg2 : FVec F S15x512 .f32) (main_arg3 : FVec F S40x512 .f32) (main_arg4 : FVec F S40x512 .f32) (main_arg5 : FVec F S24x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  let main_v9 : FVec F S15x512 .f32 := Host.absf main_arg2
  let main_cst_2 : FVec F S_ .f32 := constant S_ .f32 0x7F800000#32
  let main_v10 : FVec F S15x512 .f32 := broadcastInDim S15x512 ![] bcast_S_S15x512 main_cst_2
  let main_v11 : IVec S15x512 1 := cmpf .olt main_v9 main_v10
  let main_c_3 : IVec S_ 1 := constantI S_ 1 1#1
  let main_v12 : IVec S_ 1 := (fun x v => Host.reduce IntOp.andi x v reducesTo_S15x512_S_d0_1 h_S_) main_v11 main_c_3
  let main_v13 : IVec S_ 1 := andi main_v8 main_v12
  let main_v14 : FVec F S40x512 .f32 := Host.absf main_arg3
  let main_cst_4 : FVec F S_ .f32 := constant S_ .f32 0x7F800000#32
  let main_v15 : FVec F S40x512 .f32 := broadcastInDim S40x512 ![] bcast_S_S40x512 main_cst_4
  let main_v16 : IVec S40x512 1 := cmpf .olt main_v14 main_v15
  fn_part1 (F := F) main_arg4 main_arg5 main_v13 main_v16
-- ==== Kernel.lean ====
abbrev S32768x512 : Shape := ⟨2, ![32768, 512]⟩
abbrev S2x512 : Shape := ⟨2, ![2, 512]⟩
abbrev S15x512 : Shape := ⟨2, ![15, 512]⟩
abbrev S40x512 : Shape := ⟨2, ![40, 512]⟩
abbrev S24x512 : Shape := ⟨2, ![24, 512]⟩
abbrev S2x2 : Shape := ⟨2, ![2, 2]⟩
abbrev S15x15 : Shape := ⟨2, ![15, 15]⟩
abbrev S40x40 : Shape := ⟨2, ![40, 40]⟩
abbrev S24x24 : Shape := ⟨2, ![24, 24]⟩
abbrev S32768x5x512 : Shape := ⟨3, ![32768, 5, 512]⟩
abbrev S1024x512 : Shape := ⟨2, ![1024, 512]⟩
abbrev S1024x5x512 : Shape := ⟨3, ![1024, 5, 512]⟩
abbrev S1024 : Shape := ⟨1, ![1024]⟩
abbrev S1024x1 : Shape := ⟨2, ![1024, 1]⟩
abbrev S2 : Shape := ⟨1, ![2]⟩
abbrev S2x1 : Shape := ⟨2, ![2, 1]⟩
abbrev S512x2 : Shape := ⟨2, ![512, 2]⟩
abbrev S1024x2 : Shape := ⟨2, ![1024, 2]⟩
abbrev S1024x1x512 : Shape := ⟨3, ![1024, 1, 512]⟩
abbrev S15 : Shape := ⟨1, ![15]⟩
abbrev S15x1 : Shape := ⟨2, ![15, 1]⟩
abbrev S512x15 : Shape := ⟨2, ![512, 15]⟩
abbrev S1024x15 : Shape := ⟨2, ![1024, 15]⟩
abbrev S40 : Shape := ⟨1, ![40]⟩
abbrev S40x1 : Shape := ⟨2, ![40, 1]⟩
abbrev S512x40 : Shape := ⟨2, ![512, 40]⟩
abbrev S1024x40 : Shape := ⟨2, ![1024, 40]⟩
abbrev S24 : Shape := ⟨1, ![24]⟩
abbrev S24x1 : Shape := ⟨2, ![24, 1]⟩
abbrev S512x24 : Shape := ⟨2, ![512, 24]⟩
abbrev S1024x24 : Shape := ⟨2, ![1024, 24]⟩

abbrev nBuf : Space → Nat
  | .hbm => 12
  | .vmem => 14
  | .smem => 0
  | _ => 0

abbrev bufTy : (tb : Table) → Fin (tcTables nBuf tb) → BufTy
  | .hbm, ⟨0, _⟩ => ⟨S32768x512, .f32⟩
  | .hbm, ⟨1, _⟩ => ⟨S2x512, .f32⟩
  | .hbm, ⟨2, _⟩ => ⟨S15x512, .f32⟩
  | .hbm, ⟨3, _⟩ => ⟨S40x512, .f32⟩
  | .hbm, ⟨4, _⟩ => ⟨S40x512, .f32⟩
  | .hbm, ⟨5, _⟩ => ⟨S24x512, .f32⟩
  | .hbm, ⟨6, _⟩ => ⟨S2x2, .f32⟩
  | .hbm, ⟨7, _⟩ => ⟨S15x15, .f32⟩
  | .hbm, ⟨8, _⟩ => ⟨S40x40, .f32⟩
  | .hbm, ⟨9, _⟩ => ⟨S40x40, .f32⟩
  | .hbm, ⟨10, _⟩ => ⟨S24x24, .f32⟩
  | .hbm, ⟨11, _⟩ => ⟨S32768x5x512, .f32⟩
  | .local _ .vmem, ⟨0, _⟩ => ⟨S1024x512, .f32⟩
  | .local _ .vmem, ⟨1, _⟩ => ⟨S1024x512, .f32⟩
  | .local _ .vmem, ⟨2, _⟩ => ⟨S2x512, .f32⟩
  | .local _ .vmem, ⟨3, _⟩ => ⟨S15x512, .f32⟩
  | .local _ .vmem, ⟨4, _⟩ => ⟨S40x512, .f32⟩
  | .local _ .vmem, ⟨5, _⟩ => ⟨S40x512, .f32⟩
  | .local _ .vmem, ⟨6, _⟩ => ⟨S24x512, .f32⟩
  | .local _ .vmem, ⟨7, _⟩ => ⟨S2x2, .f32⟩
  | .local _ .vmem, ⟨8, _⟩ => ⟨S15x15, .f32⟩
  | .local _ .vmem, ⟨9, _⟩ => ⟨S40x40, .f32⟩
  | .local _ .vmem, ⟨10, _⟩ => ⟨S40x40, .f32⟩
  | .local _ .vmem, ⟨11, _⟩ => ⟨S24x24, .f32⟩
  | .local _ .vmem, ⟨12, _⟩ => ⟨S1024x5x512, .f32⟩
  | .local _ .vmem, ⟨13, _⟩ => ⟨S1024x5x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x15 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S24x24 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x5x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S2x512_S2x512_0_0 : ∀ a, (![0, 0] : Fin 2 → Nat) a + S2x512.size a ≤ S2x512.size a
  h_S2x512 : 0 < S2x512.numel
  reduces_S2x512_S2 : S2x512.Reduces [1] S2
  shapeCasts_S2_S2x1 : S2.ShapeCasts S2x1
  broadcasts_S2x1_S2x512 : S2x1.Broadcasts S2x512
  transposes_S2x512_p1_0_S512x2 : S2x512.Transposes [1, 0] S512x2
  reduces_S1024x2_S1024 : S1024x2.Reduces [1] S1024
  broadcasts_S1024x1_S1024x2 : S1024x1.Broadcasts S1024x2
  inb_S2x2_S2x2_0_0 : ∀ a, (![0, 0] : Fin 2 → Nat) a + S2x2.size a ≤ S2x2.size a
  h_S2x2 : 0 < S2x2.numel
  inb_S1024x5x512_S1024x1x512_0_0_0 : ∀ a, (![0, 0, 0] : Fin 3 → Nat) a + S1024x1x512.size a ≤ S1024x5x512.size a
  h_S1024x1x512 : 0 < S1024x1x512.numel
  shapeCasts_S1024x1x512_S1024x512 : S1024x1x512.ShapeCasts S1024x512
  shapeCasts_S1024x512_S1024x1x512 : S1024x512.ShapeCasts S1024x1x512
  inb_S15x512_S15x512_0_0 : ∀ a, (![0, 0] : Fin 2 → Nat) a + S15x512.size a ≤ S15x512.size a
  h_S15x512 : 0 < S15x512.numel
  reduces_S15x512_S15 : S15x512.Reduces [1] S15
  shapeCasts_S15_S15x1 : S15.ShapeCasts S15x1
  broadcasts_S15x1_S15x512 : S15x1.Broadcasts S15x512
  transposes_S15x512_p1_0_S512x15 : S15x512.Transposes [1, 0] S512x15
  reduces_S1024x15_S1024 : S1024x15.Reduces [1] S1024
  broadcasts_S1024x1_S1024x15 : S1024x1.Broadcasts S1024x15
  inb_S15x15_S15x15_0_0 : ∀ a, (![0, 0] : Fin 2 → Nat) a + S15x15.size a ≤ S15x15.size a
  h_S15x15 : 0 < S15x15.numel
  inb_S1024x5x512_S1024x1x512_0_1_0 : ∀ a, (![0, 1, 0] : Fin 3 → Nat) a + S1024x1x512.size a ≤ S1024x5x512.size a
  inb_S40x512_S40x512_0_0 : ∀ a, (![0, 0] : Fin 2 → Nat) a + S40x512.size a ≤ S40x512.size a
  h_S40x512 : 0 < S40x512.numel
  reduces_S40x512_S40 : S40x512.Reduces [1] S40
  shapeCasts_S40_S40x1 : S40.ShapeCasts S40x1
  broadcasts_S40x1_S40x512 : S40x1.Broadcasts S40x512
  transposes_S40x512_p1_0_S512x40 : S40x512.Transposes [1, 0] S512x40
  reduces_S1024x40_S1024 : S1024x40.Reduces [1] S1024
  broadcasts_S1024x1_S1024x40 : S1024x1.Broadcasts S1024x40
  inb_S40x40_S40x40_0_0 : ∀ a, (![0, 0] : Fin 2 → Nat) a + S40x40.size a ≤ S40x40.size a
  h_S40x40 : 0 < S40x40.numel
  inb_S1024x5x512_S1024x1x512_0_2_0 : ∀ a, (![0, 2, 0] : Fin 3 → Nat) a + S1024x1x512.size a ≤ S1024x5x512.size a
  inb_S1024x5x512_S1024x1x512_0_3_0 : ∀ a, (![0, 3, 0] : Fin 3 → Nat) a + S1024x1x512.size a ≤ S1024x5x512.size a
  inb_S24x512_S24x512_0_0 : ∀ a, (![0, 0] : Fin 2 → Nat) a + S24x512.size a ≤ S24x512.size a
  h_S24x512 : 0 < S24x512.numel
  reduces_S24x512_S24 : S24x512.Reduces [1] S24
  shapeCasts_S24_S24x1 : S24.ShapeCasts S24x1
  broadcasts_S24x1_S24x512 : S24x1.Broadcasts S24x512
  transposes_S24x512_p1_0_S512x24 : S24x512.Transposes [1, 0] S512x24
  reduces_S1024x24_S1024 : S1024x24.Reduces [1] S1024
  broadcasts_S1024x1_S1024x24 : S1024x1.Broadcasts S1024x24
  inb_S24x24_S24x24_0_0 : ∀ a, (![0, 0] : Fin 2 → Nat) a + S24x24.size a ≤ S24x24.size a
  h_S24x24 : 0 < S24x24.numel
  inb_S1024x5x512_S1024x1x512_0_4_0 : ∀ a, (![0, 4, 0] : Fin 3 → Nat) a + S1024x1x512.size a ≤ S1024x5x512.size a
  dot_S1024x512_S512x2_S1024x2_1_0_0_1_n_n_wf : DotDims.WF S1024x512 S512x2 S1024x2 [1] [0] [0] [1] [] []
  dot_S1024x2_S2x2_S1024x2_1_0_0_1_n_n_wf : DotDims.WF S1024x2 S2x2 S1024x2 [1] [0] [0] [1] [] []
  dot_S1024x2_S2x512_S1024x512_1_0_0_1_n_n_wf : DotDims.WF S1024x2 S2x512 S1024x512 [1] [0] [0] [1] [] []
  dot_S1024x512_S512x15_S1024x15_1_0_0_1_n_n_wf : DotDims.WF S1024x512 S512x15 S1024x15 [1] [0] [0] [1] [] []
  dot_S1024x15_S15x15_S1024x15_1_0_0_1_n_n_wf : DotDims.WF S1024x15 S15x15 S1024x15 [1] [0] [0] [1] [] []
  dot_S1024x15_S15x512_S1024x512_1_0_0_1_n_n_wf : DotDims.WF S1024x15 S15x512 S1024x512 [1] [0] [0] [1] [] []
  dot_S1024x512_S512x40_S1024x40_1_0_0_1_n_n_wf : DotDims.WF S1024x512 S512x40 S1024x40 [1] [0] [0] [1] [] []
  dot_S1024x40_S40x40_S1024x40_1_0_0_1_n_n_wf : DotDims.WF S1024x40 S40x40 S1024x40 [1] [0] [0] [1] [] []
  dot_S1024x40_S40x512_S1024x512_1_0_0_1_n_n_wf : DotDims.WF S1024x40 S40x512 S1024x512 [1] [0] [0] [1] [] []
  dot_S1024x512_S512x24_S1024x24_1_0_0_1_n_n_wf : DotDims.WF S1024x512 S512x24 S1024x24 [1] [0] [0] [1] [] []
  dot_S1024x24_S24x24_S1024x24_1_0_0_1_n_n_wf : DotDims.WF S1024x24 S24x24 S1024x24 [1] [0] [0] [1] [] []
  dot_S1024x24_S24x512_S1024x512_1_0_0_1_n_n_wf : DotDims.WF S1024x24 S24x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x512.size a ≤ S2x512.size a
  hwx0_1 : ∀ i : grid0.Coords, EltTy.bits .f32 = 32 ∨ (Rect.block (s := S2x512) S2x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x512.size a ≤ S15x512.size a
  hwx0_2 : ∀ i : grid0.Coords, EltTy.bits .f32 = 32 ∨ (Rect.block (s := S15x512) S15x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x512.size a ≤ S40x512.size a
  hwx0_3 : ∀ i : grid0.Coords, EltTy.bits .f32 = 32 ∨ (Rect.block (s := S40x512) S40x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40x512.size a ≤ S40x512.size a
  hwx0_4 : ∀ i : grid0.Coords, EltTy.bits .f32 = 32 ∨ (Rect.block (s := S40x512) S40x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x512.size a ≤ S24x512.size a
  hwx0_5 : ∀ i : grid0.Coords, EltTy.bits .f32 = 32 ∨ (Rect.block (s := S24x512) S24x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x2.size a ≤ S2x2.size a
  hwx0_6 : ∀ i : grid0.Coords, EltTy.bits .f32 = 32 ∨ (Rect.block (s := S2x2) S2x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x15.size a ≤ S15x15.size a
  hwx0_7 : ∀ i : grid0.Coords, EltTy.bits .f32 = 32 ∨ (Rect.block (s := S15x15) S15x15.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S40x40.size a ≤ S40x40.size a
  hwx0_8 : ∀ i : grid0.Coords, EltTy.bits .f32 = 32 ∨ (Rect.block (s := S40x40) S40x40.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S40x40.size a ≤ S40x40.size a
  hwx0_9 : ∀ i : grid0.Coords, EltTy.bits .f32 = 32 ∨ (Rect.block (s := S40x40) S40x40.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S24x24.size a ≤ S24x24.size a
  hwx0_10 : ∀ i : grid0.Coords, EltTy.bits .f32 = 32 ∨ (Rect.block (s := S24x24) S24x24.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x5x512.size a ≤ S32768x5x512.size a
  hwx0_11 : ∀ i : grid0.Coords, EltTy.bits .f32 = 32 ∨ (Rect.block (s := S32768x5x512) S1024x5x512.size (cc0_transform_11 i) (hinb0_11 i)).WholeWords (EltTy.packing .f32)

variable [Facts₀]

def dot_S1024x512_S512x2_S1024x2_1_0_0_1_n_n : DotDims S1024x512 S512x2 S1024x2 where
  lhsContracting := [1]
  rhsContracting := [0]
  lhsNonContracting := [0]
  rhsNonContracting := [1]
  lhsBatch := []
  rhsBatch := []
  wf := dot_S1024x512_S512x2_S1024x2_1_0_0_1_n_n_wf
def dot_S1024x2_S2x2_S1024x2_1_0_0_1_n_n : DotDims S1024x2 S2x2 S1024x2 where
  lhsContracting := [1]
  rhsContracting := [0]
  lhsNonContracting := [0]
  rhsNonContracting := [1]
  lhsBatch := []
  rhsBatch := []
  wf := dot_S1024x2_S2x2_S1024x2_1_0_0_1_n_n_wf
def dot_S1024x2_S2x512_S1024x512_1_0_0_1_n_n : DotDims S1024x2 S2x512 S1024x512 where
  lhsContracting := [1]
  rhsContracting := [0]
  lhsNonContracting := [0]
  rhsNonContracting := [1]
  lhsBatch := []
  rhsBatch := []
  wf := dot_S1024x2_S2x512_S1024x512_1_0_0_1_n_n_wf
def dot_S1024x512_S512x15_S1024x15_1_0_0_1_n_n : DotDims S1024x512 S512x15 S1024x15 where
  lhsContracting := [1]
  rhsContracting := [0]
  lhsNonContracting := [0]
  rhsNonContracting := [1]
  lhsBatch := []
  rhsBatch := []
  wf := dot_S1024x512_S512x15_S1024x15_1_0_0_1_n_n_wf
def dot_S1024x15_S15x15_S1024x15_1_0_0_1_n_n : DotDims S1024x15 S15x15 S1024x15 where
  lhsContracting := [1]
  rhsContracting := [0]
  lhsNonContracting := [0]
  rhsNonContracting := [1]
  lhsBatch := []
  rhsBatch := []
  wf := dot_S1024x15_S15x15_S1024x15_1_0_0_1_n_n_wf
def dot_S1024x15_S15x512_S1024x512_1_0_0_1_n_n : DotDims S1024x15 S15x512 S1024x512 where
  lhsContracting := [1]
  rhsContracting := [0]
  lhsNonContracting := [0]
  rhsNonContracting := [1]
  lhsBatch := []
  rhsBatch := []
  wf := dot_S1024x15_S15x512_S1024x512_1_0_0_1_n_n_wf
def dot_S1024x512_S512x40_S1024x40_1_0_0_1_n_n : DotDims S1024x512 S512x40 S1024x40 where
  lhsContracting := [1]
  rhsContracting := [0]
  lhsNonContracting := [0]
  rhsNonContracting := [1]
  lhsBatch := []
  rhsBatch := []
  wf := dot_S1024x512_S512x40_S1024x40_1_0_0_1_n_n_wf
def dot_S1024x40_S40x40_S1024x40_1_0_0_1_n_n : DotDims S1024x40 S40x40 S1024x40 where
  lhsContracting := [1]
  rhsContracting := [0]
  lhsNonContracting := [0]
  rhsNonContracting := [1]
  lhsBatch := []
  rhsBatch := []
  wf := dot_S1024x40_S40x40_S1024x40_1_0_0_1_n_n_wf
def dot_S1024x40_S40x512_S1024x512_1_0_0_1_n_n : DotDims S1024x40 S40x512 S1024x512 where
  lhsContracting := [1]
  rhsContracting := [0]
  lhsNonContracting := [0]
  rhsNonContracting := [1]
  lhsBatch := []
  rhsBatch := []
  wf := dot_S1024x40_S40x512_S1024x512_1_0_0_1_n_n_wf
def dot_S1024x512_S512x24_S1024x24_1_0_0_1_n_n : DotDims S1024x512 S512x24 S1024x24 where
  lhsContracting := [1]
  rhsContracting := [0]
  lhsNonContracting := [0]
  rhsNonContracting := [1]
  lhsBatch := []
  rhsBatch := []
  wf := dot_S1024x512_S512x24_S1024x24_1_0_0_1_n_n_wf
def dot_S1024x24_S24x24_S1024x24_1_0_0_1_n_n : DotDims S1024x24 S24x24 S1024x24 where
  lhsContracting := [1]
  rhsContracting := [0]
  lhsNonContracting := [0]
  rhsNonContracting := [1]
  lhsBatch := []
  rhsBatch := []
  wf := dot_S1024x24_S24x24_S1024x24_1_0_0_1_n_n_wf
def dot_S1024x24_S24x512_S1024x512_1_0_0_1_n_n : DotDims S1024x24 S24x512 S1024x512 where
  lhsContracting := [1]
  rhsContracting := [0]
  lhsNonContracting := [0]
  rhsNonContracting := [1]
  lhsBatch := []
  rhsBatch := []
  wf := dot_S1024x24_S24x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S15x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S40x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S40x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S24x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst) S2x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst_0) S15x15.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst_1) S40x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_cst_2) S40x40.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_cst_3) S24x24.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1024x5x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x512 : Shape := ⟨2, ![32768, 512]⟩
abbrev S2x512 : Shape := ⟨2, ![2, 512]⟩
abbrev S15x512 : Shape := ⟨2, ![15, 512]⟩
abbrev S40x512 : Shape := ⟨2, ![40, 512]⟩
abbrev S24x512 : Shape := ⟨2, ![24, 512]⟩
abbrev S2x2 : Shape := ⟨2, ![2, 2]⟩
abbrev S15x15 : Shape := ⟨2, ![15, 15]⟩
abbrev S40x40 : Shape := ⟨2, ![40, 40]⟩
abbrev S24x24 : Shape := ⟨2, ![24, 24]⟩
abbrev S_ : Shape := ⟨0, ![]⟩
abbrev S32768 : Shape := ⟨1, ![32768]⟩
abbrev S32768x1 : Shape := ⟨2, ![32768, 1]⟩
abbrev S2 : Shape := ⟨1, ![2]⟩
abbrev S2x1 : Shape := ⟨2, ![2, 1]⟩
abbrev S512x2 : Shape := ⟨2, ![512, 2]⟩
abbrev S32768x2 : Shape := ⟨2, ![32768, 2]⟩
abbrev S15 : Shape := ⟨1, ![15]⟩
abbrev S15x1 : Shape := ⟨2, ![15, 1]⟩
abbrev S512x15 : Shape := ⟨2, ![512, 15]⟩
abbrev S32768x15 : Shape := ⟨2, ![32768, 15]⟩
abbrev S40 : Shape := ⟨1, ![40]⟩
abbrev S40x1 : Shape := ⟨2, ![40, 1]⟩
abbrev S512x40 : Shape := ⟨2, ![512, 40]⟩
abbrev S32768x40 : Shape := ⟨2, ![32768, 40]⟩
abbrev S24 : Shape := ⟨1, ![24]⟩
abbrev S24x1 : Shape := ⟨2, ![24, 1]⟩
abbrev S512x24 : Shape := ⟨2, ![512, 24]⟩
abbrev S32768x24 : Shape := ⟨2, ![32768, 24]⟩
abbrev S32768x1x512 : Shape := ⟨3, ![32768, 1, 512]⟩
abbrev S32768x5x512 : Shape := ⟨3, ![32768, 5, 512]⟩

abbrev nBuf : Space → Nat
  | .hbm => 222
  | .vmem => 0
  | .smem => 0
  | _ => 0

abbrev hbmTy0_0 (i : Nat) : BufTy := match i % 128 with
  | 0 => ⟨S32768x512, .f32⟩
  | 1 => ⟨S2x512, .f32⟩
  | 2 => ⟨S15x512, .f32⟩
  | 3 => ⟨S40x512, .f32⟩
  | 4 => ⟨S40x512, .f32⟩
  | 5 => ⟨S24x512, .f32⟩
  | 6 => ⟨S2x2, .f32⟩
  | 7 => ⟨S15x15, .f32⟩
  | 8 => ⟨S40x40, .f32⟩
  | 9 => ⟨S40x40, .f32⟩
  | 10 => ⟨S24x24, .f32⟩
  | 11 => ⟨S32768x512, .f32⟩
  | 12 => ⟨S_, .f32⟩
  | 13 => ⟨S32768, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x512, .f32⟩
  | 20 => ⟨S32768x512, .f32⟩
  | 21 => ⟨S2x512, .f32⟩
  | 22 => ⟨S_, .f32⟩
  | 23 => ⟨S2, .f32⟩
  | 24 => ⟨S2x1, .f32⟩
  | 25 => ⟨S2x1, .f32⟩
  | 26 => ⟨S_, .f32⟩
  | 27 => ⟨S2x1, .f32⟩
  | 28 => ⟨S2x1, .f32⟩
  | 29 => ⟨S2x512, .f32⟩
  | 30 => ⟨S2x512, .f32⟩
  | 31 => ⟨S512x2, .f32⟩
  | 32 => ⟨S32768x2, .f32⟩
  | 33 => ⟨S_, .f32⟩
  | 34 => ⟨S32768x2, .f32⟩
  | 35 => ⟨S32768x2, .f32⟩
  | 36 => ⟨S_, .f32⟩
  | 37 => ⟨S32768, .f32⟩
  | 38 => ⟨S_, .f32⟩
  | 39 => ⟨S32768, .f32⟩
  | 40 => ⟨S32768, .f32⟩
  | 41 => ⟨S32768x1, .f32⟩
  | 42 => ⟨S32768x2, .f32⟩
  | 43 => ⟨S32768x2, .f32⟩
  | 44 => ⟨S32768x2, .f32⟩
  | 45 => ⟨S_, .f32⟩
  | 46 => ⟨S32768, .f32⟩
  | 47 => ⟨S32768x1, .f32⟩
  | 48 => ⟨S32768x2, .f32⟩
  | 49 => ⟨S32768x2, .f32⟩
  | 50 => ⟨S32768x2, .f32⟩
  | 51 => ⟨S_, .f32⟩
  | 52 => ⟨S32768, .f32⟩
  | 53 => ⟨S32768x1, .f32⟩
  | 54 => ⟨S_, .f32⟩
  | 55 => ⟨S32768x1, .f32⟩
  | 56 => ⟨S32768x1, .f32⟩
  | 57 => ⟨S32768x2, .f32⟩
  | 58 => ⟨S32768x2, .f32⟩
  | 59 => ⟨S32768x512, .f32⟩
  | 60 => ⟨S15x512, .f32⟩
  | 61 => ⟨S_, .f32⟩
  | 62 => ⟨S15, .f32⟩
  | 63 => ⟨S15x1, .f32⟩
  | 64 => ⟨S15x1, .f32⟩
  | 65 => ⟨S_, .f32⟩
  | 66 => ⟨S15x1, .f32⟩
  | 67 => ⟨S15x1, .f32⟩
  | 68 => ⟨S15x512, .f32⟩
  | 69 => ⟨S15x512, .f32⟩
  | 70 => ⟨S512x15, .f32⟩
  | 71 => ⟨S32768x15, .f32⟩
  | 72 => ⟨S_, .f32⟩
  | 73 => ⟨S32768x15, .f32⟩
  | 74 => ⟨S32768x15, .f32⟩
  | 75 => ⟨S_, .f32⟩
  | 76 => ⟨S32768, .f32⟩
  | 77 => ⟨S_, .f32⟩
  | 78 => ⟨S32768, .f32⟩
  | 79 => ⟨S32768, .f32⟩
  | 80 => ⟨S32768x1, .f32⟩
  | 81 => ⟨S32768x15, .f32⟩
  | 82 => ⟨S32768x15, .f32⟩
  | 83 => ⟨S32768x15, .f32⟩
  | 84 => ⟨S_, .f32⟩
  | 85 => ⟨S32768, .f32⟩
  | 86 => ⟨S32768x1, .f32⟩
  | 87 => ⟨S32768x15, .f32⟩
  | 88 => ⟨S32768x15, .f32⟩
  | 89 => ⟨S32768x15, .f32⟩
  | 90 => ⟨S_, .f32⟩
  | 91 => ⟨S32768, .f32⟩
  | 92 => ⟨S32768x1, .f32⟩
  | 93 => ⟨S_, .f32⟩
  | 94 => ⟨S32768x1, .f32⟩
  | 95 => ⟨S32768x1, .f32⟩
  | 96 => ⟨S32768x15, .f32⟩
  | 97 => ⟨S32768x15, .f32⟩
  | 98 => ⟨S32768x512, .f32⟩
  | 99 => ⟨S40x512, .f32⟩
  | 100 => ⟨S_, .f32⟩
  | 101 => ⟨S40, .f32⟩
  | 102 => ⟨S40x1, .f32⟩
  | 103 => ⟨S40x1, .f32⟩
  | 104 => ⟨S_, .f32⟩
  | 105 => ⟨S40x1, .f32⟩
  | 106 => ⟨S40x1, .f32⟩
  | 107 => ⟨S40x512, .f32⟩
  | 108 => ⟨S40x512, .f32⟩
  | 109 => ⟨S512x40, .f32⟩
  | 110 => ⟨S32768x40, .f32⟩
  | 111 => ⟨S_, .f32⟩
  | 112 => ⟨S32768x40, .f32⟩
  | 113 => ⟨S32768x40, .f32⟩
  | 114 => ⟨S_, .f32⟩
  | 115 => ⟨S32768, .f32⟩
  | 116 => ⟨S_, .f32⟩
  | 117 => ⟨S32768, .f32⟩
  | 118 => ⟨S32768, .f32⟩
  | 119 => ⟨S32768x1, .f32⟩
  | 120 => ⟨S32768x40, .f32⟩
  | 121 => ⟨S32768x40, .f32⟩
  | 122 => ⟨S32768x40, .f32⟩
  | 123 => ⟨S_, .f32⟩
  | 124 => ⟨S32768, .f32⟩
  | 125 => ⟨S32768x1, .f32⟩
  | 126 => ⟨S32768x40, .f32⟩
  | 127 => ⟨S32768x40, .f32⟩
  | _ => ⟨S32768x512, .f32⟩

abbrev hbmTy0_1 (i : Nat) : BufTy := match i % 128 with
  | 0 => ⟨S32768x40, .f32⟩
  | 1 => ⟨S_, .f32⟩
  | 2 => ⟨S32768, .f32⟩
  | 3 => ⟨S32768x1, .f32⟩
  | 4 => ⟨S_, .f32⟩
  | 5 => ⟨S32768x1, .f32⟩
  | 6 => ⟨S32768x1, .f32⟩
  | 7 => ⟨S32768x40, .f32⟩
  | 8 => ⟨S32768x40, .f32⟩
  | 9 => ⟨S32768x512, .f32⟩
  | 10 => ⟨S40x512, .f32⟩
  | 11 => ⟨S_, .f32⟩
  | 12 => ⟨S40, .f32⟩
  | 13 => ⟨S40x1, .f32⟩
  | 14 => ⟨S40x1, .f32⟩
  | 15 => ⟨S_, .f32⟩
  | 16 => ⟨S40x1, .f32⟩
  | 17 => ⟨S40x1, .f32⟩
  | 18 => ⟨S40x512, .f32⟩
  | 19 => ⟨S40x512, .f32⟩
  | 20 => ⟨S512x40, .f32⟩
  | 21 => ⟨S32768x40, .f32⟩
  | 22 => ⟨S_, .f32⟩
  | 23 => ⟨S32768x40, .f32⟩
  | 24 => ⟨S32768x40, .f32⟩
  | 25 => ⟨S_, .f32⟩
  | 26 => ⟨S32768, .f32⟩
  | 27 => ⟨S_, .f32⟩
  | 28 => ⟨S32768, .f32⟩
  | 29 => ⟨S32768, .f32⟩
  | 30 => ⟨S32768x1, .f32⟩
  | 31 => ⟨S32768x40, .f32⟩
  | 32 => ⟨S32768x40, .f32⟩
  | 33 => ⟨S32768x40, .f32⟩
  | 34 => ⟨S_, .f32⟩
  | 35 => ⟨S32768, .f32⟩
  | 36 => ⟨S32768x1, .f32⟩
  | 37 => ⟨S32768x40, .f32⟩
  | 38 => ⟨S32768x40, .f32⟩
  | 39 => ⟨S32768x40, .f32⟩
  | 40 => ⟨S_, .f32⟩
  | 41 => ⟨S32768, .f32⟩
  | 42 => ⟨S32768x1, .f32⟩
  | 43 => ⟨S_, .f32⟩
  | 44 => ⟨S32768x1, .f32⟩
  | 45 => ⟨S32768x1, .f32⟩
  | 46 => ⟨S32768x40, .f32⟩
  | 47 => ⟨S32768x40, .f32⟩
  | 48 => ⟨S32768x512, .f32⟩
  | 49 => ⟨S24x512, .f32⟩
  | 50 => ⟨S_, .f32⟩
  | 51 => ⟨S24, .f32⟩
  | 52 => ⟨S24x1, .f32⟩
  | 53 => ⟨S24x1, .f32⟩
  | 54 => ⟨S_, .f32⟩
  | 55 => ⟨S24x1, .f32⟩
  | 56 => ⟨S24x1, .f32⟩
  | 57 => ⟨S24x512, .f32⟩
  | 58 => ⟨S24x512, .f32⟩
  | 59 => ⟨S512x24, .f32⟩
  | 60 => ⟨S32768x24, .f32⟩
  | 61 => ⟨S_, .f32⟩
  | 62 => ⟨S32768x24, .f32⟩
  | 63 => ⟨S32768x24, .f32⟩
  | 64 => ⟨S_, .f32⟩
  | 65 => ⟨S32768, .f32⟩
  | 66 => ⟨S_, .f32⟩
  | 67 => ⟨S32768, .f32⟩
  | 68 => ⟨S32768, .f32⟩
  | 69 => ⟨S32768x1, .f32⟩
  | 70 => ⟨S32768x24, .f32⟩
  | 71 => ⟨S32768x24, .f32⟩
  | 72 => ⟨S32768x24, .f32⟩
  | 73 => ⟨S_, .f32⟩
  | 74 => ⟨S32768, .f32⟩
  | 75 => ⟨S32768x1, .f32⟩
  | 76 => ⟨S32768x24, .f32⟩
  | 77 => ⟨S32768x24, .f32⟩
  | 78 => ⟨S32768x24, .f32⟩
  | 79 => ⟨S_, .f32⟩
  | 80 => ⟨S32768, .f32⟩
  | 81 => ⟨S32768x1, .f32⟩
  | 82 => ⟨S_, .f32⟩
  | 83 => ⟨S32768x1, .f32⟩
  | 84 => ⟨S32768x1, .f32⟩
  | 85 => ⟨S32768x24, .f32⟩
  | 86 => ⟨S32768x24, .f32⟩
  | 87 => ⟨S32768x512, .f32⟩
  | 88 => ⟨S32768x1x512, .f32⟩
  | 89 => ⟨S32768x1x512, .f32⟩
  | 90 => ⟨S32768x1x512, .f32⟩
  | 91 => ⟨S32768x1x512, .f32⟩
  | 92 => ⟨S32768x1x512, .f32⟩
  | 93 => ⟨S32768x5x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v0 : Ref sig .tc := ⟨.hbm, 15, rfl⟩
abbrev main_cst_4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_6 : Ref sig .tc := ⟨.hbm, 33, rfl⟩
abbrev main_v12 : Ref sig .tc := ⟨.hbm, 34, rfl⟩
abbrev main_v13 : Ref sig .tc := ⟨.hbm, 35, rfl⟩
abbrev main_cst_7 : Ref sig .tc := ⟨.hbm, 36, rfl⟩
abbrev main_v14 : Ref sig .tc := ⟨.hbm, 37, rfl⟩
abbrev main_cst_8 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_9 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_10 : Ref sig .tc := ⟨.hbm, 51, rfl⟩
abbrev main_v26 : Ref sig .tc := ⟨.hbm, 52, rfl⟩
abbrev main_v27 : Ref sig .tc := ⟨.hbm, 53, rfl⟩
abbrev main_cst_11 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call2_v0 : Ref sig .tc := ⟨.hbm, 60, rfl⟩
abbrev main_call2_cst : Ref sig .tc := ⟨.hbm, 61, rfl⟩
abbrev main_call2_v1 : Ref sig .tc := ⟨.hbm, 62, rfl⟩
abbrev main_call2_v2 : Ref sig .tc := ⟨.hbm, 63, rfl⟩
abbrev main_v33 : Ref sig .tc := ⟨.hbm, 64, rfl⟩
abbrev main_cst_12 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_13 : Ref sig .tc := ⟨.hbm, 72, rfl⟩
abbrev main_v40 : Ref sig .tc := ⟨.hbm, 73, rfl⟩
abbrev main_v41 : Ref sig .tc := ⟨.hbm, 74, rfl⟩
abbrev main_cst_14 : Ref sig .tc := ⟨.hbm, 75, rfl⟩
abbrev main_v42 : Ref sig .tc := ⟨.hbm, 76, rfl⟩
abbrev main_cst_15 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_16 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_17 : Ref sig .tc := ⟨.hbm, 90, rfl⟩
abbrev main_v54 : Ref sig .tc := ⟨.hbm, 91, rfl⟩
abbrev main_v55 : Ref sig .tc := ⟨.hbm, 92, rfl⟩
abbrev main_cst_18 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_call3_v0 : Ref sig .tc := ⟨.hbm, 99, rfl⟩
abbrev main_call3_cst : Ref sig .tc := ⟨.hbm, 100, rfl⟩
abbrev main_call3_v1 : Ref sig .tc := ⟨.hbm, 101, rfl⟩
abbrev main_call3_v2 : Ref sig .tc := ⟨.hbm, 102, rfl⟩
abbrev main_v61 : Ref sig .tc := ⟨.hbm, 103, rfl⟩
abbrev main_cst_19 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_20 : Ref sig .tc := ⟨.hbm, 111, rfl⟩
abbrev main_v68 : Ref sig .tc := ⟨.hbm, 112, rfl⟩
abbrev main_v69 : Ref sig .tc := ⟨.hbm, 113, rfl⟩
abbrev main_cst_21 : Ref sig .tc := ⟨.hbm, 114, rfl⟩
abbrev main_v70 : Ref sig .tc := ⟨.hbm, 115, rfl⟩
abbrev main_cst_22 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_23 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_24 : Ref sig .tc := ⟨.hbm, 129, rfl⟩
abbrev main_v82 : Ref sig .tc := ⟨.hbm, 130, rfl⟩
abbrev main_v83 : Ref sig .tc := ⟨.hbm, 131, rfl⟩
abbrev main_cst_25 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_call4_v0 : Ref sig .tc := ⟨.hbm, 138, rfl⟩
abbrev main_call4_cst : Ref sig .tc := ⟨.hbm, 139, rfl⟩
abbrev main_call4_v1 : Ref sig .tc := ⟨.hbm, 140, rfl⟩
abbrev main_call4_v2 : Ref sig .tc := ⟨.hbm, 141, rfl⟩
abbrev main_v89 : Ref sig .tc := ⟨.hbm, 142, rfl⟩
abbrev main_cst_26 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_27 : Ref sig .tc := ⟨.hbm, 150, rfl⟩
abbrev main_v96 : Ref sig .tc := ⟨.hbm, 151, rfl⟩
abbrev main_v97 : Ref sig .tc := ⟨.hbm, 152, rfl⟩
abbrev main_cst_28 : Ref sig .tc := ⟨.hbm, 153, rfl⟩
abbrev main_v98 : Ref sig .tc := ⟨.hbm, 154, rfl⟩
abbrev main_cst_29 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_30 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_cst_31 : Ref sig .tc := ⟨.hbm, 168, rfl⟩
abbrev main_v110 : Ref sig .tc := ⟨.hbm, 169, rfl⟩
abbrev main_v111 : Ref sig .tc := ⟨.hbm, 170, rfl⟩
abbrev main_cst_32 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_call5_v0 : Ref sig .tc := ⟨.hbm, 177, rfl⟩
abbrev main_call5_cst : Ref sig .tc := ⟨.hbm, 178, rfl⟩
abbrev main_call5_v1 : Ref sig .tc := ⟨.hbm, 179, rfl⟩
abbrev main_call5_v2 : Ref sig .tc := ⟨.hbm, 180, rfl⟩
abbrev main_v117 : Ref sig .tc := ⟨.hbm, 181, rfl⟩
abbrev main_cst_33 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_cst_34 : Ref sig .tc := ⟨.hbm, 189, rfl⟩
abbrev main_v124 : Ref sig .tc := ⟨.hbm, 190, rfl⟩
abbrev main_v125 : Ref sig .tc := ⟨.hbm, 191, rfl⟩
abbrev main_cst_35 : Ref sig .tc := ⟨.hbm, 192, rfl⟩
abbrev main_v126 : Ref sig .tc := ⟨.hbm, 193, rfl⟩
abbrev main_cst_36 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_37 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_38 : Ref sig .tc := ⟨.hbm, 207, rfl⟩
abbrev main_v138 : Ref sig .tc := ⟨.hbm, 208, rfl⟩
abbrev main_v139 : Ref sig .tc := ⟨.hbm, 209, rfl⟩
abbrev main_cst_39 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  reducesTo_S2x512_S2_d1 : S2x512.ReducesTo [1] S2
  bcast_S2_S2x1_0 : S2.BroadcastsInDim S2x1 (![0] : Fin 1 → Fin S2x1.rank)
  bcast_S_S2x1 : S_.BroadcastsInDim S2x1 (![] : Fin 0 → Fin S2x1.rank)
  bcast_S2x1_S2x512_0_1 : S2x1.BroadcastsInDim S2x512 (![0, 1] : Fin 2 → Fin S2x512.rank)
  transposes_S2x512_S512x2_1_0 : S2x512.Transposes [1, 0] S512x2
  bcast_S_S32768x2 : S_.BroadcastsInDim S32768x2 (![] : Fin 0 → Fin S32768x2.rank)
  reducesTo_S32768x2_S32768_d1 : S32768x2.ReducesTo [1] S32768
  bcast_S_S32768 : S_.BroadcastsInDim S32768 (![] : Fin 0 → Fin S32768.rank)
  bcast_S32768x1_S32768x2_0_1 : S32768x1.BroadcastsInDim S32768x2 (![0, 1] : Fin 2 → Fin S32768x2.rank)
  reducesTo_S15x512_S15_d1 : S15x512.ReducesTo [1] S15
  bcast_S15_S15x1_0 : S15.BroadcastsInDim S15x1 (![0] : Fin 1 → Fin S15x1.rank)
  bcast_S_S15x1 : S_.BroadcastsInDim S15x1 (![] : Fin 0 → Fin S15x1.rank)
  bcast_S15x1_S15x512_0_1 : S15x1.BroadcastsInDim S15x512 (![0, 1] : Fin 2 → Fin S15x512.rank)
  transposes_S15x512_S512x15_1_0 : S15x512.Transposes [1, 0] S512x15
  bcast_S_S32768x15 : S_.BroadcastsInDim S32768x15 (![] : Fin 0 → Fin S32768x15.rank)
  reducesTo_S32768x15_S32768_d1 : S32768x15.ReducesTo [1] S32768
  bcast_S32768x1_S32768x15_0_1 : S32768x1.BroadcastsInDim S32768x15 (![0, 1] : Fin 2 → Fin S32768x15.rank)
  reducesTo_S40x512_S40_d1 : S40x512.ReducesTo [1] S40
  bcast_S40_S40x1_0 : S40.BroadcastsInDim S40x1 (![0] : Fin 1 → Fin S40x1.rank)
  bcast_S_S40x1 : S_.BroadcastsInDim S40x1 (![] : Fin 0 → Fin S40x1.rank)
  bcast_S40x1_S40x512_0_1 : S40x1.BroadcastsInDim S40x512 (![0, 1] : Fin 2 → Fin S40x512.rank)
  transposes_S40x512_S512x40_1_0 : S40x512.Transposes [1, 0] S512x40
  bcast_S_S32768x40 : S_.BroadcastsInDim S32768x40 (![] : Fin 0 → Fin S32768x40.rank)
  reducesTo_S32768x40_S32768_d1 : S32768x40.ReducesTo [1] S32768
  bcast_S32768x1_S32768x40_0_1 : S32768x1.BroadcastsInDim S32768x40 (![0, 1] : Fin 2 → Fin S32768x40.rank)
  reducesTo_S24x512_S24_d1 : S24x512.ReducesTo [1] S24
  bcast_S24_S24x1_0 : S24.BroadcastsInDim S24x1 (![0] : Fin 1 → Fin S24x1.rank)
  bcast_S_S24x1 : S_.BroadcastsInDim S24x1 (![] : Fin 0 → Fin S24x1.rank)
  bcast_S24x1_S24x512_0_1 : S24x1.BroadcastsInDim S24x512 (![0, 1] : Fin 2 → Fin S24x512.rank)
  transposes_S24x512_S512x24_1_0 : S24x512.Transposes [1, 0] S512x24
  bcast_S_S32768x24 : S_.BroadcastsInDim S32768x24 (![] : Fin 0 → Fin S32768x24.rank)
  reducesTo_S32768x24_S32768_d1 : S32768x24.ReducesTo [1] S32768
  bcast_S32768x1_S32768x24_0_1 : S32768x1.BroadcastsInDim S32768x24 (![0, 1] : Fin 2 → Fin S32768x24.rank)
  bcast_S32768x512_S32768x1x512_0_2 : S32768x512.BroadcastsInDim S32768x1x512 (![0, 2] : Fin 2 → Fin S32768x1x512.rank)
  concatenates_S32768x1x512_S32768x1x512_S32768x1x512_S32768x1x512_S32768x1x512_S32768x5x512_d1 : Shape.Concatenates [S32768x1x512, S32768x1x512, S32768x1x512, S32768x1x512, S32768x1x512] S32768x5x512 1
  dot_S32768x512_S512x2_S32768x2_1_0_0_1_n_n_wf : DotDims.WF S32768x512 S512x2 S32768x2 [1] [0] [0] [1] [] []
  dot_S32768x2_S2x2_S32768x2_1_0_0_1_n_n_wf : DotDims.WF S32768x2 S2x2 S32768x2 [1] [0] [0] [1] [] []
  dot_S32768x2_S2x512_S32768x512_1_0_0_1_n_n_wf : DotDims.WF S32768x2 S2x512 S32768x512 [1] [0] [0] [1] [] []
  dot_S32768x512_S512x15_S32768x15_1_0_0_1_n_n_wf : DotDims.WF S32768x512 S512x15 S32768x15 [1] [0] [0] [1] [] []
  dot_S32768x15_S15x15_S32768x15_1_0_0_1_n_n_wf : DotDims.WF S32768x15 S15x15 S32768x15 [1] [0] [0] [1] [] []
  dot_S32768x15_S15x512_S32768x512_1_0_0_1_n_n_wf : DotDims.WF S32768x15 S15x512 S32768x512 [1] [0] [0] [1] [] []
  dot_S32768x512_S512x40_S32768x40_1_0_0_1_n_n_wf : DotDims.WF S32768x512 S512x40 S32768x40 [1] [0] [0] [1] [] []
  dot_S32768x40_S40x40_S32768x40_1_0_0_1_n_n_wf : DotDims.WF S32768x40 S40x40 S32768x40 [1] [0] [0] [1] [] []
  dot_S32768x40_S40x512_S32768x512_1_0_0_1_n_n_wf : DotDims.WF S32768x40 S40x512 S32768x512 [1] [0] [0] [1] [] []
  dot_S32768x512_S512x24_S32768x24_1_0_0_1_n_n_wf : DotDims.WF S32768x512 S512x24 S32768x24 [1] [0] [0] [1] [] []
  dot_S32768x24_S24x24_S32768x24_1_0_0_1_n_n_wf : DotDims.WF S32768x24 S24x24 S32768x24 [1] [0] [0] [1] [] []
  dot_S32768x24_S24x512_S32768x512_1_0_0_1_n_n_wf : DotDims.WF S32768x24 S24x512 S32768x512 [1] [0] [0] [1] [] []

variable [Facts₀]

def dot_S32768x512_S512x2_S32768x2_1_0_0_1_n_n : DotDims S32768x512 S512x2 S32768x2 where
  lhsContracting := [1]
  rhsContracting := [0]
  lhsNonContracting := [0]
  rhsNonContracting := [1]
  lhsBatch := []
  rhsBatch := []
  wf := dot_S32768x512_S512x2_S32768x2_1_0_0_1_n_n_wf
def dot_S32768x2_S2x2_S32768x2_1_0_0_1_n_n : DotDims S32768x2 S2x2 S32768x2 where
  lhsContracting := [1]
  rhsContracting := [0]
  lhsNonContracting := [0]
  rhsNonContracting := [1]
  lhsBatch := []
  rhsBatch := []
  wf := dot_S32768x2_S2x2_S32768x2_1_0_0_1_n_n_wf
def dot_S32768x2_S2x512_S32768x512_1_0_0_1_n_n : DotDims S32768x2 S2x512 S32768x512 where
  lhsContracting := [1]
  rhsContracting := [0]
  lhsNonContracting := [0]
  rhsNonContracting := [1]
  lhsBatch := []
  rhsBatch := []
  wf := dot_S32768x2_S2x512_S32768x512_1_0_0_1_n_n_wf
def dot_S32768x512_S512x15_S32768x15_1_0_0_1_n_n : DotDims S32768x512 S512x15 S32768x15 where
  lhsContracting := [1]
  rhsContracting := [0]
  lhsNonContracting := [0]
  rhsNonContracting := [1]
  lhsBatch := []
  rhsBatch := []
  wf := dot_S32768x512_S512x15_S32768x15_1_0_0_1_n_n_wf
def dot_S32768x15_S15x15_S32768x15_1_0_0_1_n_n : DotDims S32768x15 S15x15 S32768x15 where
  lhsContracting := [1]
  rhsContracting := [0]
  lhsNonContracting := [0]
  rhsNonContracting := [1]
  lhsBatch := []
  rhsBatch := []
  wf := dot_S32768x15_S15x15_S32768x15_1_0_0_1_n_n_wf
def dot_S32768x15_S15x512_S32768x512_1_0_0_1_n_n : DotDims S32768x15 S15x512 S32768x512 where
  lhsContracting := [1]
  rhsContracting := [0]
  lhsNonContracting := [0]
  rhsNonContracting := [1]
  lhsBatch := []
  rhsBatch := []
  wf := dot_S32768x15_S15x512_S32768x512_1_0_0_1_n_n_wf
def dot_S32768x512_S512x40_S32768x40_1_0_0_1_n_n : DotDims S32768x512 S512x40 S32768x40 where
  lhsContracting := [1]
  rhsContracting := [0]
  lhsNonContracting := [0]
  rhsNonContracting := [1]
  lhsBatch := []
  rhsBatch := []
  wf := dot_S32768x512_S512x40_S32768x40_1_0_0_1_n_n_wf
def dot_S32768x40_S40x40_S32768x40_1_0_0_1_n_n : DotDims S32768x40 S40x40 S32768x40 where
  lhsContracting := [1]
  rhsContracting := [0]
  lhsNonContracting := [0]
  rhsNonContracting := [1]
  lhsBatch := []
  rhsBatch := []
  wf := dot_S32768x40_S40x40_S32768x40_1_0_0_1_n_n_wf
def dot_S32768x40_S40x512_S32768x512_1_0_0_1_n_n : DotDims S32768x40 S40x512 S32768x512 where
  lhsContracting := [1]
  rhsContracting := [0]
  lhsNonContracting := [0]
  rhsNonContracting := [1]
  lhsBatch := []
  rhsBatch := []
  wf := dot_S32768x40_S40x512_S32768x512_1_0_0_1_n_n_wf
def dot_S32768x512_S512x24_S32768x24_1_0_0_1_n_n : DotDims S32768x512 S512x24 S32768x24 where
  lhsContracting := [1]
  rhsContracting := [0]
  lhsNonContracting := [0]
  rhsNonContracting := [1]
  lhsBatch := []
  rhsBatch := []
  wf := dot_S32768x512_S512x24_S32768x24_1_0_0_1_n_n_wf
def dot_S32768x24_S24x24_S32768x24_1_0_0_1_n_n : DotDims S32768x24 S24x24 S32768x24 where
  lhsContracting := [1]
  rhsContracting := [0]
  lhsNonContracting := [0]
  rhsNonContracting := [1]
  lhsBatch := []
  rhsBatch := []
  wf := dot_S32768x24_S24x24_S32768x24_1_0_0_1_n_n_wf
def dot_S32768x24_S24x512_S32768x512_1_0_0_1_n_n : DotDims S32768x24 S24x512 S32768x512 where
  lhsContracting := [1]
  rhsContracting := [0]
  lhsNonContracting := [0]
  rhsNonContracting := [1]
  lhsBatch := []
  rhsBatch := []
  wf := dot_S32768x24_S24x512_S32768x512_1_0_0_1_n_n_wf

class Facts : Prop extends Facts₀ where

variable [Facts]
-- ==== Proof.Rows.lean ====
/-
  One row of the computation, over plain finite index types and the extended reals: a vector scaled by the inverse of
  its length plus a small constant; the similarity of a unit vector to each unit prototype, divided by the temperature;
  the softmax of those; the soft assignment spread through the affinity table and scaled by its total plus the same
  small constant; and the prototypes mixed by that assignment. Both programs compute these, row by row.
-/
import Idealize.ShloMosaic.PureOps.Ideal

noncomputable section

open scoped BigOperators

namespace Cert.Rows

open Idealize.ShloMosaic

/-- The small constant added to a length and to a total: the value of its f32 word. -/
abbrev eps : EReal := Ideal.ofBits .f32 0x358637BD#32
/-- The temperature: the value of its f32 word. -/
abbrev tau : EReal := Ideal.ofBits .f32 0x3D8F5C29#32
/-- The value a maximum starts from: the f32 word of minus infinity. -/
abbrev ninf : EReal := Ideal.ofBits .f32 0xFF800000#32

/-- A vector divided by (the square root of its sum of squares) plus `eps`. -/
def unitRow {n : ℕ} (v : Fin n → EReal) (j : Fin n) : EReal :=
  Ideal.div (v j) (Ideal.sqrt (∑ k, v k * v k) + eps)

/-- The inner product of `xn` with prototype `k`'s row of `pn`, divided by the temperature. -/
def logitRow {K D : ℕ} (xn : Fin D → EReal) (pn : Fin K → Fin D → EReal) (k : Fin K) : EReal :=
  Ideal.div (∑ j, xn j * pn k j) tau

/-- The softmax: each entry minus the maximum, exponentiated, over the sum of those. -/
def softRow {K : ℕ} (z : Fin K → EReal) (k : Fin K) : EReal :=
  Ideal.div (Ideal.exp (z k - Finset.univ.fold max ninf z)) (∑ k', Ideal.exp (z k' - Finset.univ.fold max ninf z))

/-- The assignment times the affinity table, divided by (the total of that product) plus `eps`. -/
def renormRow {K : ℕ} (A : Fin K → Fin K → EReal) (q : Fin K → EReal) (k : Fin K) : EReal :=
  Ideal.div (∑ k', q k' * A k' k) ((∑ k2, ∑ k', q k' * A k' k2) + eps)

/-- The prototypes mixed by the weights `w`. -/
def outRow {K D : ℕ} (w : Fin K → EReal) (P : Fin K → Fin D → EReal) (d : Fin D) : EReal :=
  ∑ k, w k * P k d

/-- One group's output row from a unit input row, the group's prototypes and its affinity table. -/
def groupRow {K D : ℕ} (xn : Fin D → EReal) (P : Fin K → Fin D → EReal) (A : Fin K → Fin K → EReal) (d : Fin D) : EReal :=
  outRow (renormRow A (softRow (logitRow xn fun k => unitRow (P k)))) P d

end Cert.Rows

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KernelChain.lean ====
/-
  The kernel body's vector operations for one group, stated once for any block height M, prototype count K and
  feature width D, and what each stage holds at an index over the extended reals: the rows of `Cert.Rows`.
-/
import proofs.«140027_j62843961475556_1_alg».proof.Proof.Rows
import proofs.«140027_j62843961475556_1_alg».proof.Proof.LibPlainDot
import proofs.«140027_j62843961475556_1_alg».proof.Proof.LibKeepdims
import Idealize.ShloMosaic.Lib.ValueLayout

noncomputable section

open scoped BigOperators

namespace Cert.KernelChain

open Idealize.ShloMosaic Idealize.ShloMosaic.ValueIdx Cert.Rows

variable {F : FTy → Type} [FloatOps F]

/-- Each row of an [a, b] block divided by its length plus the small constant. -/
def unitRows (a b : ℕ) (x : FVec F ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) : FVec F ⟨2, ![a, b]⟩ .f32 :=
  divf x (broadcastTo ⟨2, ![a, b]⟩ (addf (sqrt (shapeCast ⟨2, ![a, 1]⟩ (multiReduction .add [1] ⟨1, ![a]⟩ (mulf x x) 0x00000000#32 hr (.inl rfl) rfl) hc))
    (broadcast ⟨2, ![a, 1]⟩ (Scalar.ofBits .f32 0x358637BD#32))) hb)

/-- The [M, K] similarities of the unit rows `xn` with the unit prototypes `pn`, over the temperature. -/
def logits (M K D : ℕ) (xn : FVec F ⟨2, ![M, D]⟩ .f32) (pn : FVec F ⟨2, ![K, D]⟩ .f32)
    (ht : (⟨2, ![K, D]⟩ : Shape).Transposes [1, 0] ⟨2, ![D, K]⟩)
    (d1 : DotDims ⟨2, ![M, D]⟩ ⟨2, ![D, K]⟩ ⟨2, ![M, K]⟩) : FVec F ⟨2, ![M, K]⟩ .f32 :=
  divf (matmul d1 none xn (transpose ⟨2, ![D, K]⟩ [1, 0] pn ht) (constant ⟨2, ![M, K]⟩ .f32 0x00000000#32))
    (broadcast ⟨2, ![M, K]⟩ (Scalar.ofBits .f32 0x3D8F5C29#32))

/-- The softmax of each row of `z`. -/
def softmax (M K : ℕ) (z : FVec F ⟨2, ![M, K]⟩ .f32)
    (hr : (⟨2, ![M, K]⟩ : Shape).Reduces [1] ⟨1, ![M]⟩) (hc : (⟨1, ![M]⟩ : Shape).ShapeCasts ⟨2, ![M, 1]⟩)
    (hb : (⟨2, ![M, 1]⟩ : Shape).Broadcasts ⟨2, ![M, K]⟩) : FVec F ⟨2, ![M, K]⟩ .f32 :=
  have e : FVec F ⟨2, ![M, K]⟩ .f32 := exp (subf z (broadcastTo ⟨2, ![M, K]⟩ (shapeCast ⟨2, ![M, 1]⟩ (multiReduction .maximumf [1] ⟨1, ![M]⟩ z 0xFF800000#32 hr (.inl rfl) rfl) hc) hb))
  divf e (broadcastTo ⟨2, ![M, K]⟩ (shapeCast ⟨2, ![M, 1]⟩ (multiReduction .add [1] ⟨1, ![M]⟩ e 0x00000000#32 hr (.inl rfl) rfl) hc) hb)

/-- The assignment `q` times the affinity table `A`, each row divided by its total plus the small constant. -/
def renorm (M K : ℕ) (A : FVec F ⟨2, ![K, K]⟩ .f32) (q : FVec F ⟨2, ![M, K]⟩ .f32)
    (d2 : DotDims ⟨2, ![M, K]⟩ ⟨2, ![K, K]⟩ ⟨2, ![M, K]⟩)
    (hr : (⟨2, ![M, K]⟩ : Shape).Reduces [1] ⟨1, ![M]⟩) (hc : (⟨1, ![M]⟩ : Shape).ShapeCasts ⟨2, ![M, 1]⟩)
    (hb : (⟨2, ![M, 1]⟩ : Shape).Broadcasts ⟨2, ![M, K]⟩) : FVec F ⟨2, ![M, K]⟩ .f32 :=
  have qa : FVec F ⟨2, ![M, K]⟩ .f32 := matmul d2 none q A (constant ⟨2, ![M, K]⟩ .f32 0x00000000#32)
  divf qa (broadcastTo ⟨2, ![M, K]⟩ (addf (shapeCast ⟨2, ![M, 1]⟩ (multiReduction .add [1] ⟨1, ![M]⟩ qa 0x00000000#32 hr (.inl rfl) rfl) hc)
    (broadcast ⟨2, ![M, 1]⟩ (Scalar.ofBits .f32 0x358637BD#32))) hb)

/-- The prototypes mixed by the weights `w`, laid out as the [M, 1, D] slab a group's store writes. -/
def mixed (M K D : ℕ) (w : FVec F ⟨2, ![M, K]⟩ .f32) (P : FVec F ⟨2, ![K, D]⟩ .f32)
    (d3 : DotDims ⟨2, ![M, K]⟩ ⟨2, ![K, D]⟩ ⟨2, ![M, D]⟩)
    (hc3 : (⟨2, ![M, D]⟩ : Shape).ShapeCasts ⟨3, ![M, 1, D]⟩) : FVec F ⟨3, ![M, 1, D]⟩ .f32 :=
  shapeCast ⟨3, ![M, 1, D]⟩ (matmul d3 none w P (constant ⟨2, ![M, D]⟩ .f32 0x00000000#32)) hc3

/-- One group's slab from the unit rows `xn`, the group's prototypes `P` and its affinity table `A`. -/
def group (M K D : ℕ) (xn : FVec F ⟨2, ![M, D]⟩ .f32) (P : FVec F ⟨2, ![K, D]⟩ .f32) (A : FVec F ⟨2, ![K, K]⟩ .f32)
    (hrP : (⟨2, ![K, D]⟩ : Shape).Reduces [1] ⟨1, ![K]⟩) (hcP : (⟨1, ![K]⟩ : Shape).ShapeCasts ⟨2, ![K, 1]⟩)
    (hbP : (⟨2, ![K, 1]⟩ : Shape).Broadcasts ⟨2, ![K, D]⟩) (ht : (⟨2, ![K, D]⟩ : Shape).Transposes [1, 0] ⟨2, ![D, K]⟩)
    (d1 : DotDims ⟨2, ![M, D]⟩ ⟨2, ![D, K]⟩ ⟨2, ![M, K]⟩) (d2 : DotDims ⟨2, ![M, K]⟩ ⟨2, ![K, K]⟩ ⟨2, ![M, K]⟩)
    (d3 : DotDims ⟨2, ![M, K]⟩ ⟨2, ![K, D]⟩ ⟨2, ![M, D]⟩)
    (hr : (⟨2, ![M, K]⟩ : Shape).Reduces [1] ⟨1, ![M]⟩) (hc : (⟨1, ![M]⟩ : Shape).ShapeCasts ⟨2, ![M, 1]⟩)
    (hb : (⟨2, ![M, 1]⟩ : Shape).Broadcasts ⟨2, ![M, K]⟩)
    (hc3 : (⟨2, ![M, D]⟩ : Shape).ShapeCasts ⟨3, ![M, 1, D]⟩) : FVec F ⟨3, ![M, 1, D]⟩ .f32 :=
  mixed M K D (renorm M K A (softmax M K (logits M K D xn (unitRows K D P hrP hcP hbP) ht d1) hr hc hb) d2 hr hc hb) P d3 hc3

/-! ## The stages at an index, over the extended reals -/

/-- A lane maximum of an `[a, b]` array over its second axis, from the accumulator's value, reads at row `r` as the
    fold of `max` over the row. -/
private theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  have e : (src ∘ h.lift (ix1 r)) = fun k : Fin b => src (ix2 r k) := funext fun k =>
    congrArg src (funext fun ax => Fin.ext (by
      rw [Shape.Reduces.lift_val]
      match ax with
      | ⟨0, _⟩ => rfl
      | ⟨1, _⟩ => rfl))
  exact congrArg (fun f : Fin b → EReal => Finset.fold max (Ideal.ofBits φ acc) f Finset.univ) e

/-- An `[a, b]` array cast to the slab `[a, 1, b]` reads, at `(r, u, d)`, the operand at `(r, d)`. -/
private theorem shapeCast_ab_a1b_apply {α : Type} {a b : ℕ} (x : (⟨2, ![a, b]⟩ : Shape).Idx → α)
    (h : (⟨2, ![a, b]⟩ : Shape).ShapeCasts ⟨3, ![a, 1, b]⟩) (r : Fin a) (u : Fin 1) (d : Fin b) :
    shapeCast ⟨3, ![a, 1, b]⟩ x h (ix3 r u d) = x (ix2 r d) :=
  shapeCast_apply x h _ _ (by
    have hu : u.val = 0 := by omega
    rw [Shape.rowMajor_val_two, Shape.rowMajor_val_three]
    show r.val * b + d.val = (r.val * 1 + u.val) * b + d.val
    rw [hu, Nat.mul_one, Nat.add_zero])

theorem unitRows_apply (a b : ℕ) (x : FVec Ideal ⟨2, ![a, b]⟩ .f32) (hr hc hb) (r : Fin a) (j : Fin b) :
    unitRows a b x hr hc hb (ix2 r j) = unitRow (fun j' => x (ix2 r j')) j := by
  unfold unitRows unitRow
  rw [divf_apply, Keepdims.broadcastTo_a1_ab_apply, addf_apply]
  refine congrArg (Ideal.div (x (ix2 r j))) (congrArg₂ (· + ·) (congrArg Ideal.sqrt ?_) rfl)
  refine (Keepdims.shapeCast_a_a1_apply _ hc r 0).trans ?_
  exact Keepdims.laneSum_apply (mulf x x) _ hr _ _ r

theorem logits_apply (M K D : ℕ) (xn : FVec Ideal ⟨2, ![M, D]⟩ .f32) (pn : FVec Ideal ⟨2, ![K, D]⟩ .f32) (ht)
    (d1 : DotDims ⟨2, ![M, D]⟩ ⟨2, ![D, K]⟩ ⟨2, ![M, K]⟩) (e1 : d1 = DotDims.plain M D K) (r : Fin M) (k : Fin K) :
    logits M K D xn pn ht d1 (ix2 r k) = logitRow (fun j => xn (ix2 r j)) (fun k' j => pn (ix2 k' j)) k := by
  subst e1
  unfold logits logitRow
  rw [divf_apply]
  refine congrArg₂ Ideal.div ?_ rfl
  refine (PlainDot.matmul_zero_apply M D K xn _ (ix2 r k)).trans ?_
  refine Finset.sum_congr rfl fun j _ => ?_
  exact congrArg (xn (ix2 r j) * ·) (transpose_ix2_apply pn ht j k)

/-- The exponential of a row entry minus the row's maximum: the numerator of the softmax, at an index. -/
private theorem expShift_apply (M K : ℕ) (z : FVec Ideal ⟨2, ![M, K]⟩ .f32) (hr hc hb) (r : Fin M) (k : Fin K) :
    exp (subf z (broadcastTo ⟨2, ![M, K]⟩ (shapeCast ⟨2, ![M, 1]⟩
        (multiReduction .maximumf [1] ⟨1, ![M]⟩ z 0xFF800000#32 hr (.inl rfl) rfl) hc) hb)) (ix2 r k)
      = Ideal.exp (z (ix2 r k) - Finset.univ.fold max ninf fun k' => z (ix2 r k')) := by
  show Ideal.exp (z (ix2 r k) - broadcastTo ⟨2, ![M, K]⟩ _ hb (ix2 r k)) = _
  rw [Keepdims.broadcastTo_a1_ab_apply, Keepdims.shapeCast_a_a1_apply]
  exact congrArg (fun m => Ideal.exp (z (ix2 r k) - m)) (laneMax_apply z _ hr _ _ r)

theorem softmax_apply (M K : ℕ) (z : FVec Ideal ⟨2, ![M, K]⟩ .f32) (hr hc hb) (r : Fin M) (k : Fin K) :
    softmax M K z hr hc hb (ix2 r k) = softRow (fun k' => z (ix2 r k')) k := by
  unfold softmax softRow
  rw [divf_apply, Keepdims.broadcastTo_a1_ab_apply, Keepdims.shapeCast_a_a1_apply]
  refine congrArg₂ Ideal.div (expShift_apply M K z hr hc hb r k) ?_
  refine (Keepdims.laneSum_apply _ _ hr _ _ r).trans ?_
  exact Finset.sum_congr rfl fun k' _ => expShift_apply M K z hr hc hb r k'

theorem renorm_apply (M K : ℕ) (A : FVec Ideal ⟨2, ![K, K]⟩ .f32) (q : FVec Ideal ⟨2, ![M, K]⟩ .f32)
    (d2 : DotDims ⟨2, ![M, K]⟩ ⟨2, ![K, K]⟩ ⟨2, ![M, K]⟩) (e2 : d2 = DotDims.plain M K K) (hr hc hb) (r : Fin M) (k : Fin K) :
    renorm M K A q d2 hr hc hb (ix2 r k) = renormRow (fun k1 k2 => A (ix2 k1 k2)) (fun k' => q (ix2 r k')) k := by
  subst e2
  have hqa : ∀ k2 : Fin K, matmul (DotDims.plain M K K) none q A (constant ⟨2, ![M, K]⟩ .f32 0x00000000#32) (ix2 r k2)
      = ∑ k', q (ix2 r k') * A (ix2 k' k2) := fun k2 => PlainDot.matmul_zero_apply M K K q A (ix2 r k2)
  unfold renorm renormRow
  rw [divf_apply, hqa, Keepdims.broadcastTo_a1_ab_apply, addf_apply, Keepdims.shapeCast_a_a1_apply]
  refine congrArg (Ideal.div _) (congrArg₂ (· + ·) ?_ rfl)
  refine (Keepdims.laneSum_apply _ _ hr _ _ r).trans ?_
  exact Finset.sum_congr rfl fun k2 _ => hqa k2

theorem mixed_apply (M K D : ℕ) (w : FVec Ideal ⟨2, ![M, K]⟩ .f32) (P : FVec Ideal ⟨2, ![K, D]⟩ .f32)
    (d3 : DotDims ⟨2, ![M, K]⟩ ⟨2, ![K, D]⟩ ⟨2, ![M, D]⟩) (e3 : d3 = DotDims.plain M K D) (hc3) (r : Fin M) (u : Fin 1) (d : Fin D) :
    mixed M K D w P d3 hc3 (ix3 r u d) = outRow (fun k => w (ix2 r k)) (fun k j => P (ix2 k j)) d := by
  subst e3
  unfold mixed outRow
  refine (shapeCast_ab_a1b_apply _ hc3 r u d).trans ?_
  exact PlainDot.matmul_zero_apply M K D w P (ix2 r d)

/-- One group's slab at (r, ·, d): the group's row function of row r of the unit input. -/
theorem group_apply (M K D : ℕ) (xn : FVec Ideal ⟨2, ![M, D]⟩ .f32) (P : FVec Ideal ⟨2, ![K, D]⟩ .f32) (A : FVec Ideal ⟨2, ![K, K]⟩ .f32)
    (hrP hcP hbP ht) (d1 : DotDims ⟨2, ![M, D]⟩ ⟨2, ![D, K]⟩ ⟨2, ![M, K]⟩) (d2 : DotDims ⟨2, ![M, K]⟩ ⟨2, ![K, K]⟩ ⟨2, ![M, K]⟩)
    (d3 : DotDims ⟨2, ![M, K]⟩ ⟨2, ![K, D]⟩ ⟨2, ![M, D]⟩) (e1 : d1 = DotDims.plain M D K) (e2 : d2 = DotDims.plain M K K)
    (e3 : d3 = DotDims.plain M K D) (hr hc hb hc3) (r : Fin M) (u : Fin 1) (d : Fin D) :
    group M K D xn P A hrP hcP hbP ht d1 d2 d3 hr hc hb hc3 (ix3 r u d)
      = groupRow (fun j => xn (ix2 r j)) (fun k j => P (ix2 k j)) (fun k1 k2 => A (ix2 k1 k2)) d := by
  unfold group groupRow
  refine (mixed_apply M K D _ P d3 e3 hc3 r u d).trans ?_
  refine congrArg (fun w => outRow w (fun k j => P (ix2 k j)) d) (funext fun k => ?_)
  refine (renorm_apply M K A _ d2 e2 hr hc hb r k).trans ?_
  refine congrArg (fun q => renormRow (fun k1 k2 => A (ix2 k1 k2)) q k) (funext fun k' => ?_)
  refine (softmax_apply M K _ hr hc hb r k').trans ?_
  refine congrArg (fun z => softRow z k') (funext fun k'' => ?_)
  refine (logits_apply M K D xn _ ht d1 e1 r k'').trans ?_
  refine congrArg (fun pn => logitRow (fun j => xn (ix2 r j)) pn k'') (funext fun k3 => funext fun j => ?_)
  exact unitRows_apply K D P hrP hcP hbP k3 j

end Cert.KernelChain

end
-- ==== Proof.Spec.lean ====
/-
  The result both programs compute, as ONE function of the argument arrays and the five affinity tables, index by
  index: entry (R, g, d) is group g's row function (`Cert.Rows.groupRow`) of row R of the input scaled to unit length,
  the group's prototypes and its table, at feature d.
-/
import proofs.«140027_j62843961475556_1_alg».proof.Proof.Rows
import Idealize.ShloMosaic.Lib.ValueIdx

noncomputable section

namespace Cert.Spec

open Idealize.ShloMosaic Idealize.ShloMosaic.ValueIdx Cert.Rows

/-- One group's value at row `R`, feature `d`, for an [N, D] input, [K, D] prototypes and a [K, K] table. -/
def grp {N K D : ℕ} (x : (⟨2, ![N, D]⟩ : Shape).Idx → EReal) (P : (⟨2, ![K, D]⟩ : Shape).Idx → EReal)
    (A : (⟨2, ![K, K]⟩ : Shape).Idx → EReal) (R : Fin N) (d : Fin D) : EReal :=
  groupRow (fun j => unitRow (fun j' => x (ix2 R j')) j) (fun k j => P (ix2 k j)) (fun k1 k2 => A (ix2 k1 k2)) d

/-- The stacked result at (R, g, d). -/
def Gat (x : (⟨2, ![32768, 512]⟩ : Shape).Idx → EReal)
    (P0 : (⟨2, ![2, 512]⟩ : Shape).Idx → EReal) (P1 : (⟨2, ![15, 512]⟩ : Shape).Idx → EReal) (P2 : (⟨2, ![40, 512]⟩ : Shape).Idx → EReal)
    (P3 : (⟨2, ![40, 512]⟩ : Shape).Idx → EReal) (P4 : (⟨2, ![24, 512]⟩ : Shape).Idx → EReal)
    (A0 : (⟨2, ![2, 2]⟩ : Shape).Idx → EReal) (A1 : (⟨2, ![15, 15]⟩ : Shape).Idx → EReal) (A2 : (⟨2, ![40, 40]⟩ : Shape).Idx → EReal)
    (A3 : (⟨2, ![40, 40]⟩ : Shape).Idx → EReal) (A4 : (⟨2, ![24, 24]⟩ : Shape).Idx → EReal)
    (R : Fin 32768) (g : Fin 5) (d : Fin 512) : EReal :=
  match g with
  | 0 => grp x P0 A0 R d
  | 1 => grp x P1 A1 R d
  | 2 => grp x P2 A2 R d
  | 3 => grp x P3 A3 R d
  | 4 => grp x P4 A4 R d

/-- The stacked [32768, 5, 512] result as one function of the arguments and the tables. -/
def G (x : (⟨2, ![32768, 512]⟩ : Shape).Idx → EReal)
    (P0 : (⟨2, ![2, 512]⟩ : Shape).Idx → EReal) (P1 : (⟨2, ![15, 512]⟩ : Shape).Idx → EReal) (P2 : (⟨2, ![40, 512]⟩ : Shape).Idx → EReal)
    (P3 : (⟨2, ![40, 512]⟩ : Shape).Idx → EReal) (P4 : (⟨2, ![24, 512]⟩ : Shape).Idx → EReal)
    (A0 : (⟨2, ![2, 2]⟩ : Shape).Idx → EReal) (A1 : (⟨2, ![15, 15]⟩ : Shape).Idx → EReal) (A2 : (⟨2, ![40, 40]⟩ : Shape).Idx → EReal)
    (A3 : (⟨2, ![40, 40]⟩ : Shape).Idx → EReal) (A4 : (⟨2, ![24, 24]⟩ : Shape).Idx → EReal) :
    (⟨3, ![32768, 5, 512]⟩ : Shape).Idx → EReal :=
  fun i => Gat x P0 P1 P2 P3 P4 A0 A1 A2 A3 A4 (i 0) (i 1) (i 2)

end Cert.Spec

end
-- ==== Proof.KernelBlock.lean ====
/-
  What the kernel body leaves in the output block, index by index over the extended reals: at (r, g, d) group g's
  value (`Cert.Spec.grp`) of row r of the input block, the group's prototype block and its table block.
-/
import proofs.«140027_j62843961475556_1_alg».proof.Proof.Gen.KernelIdeal.Frame
import proofs.«140027_j62843961475556_1_alg».proof.Proof.KernelChain
import proofs.«140027_j62843961475556_1_alg».proof.Proof.Spec

noncomputable section

namespace Cert.KernelIdeal.Block

open Idealize.ShloMosaic Idealize.ShloMosaic.ValueIdx Cert.KernelIdeal Cert.KernelIdeal.Gen

/-! ## Reading the five slabs of the output block -/

/-- A unit-stride rectangle of the slab's sizes at offsets (0, g', 0) carries (r, 0, d) to (r, g', d). -/
private theorem emb_slab {off : Fin 3 → ℕ} {inb} (r : Fin 1024) (g : Fin 5) (d : Fin 512)
    (h0 : off ⟨0, by decide⟩ = 0) (h1 : off ⟨1, by decide⟩ = (g : ℕ)) (h2 : off ⟨2, by decide⟩ = 0) :
    (Rect.unit (s := S1024x5x512) off S1024x1x512.size inb).emb (ix3 r (0 : Fin 1) d) = ix3 r g d := by
  funext a; apply Fin.ext
  match a with
  | ⟨0, _⟩ => show off ⟨0, _⟩ + 1 * (r : ℕ) = (r : ℕ); omega
  | ⟨1, _⟩ => show off ⟨1, _⟩ + 1 * 0 = (g : ℕ); omega
  | ⟨2, _⟩ => show off ⟨2, _⟩ + 1 * (d : ℕ) = (d : ℕ); omega

/-- (r, g, d) lies outside every slab whose middle offset is above g. -/
private theorem notmem_slab (off : Fin 3 → ℕ) (inb) (r : Fin 1024) (g : Fin 5) (d : Fin 512)
    (h : (g : ℕ) < off ⟨1, by decide⟩) :
    ix3 r g d ∉ (Rect.unit (s := S1024x5x512) off S1024x1x512.size inb).set := by
  intro hm
  have h1 := (Rect.mem_set_unit.mp hm) ⟨1, by decide⟩
  have h2 : off ⟨1, by decide⟩ ≤ (g : ℕ) := h1.1
  omega

/-! The five stores are listed last first, slab 4 down to slab 0: (r, g, d) lies outside the slabs listed before
slab g (their middle offsets are above g) and is slab g's image of (r, 0, d), so the block there is slab g's payload
at (r, 0, d), whatever the five payloads are. -/

section
variable (p0 p1 p2 p3 p4 : Vec Ideal S1024x1x512 .f32) (r : Fin 1024) (d : Fin 512)

private theorem canon4 :
    View.canon ([⟨r0_13, p0⟩, ⟨r0_10, p1⟩, ⟨r0_9, p2⟩, ⟨r0_6, p3⟩, ⟨r0_3, p4⟩] : List (View.Piece (Elt Ideal) S1024x5x512 .f32))
      (ix3 r (4 : Fin 5) d) = p0 (ix3 r (0 : Fin 1) d) := by
  rw [← emb_slab (off := ![0, 4, 0]) (inb := inb_S1024x5x512_S1024x1x512_0_4_0) r 4 d rfl rfl rfl]
  exact View.canon_cons_emb r0_13 p0 _ _

private theorem canon3 :
    View.canon ([⟨r0_13, p0⟩, ⟨r0_10, p1⟩, ⟨r0_9, p2⟩, ⟨r0_6, p3⟩, ⟨r0_3, p4⟩] : List (View.Piece (Elt Ideal) S1024x5x512 .f32))
      (ix3 r (3 : Fin 5) d) = p1 (ix3 r (0 : Fin 1) d) := by
  refine (View.canon_cons_of_not_mem ⟨r0_13, p0⟩ _ (notmem_slab ![0, 4, 0] inb_S1024x5x512_S1024x1x512_0_4_0 r 3 d (by decide))).trans ?_
  rw [← emb_slab (off := ![0, 3, 0]) (inb := inb_S1024x5x512_S1024x1x512_0_3_0) r 3 d rfl rfl rfl]
  exact View.canon_cons_emb r0_10 p1 _ _

private theorem canon2 :
    View.canon ([⟨r0_13, p0⟩, ⟨r0_10, p1⟩, ⟨r0_9, p2⟩, ⟨r0_6, p3⟩, ⟨r0_3, p4⟩] : List (View.Piece (Elt Ideal) S1024x5x512 .f32))
      (ix3 r (2 : Fin 5) d) = p2 (ix3 r (0 : Fin 1) d) := by
  refine (View.canon_cons_of_not_mem ⟨r0_13, p0⟩ _ (notmem_slab ![0, 4, 0] inb_S1024x5x512_S1024x1x512_0_4_0 r 2 d (by decide))).trans ?_
  refine (View.canon_cons_of_not_mem ⟨r0_10, p1⟩ _ (notmem_slab ![0, 3, 0] inb_S1024x5x512_S1024x1x512_0_3_0 r 2 d (by decide))).trans ?_
  rw [← emb_slab (off := ![0, 2, 0]) (inb := inb_S1024x5x512_S1024x1x512_0_2_0) r 2 d rfl rfl rfl]
  exact View.canon_cons_emb r0_9 p2 _ _

private theorem canon1 :
    View.canon ([⟨r0_13, p0⟩, ⟨r0_10, p1⟩, ⟨r0_9, p2⟩, ⟨r0_6, p3⟩, ⟨r0_3, p4⟩] : List (View.Piece (Elt Ideal) S1024x5x512 .f32))
      (ix3 r (1 : Fin 5) d) = p3 (ix3 r (0 : Fin 1) d) := by
  refine (View.canon_cons_of_not_mem ⟨r0_13, p0⟩ _ (notmem_slab ![0, 4, 0] inb_S1024x5x512_S1024x1x512_0_4_0 r 1 d (by decide))).trans ?_
  refine (View.canon_cons_of_not_mem ⟨r0_10, p1⟩ _ (notmem_slab ![0, 3, 0] inb_S1024x5x512_S1024x1x512_0_3_0 r 1 d (by decide))).trans ?_
  refine (View.canon_cons_of_not_mem ⟨r0_9, p2⟩ _ (notmem_slab ![0, 2, 0] inb_S1024x5x512_S1024x1x512_0_2_0 r 1 d (by decide))).trans ?_
  rw [← emb_slab (off := ![0, 1, 0]) (inb := inb_S1024x5x512_S1024x1x512_0_1_0) r 1 d rfl rfl rfl]
  exact View.canon_cons_emb r0_6 p3 _ _

private theorem canon0 :
    View.canon ([⟨r0_13, p0⟩, ⟨r0_10, p1⟩, ⟨r0_9, p2⟩, ⟨r0_6, p3⟩, ⟨r0_3, p4⟩] : List (View.Piece (Elt Ideal) S1024x5x512 .f32))
      (ix3 r (0 : Fin 5) d) = p4 (ix3 r (0 : Fin 1) d) := by
  refine (View.canon_cons_of_not_mem ⟨r0_13, p0⟩ _ (notmem_slab ![0, 4, 0] inb_S1024x5x512_S1024x1x512_0_4_0 r 0 d (by decide))).trans ?_
  refine (View.canon_cons_of_not_mem ⟨r0_10, p1⟩ _ (notmem_slab ![0, 3, 0] inb_S1024x5x512_S1024x1x512_0_3_0 r 0 d (by decide))).trans ?_
  refine (View.canon_cons_of_not_mem ⟨r0_9, p2⟩ _ (notmem_slab ![0, 2, 0] inb_S1024x5x512_S1024x1x512_0_2_0 r 0 d (by decide))).trans ?_
  refine (View.canon_cons_of_not_mem ⟨r0_6, p3⟩ _ (notmem_slab ![0, 1, 0] inb_S1024x5x512_S1024x1x512_0_1_0 r 0 d (by decide))).trans ?_
  rw [← emb_slab (off := ![0, 0, 0]) (inb := inb_S1024x5x512_S1024x1x512_0_0_0) r 0 d rfl rfl rfl]
  exact View.canon_cons_emb r0_3 p4 _ _

end

/-! ## Whole-block loads -/

/-- The zero offsets of a rank-2 rectangle, as the constant function. -/
private theorem zeros2 : (![0, 0] : Fin 2 → ℕ) = fun _ => 0 := by
  funext a; match a with | ⟨0, _⟩ => rfl | ⟨1, _⟩ => rfl

/-! ## The payloads are one group's chain at the literal sizes

Each store's payload, as the body's operations spell it, is the generic chain of `Cert.KernelChain` at the block height
1024, the group's prototype count and the feature width 512: the unit rows of the input block are shared by the
five groups, and the groups differ only in which of their early stages are named apart. -/

private theorem pay2_eq (v0 : Vec Ideal S1024x512 .f32) :
    k0_pay2 v0 = KernelChain.unitRows 1024 512 v0 Facts₀.reduces_S1024x512_S1024 Facts₀.shapeCasts_S1024_S1024x1
      Facts₀.broadcasts_S1024x1_S1024x512 := rfl

/-- Group 0: the product into the [1024, 512] block, then its cast to the slab. -/
private theorem pay4_eq (v0 : Vec Ideal S1024x512 .f32) (v9 : Vec Ideal S2x512 .f32) (v31 : Vec Ideal S2x2 .f32) :
    k0_pay4 (k0_pay3 v0 v9 v31) = KernelChain.group 1024 2 512 (k0_pay2 v0) v9 v31 Facts₀.reduces_S2x512_S2 Facts₀.shapeCasts_S2_S2x1
      Facts₀.broadcasts_S2x1_S2x512 Facts₀.transposes_S2x512_p1_0_S512x2
      dot_S1024x512_S512x2_S1024x2_1_0_0_1_n_n dot_S1024x2_S2x2_S1024x2_1_0_0_1_n_n dot_S1024x2_S2x512_S1024x512_1_0_0_1_n_n
      Facts₀.reduces_S1024x2_S1024 Facts₀.shapeCasts_S1024_S1024x1 Facts₀.broadcasts_S1024x1_S1024x2
      Facts₀.shapeCasts_S1024x512_S1024x1x512 := rfl

/-- Group 1. -/
private theorem pay5_eq (v8 : FVec Ideal S1024x512 .f32) (v43 : Vec Ideal S15x512 .f32) (v65 : Vec Ideal S15x15 .f32) :
    k0_pay5 v8 v43 v65 = KernelChain.group 1024 15 512 v8 v43 v65 Facts₀.reduces_S15x512_S15 Facts₀.shapeCasts_S15_S15x1
      Facts₀.broadcasts_S15x1_S15x512 Facts₀.transposes_S15x512_p1_0_S512x15
      dot_S1024x512_S512x15_S1024x15_1_0_0_1_n_n dot_S1024x15_S15x15_S1024x15_1_0_0_1_n_n dot_S1024x15_S15x512_S1024x512_1_0_0_1_n_n
      Facts₀.reduces_S1024x15_S1024 Facts₀.shapeCasts_S1024_S1024x1 Facts₀.broadcasts_S1024x1_S1024x15
      Facts₀.shapeCasts_S1024x512_S1024x1x512 := rfl

/-- Group 2. -/
private theorem pay6_eq (v8 : FVec Ideal S1024x512 .f32) (v77 : Vec Ideal S40x512 .f32) (v99 : Vec Ideal S40x40 .f32) :
    k0_pay6 v8 v77 v99 = KernelChain.group 1024 40 512 v8 v77 v99 Facts₀.reduces_S40x512_S40 Facts₀.shapeCasts_S40_S40x1
      Facts₀.broadcasts_S40x1_S40x512 Facts₀.transposes_S40x512_p1_0_S512x40
      dot_S1024x512_S512x40_S1024x40_1_0_0_1_n_n dot_S1024x40_S40x40_S1024x40_1_0_0_1_n_n dot_S1024x40_S40x512_S1024x512_1_0_0_1_n_n
      Facts₀.reduces_S1024x40_S1024 Facts₀.shapeCasts_S1024_S1024x1 Facts₀.broadcasts_S1024x1_S1024x40
      Facts₀.shapeCasts_S1024x512_S1024x1x512 := rfl

/-- Group 3: the prototypes' lengths and the small constant are named apart. -/
private theorem pay9_eq (v8 : FVec Ideal S1024x512 .f32) (v111 : Vec Ideal S40x512 .f32) (v133 : Vec Ideal S40x40 .f32) :
    k0_pay9 v8 v111 (k0_pay7 v111) (k0_pay8 (F := Ideal)) v133 = KernelChain.group 1024 40 512 v8 v111 v133 Facts₀.reduces_S40x512_S40 Facts₀.shapeCasts_S40_S40x1
      Facts₀.broadcasts_S40x1_S40x512 Facts₀.transposes_S40x512_p1_0_S512x40
      dot_S1024x512_S512x40_S1024x40_1_0_0_1_n_n dot_S1024x40_S40x40_S1024x40_1_0_0_1_n_n dot_S1024x40_S40x512_S1024x512_1_0_0_1_n_n
      Facts₀.reduces_S1024x40_S1024 Facts₀.shapeCasts_S1024_S1024x1 Facts₀.broadcasts_S1024x1_S1024x40
      Facts₀.shapeCasts_S1024x512_S1024x1x512 := rfl

/-- Group 4: the similarities and the temperature are named apart. -/
private theorem pay1_eq (v8 : FVec Ideal S1024x512 .f32) (v145 : Vec Ideal S24x512 .f32) (v167 : Vec Ideal S24x24 .f32) :
    k0_pay1 v145 (k0_pay10 v8 v145) (k0_pay11 (F := Ideal)) v167 = KernelChain.group 1024 24 512 v8 v145 v167 Facts₀.reduces_S24x512_S24 Facts₀.shapeCasts_S24_S24x1
      Facts₀.broadcasts_S24x1_S24x512 Facts₀.transposes_S24x512_p1_0_S512x24
      dot_S1024x512_S512x24_S1024x24_1_0_0_1_n_n dot_S1024x24_S24x24_S1024x24_1_0_0_1_n_n dot_S1024x24_S24x512_S1024x512_1_0_0_1_n_n
      Facts₀.reduces_S1024x24_S1024 Facts₀.shapeCasts_S1024_S1024x1 Facts₀.broadcasts_S1024x1_S1024x24
      Facts₀.shapeCasts_S1024x512_S1024x1x512 := rfl

/-- A group's slab over the unit rows of the input block, at (r, ·, d): the group's value at row r. -/
private theorem grp_of_group {K : ℕ} (x0 : FVec Ideal ⟨2, ![1024, 512]⟩ .f32) (P : FVec Ideal ⟨2, ![K, 512]⟩ .f32) (A : FVec Ideal ⟨2, ![K, K]⟩ .f32)
    (hr0 hc0 hb0 hrP hcP hbP ht)
    (d1 : DotDims ⟨2, ![1024, 512]⟩ ⟨2, ![512, K]⟩ ⟨2, ![1024, K]⟩) (d2 : DotDims ⟨2, ![1024, K]⟩ ⟨2, ![K, K]⟩ ⟨2, ![1024, K]⟩)
    (d3 : DotDims ⟨2, ![1024, K]⟩ ⟨2, ![K, 512]⟩ ⟨2, ![1024, 512]⟩) (e1 : d1 = DotDims.plain 1024 512 K) (e2 : d2 = DotDims.plain 1024 K K)
    (e3 : d3 = DotDims.plain 1024 K 512) (hr hc hb hc3) (r : Fin 1024) (d : Fin 512) :
    KernelChain.group 1024 K 512 (KernelChain.unitRows 1024 512 x0 hr0 hc0 hb0) P A hrP hcP hbP ht d1 d2 d3 hr hc hb hc3 (ix3 r (0 : Fin 1) d)
      = Cert.Spec.grp x0 P A r d := by
  refine (KernelChain.group_apply 1024 K 512 _ P A hrP hcP hbP ht d1 d2 d3 e1 e2 e3 hr hc hb hc3 r 0 d).trans ?_
  unfold Cert.Spec.grp
  exact congrArg (fun f => Cert.Rows.groupRow f (fun k j => P (ix2 k j)) (fun k1 k2 => A (ix2 k1 k2)) d)
    (funext fun j => KernelChain.unitRows_apply 1024 512 x0 hr0 hc0 hb0 r j)

/-! ## The output block, index by index -/

theorem out_apply0 (x0 : Vec Ideal S1024x512 .f32) (x1 : Vec Ideal S2x512 .f32) (x2 : Vec Ideal S15x512 .f32) (x3 : Vec Ideal S40x512 .f32) (x4 : Vec Ideal S40x512 .f32) (x5 : Vec Ideal S24x512 .f32) (x6 : Vec Ideal S2x2 .f32) (x7 : Vec Ideal S15x15 .f32) (x8 : Vec Ideal S40x40 .f32) (x9 : Vec Ideal S40x40 .f32) (x10 : Vec Ideal S24x24 .f32) (r : Fin 1024) (d : Fin 512) :
    out0_11 (F := Ideal) x0 x1 x2 x3 x4 x5 x6 x7 x8 x9 x10 (ix3 r (0 : Fin 5) d) = Cert.Spec.grp x0 x1 x6 r d := by
  unfold out0_11
  refine (canon0 _ _ _ _ _ r d).trans ?_
  rw [View.ld_unit_zero (S := S1024x512) zeros2 inb_S1024x512_S1024x512_0_0 x0,
    View.ld_unit_zero (S := S2x512) zeros2 inb_S2x512_S2x512_0_0 x1,
    View.ld_unit_zero (S := S2x2) zeros2 inb_S2x2_S2x2_0_0 x6, pay4_eq, pay2_eq]
  exact grp_of_group x0 x1 x6 _ _ _ _ _ _ _ _ _ _ rfl rfl rfl _ _ _ _ r d

theorem out_apply1 (x0 : Vec Ideal S1024x512 .f32) (x1 : Vec Ideal S2x512 .f32) (x2 : Vec Ideal S15x512 .f32) (x3 : Vec Ideal S40x512 .f32) (x4 : Vec Ideal S40x512 .f32) (x5 : Vec Ideal S24x512 .f32) (x6 : Vec Ideal S2x2 .f32) (x7 : Vec Ideal S15x15 .f32) (x8 : Vec Ideal S40x40 .f32) (x9 : Vec Ideal S40x40 .f32) (x10 : Vec Ideal S24x24 .f32) (r : Fin 1024) (d : Fin 512) :
    out0_11 (F := Ideal) x0 x1 x2 x3 x4 x5 x6 x7 x8 x9 x10 (ix3 r (1 : Fin 5) d) = Cert.Spec.grp x0 x2 x7 r d := by
  unfold out0_11
  refine (canon1 _ _ _ _ _ r d).trans ?_
  rw [View.ld_unit_zero (S := S1024x512) zeros2 inb_S1024x512_S1024x512_0_0 x0,
    View.ld_unit_zero (S := S15x512) zeros2 inb_S15x512_S15x512_0_0 x2,
    View.ld_unit_zero (S := S15x15) zeros2 inb_S15x15_S15x15_0_0 x7, pay2_eq, pay5_eq]
  exact grp_of_group x0 x2 x7 _ _ _ _ _ _ _ _ _ _ rfl rfl rfl _ _ _ _ r d

theorem out_apply2 (x0 : Vec Ideal S1024x512 .f32) (x1 : Vec Ideal S2x512 .f32) (x2 : Vec Ideal S15x512 .f32) (x3 : Vec Ideal S40x512 .f32) (x4 : Vec Ideal S40x512 .f32) (x5 : Vec Ideal S24x512 .f32) (x6 : Vec Ideal S2x2 .f32) (x7 : Vec Ideal S15x15 .f32) (x8 : Vec Ideal S40x40 .f32) (x9 : Vec Ideal S40x40 .f32) (x10 : Vec Ideal S24x24 .f32) (r : Fin 1024) (d : Fin 512) :
    out0_11 (F := Ideal) x0 x1 x2 x3 x4 x5 x6 x7 x8 x9 x10 (ix3 r (2 : Fin 5) d) = Cert.Spec.grp x0 x3 x8 r d := by
  unfold out0_11
  refine (canon2 _ _ _ _ _ r d).trans ?_
  rw [View.ld_unit_zero (S := S1024x512) zeros2 inb_S1024x512_S1024x512_0_0 x0,
    View.ld_unit_zero (S := S40x512) zeros2 inb_S40x512_S40x512_0_0 x3,
    View.ld_unit_zero (S := S40x40) zeros2 inb_S40x40_S40x40_0_0 x8, pay2_eq, pay6_eq]
  exact grp_of_group x0 x3 x8 _ _ _ _ _ _ _ _ _ _ rfl rfl rfl _ _ _ _ r d

theorem out_apply3 (x0 : Vec Ideal S1024x512 .f32) (x1 : Vec Ideal S2x512 .f32) (x2 : Vec Ideal S15x512 .f32) (x3 : Vec Ideal S40x512 .f32) (x4 : Vec Ideal S40x512 .f32) (x5 : Vec Ideal S24x512 .f32) (x6 : Vec Ideal S2x2 .f32) (x7 : Vec Ideal S15x15 .f32) (x8 : Vec Ideal S40x40 .f32) (x9 : Vec Ideal S40x40 .f32) (x10 : Vec Ideal S24x24 .f32) (r : Fin 1024) (d : Fin 512) :
    out0_11 (F := Ideal) x0 x1 x2 x3 x4 x5 x6 x7 x8 x9 x10 (ix3 r (3 : Fin 5) d) = Cert.Spec.grp x0 x4 x9 r d := by
  unfold out0_11
  refine (canon3 _ _ _ _ _ r d).trans ?_
  rw [View.ld_unit_zero (S := S1024x512) zeros2 inb_S1024x512_S1024x512_0_0 x0,
    View.ld_unit_zero (S := S40x512) zeros2 inb_S40x512_S40x512_0_0 x4,
    View.ld_unit_zero (S := S40x40) zeros2 inb_S40x40_S40x40_0_0 x9, pay2_eq, pay9_eq]
  exact grp_of_group x0 x4 x9 _ _ _ _ _ _ _ _ _ _ rfl rfl rfl _ _ _ _ r d

theorem out_apply4 (x0 : Vec Ideal S1024x512 .f32) (x1 : Vec Ideal S2x512 .f32) (x2 : Vec Ideal S15x512 .f32) (x3 : Vec Ideal S40x512 .f32) (x4 : Vec Ideal S40x512 .f32) (x5 : Vec Ideal S24x512 .f32) (x6 : Vec Ideal S2x2 .f32) (x7 : Vec Ideal S15x15 .f32) (x8 : Vec Ideal S40x40 .f32) (x9 : Vec Ideal S40x40 .f32) (x10 : Vec Ideal S24x24 .f32) (r : Fin 1024) (d : Fin 512) :
    out0_11 (F := Ideal) x0 x1 x2 x3 x4 x5 x6 x7 x8 x9 x10 (ix3 r (4 : Fin 5) d) = Cert.Spec.grp x0 x5 x10 r d := by
  unfold out0_11
  refine (canon4 _ _ _ _ _ r d).trans ?_
  rw [View.ld_unit_zero (S := S1024x512) zeros2 inb_S1024x512_S1024x512_0_0 x0,
    View.ld_unit_zero (S := S24x512) zeros2 inb_S24x512_S24x512_0_0 x5,
    View.ld_unit_zero (S := S24x24) zeros2 inb_S24x24_S24x24_0_0 x10, pay2_eq, pay1_eq]
  exact grp_of_group x0 x5 x10 _ _ _ _ _ _ _ _ _ _ rfl rfl rfl _ _ _ _ r d

end Cert.KernelIdeal.Block

end
-- ==== Proof.KernelTables.lean ====
/-
  The five constant affinity tables of the kernel's program, as extended-real arrays: what its host constants hold.
-/
import proofs.«140027_j62843961475556_1_alg».proof.KernelIdeal
import Idealize.ShloMosaic.PureOps.Ideal

noncomputable section

namespace Cert.KernelIdeal.Tables

open Idealize.ShloMosaic Cert.KernelIdeal

/-- Group 0's constant affinity table, as the program's constant prints it, over the extended reals. -/
def tbl0 : FVec Ideal S2x2 .f32 := fun i => FloatOps.ofBits .f32 (lit0 (S2x2.rowMajor i))
/-- Group 1's constant affinity table, as the program's constant prints it, over the extended reals. -/
def tbl1 : FVec Ideal S15x15 .f32 := fun i => FloatOps.ofBits .f32 (lit1 (S15x15.rowMajor i))
/-- Group 2's constant affinity table, as the program's constant prints it, over the extended reals. -/
def tbl2 : FVec Ideal S40x40 .f32 := fun i => FloatOps.ofBits .f32 (lit2 (S40x40.rowMajor i))
/-- Group 3's constant affinity table, as the program's constant prints it, over the extended reals. -/
def tbl3 : FVec Ideal S40x40 .f32 := fun i => FloatOps.ofBits .f32 (lit3 (S40x40.rowMajor i))
/-- Group 4's constant affinity table, as the program's constant prints it, over the extended reals. -/
def tbl4 : FVec Ideal S24x24 .f32 := fun i => FloatOps.ofBits .f32 (lit4 (S24x24.rowMajor i))

end Cert.KernelIdeal.Tables

end
-- ==== Proof.KernelConsts.lean ====
/-
  The arrays the kernel's five table windows stage: what the program's host constants wrote before the region.
-/
import proofs.«140027_j62843961475556_1_alg».proof.Proof.Gen.KernelIdeal.Frame
import proofs.«140027_j62843961475556_1_alg».proof.Proof.KernelTables
import Idealize.ShloMosaic.Lib.StableHlo.Run

noncomputable section

namespace Cert.KernelIdeal.Consts

open Idealize.ShloMosaic Idealize.ShloMosaic.StableHlo Cert.KernelIdeal Cert.KernelIdeal.Gen

variable (m : (ℓ : Loc nD τ sig) → Buf (Elt Ideal) ℓ)

/-- Table 0's array when the region is entered is the constant the host wrote there. -/
theorem V_cst0 (c : Dev nD) : (V m c main_cst : S2x2.Idx → EReal) = Tables.tbl0 := by
  dsimp only [Gen.V, Gen.hostOps0]; after_results; rfl

/-- Table 1's array when the region is entered is the constant the host wrote there. -/
theorem V_cst1 (c : Dev nD) : (V m c main_cst_0 : S15x15.Idx → EReal) = Tables.tbl1 := by
  dsimp only [Gen.V, Gen.hostOps0]; after_results; rfl

/-- Table 2's array when the region is entered is the constant the host wrote there. -/
theorem V_cst2 (c : Dev nD) : (V m c main_cst_1 : S40x40.Idx → EReal) = Tables.tbl2 := by
  dsimp only [Gen.V, Gen.hostOps0]; after_results; rfl

/-- Table 3's array when the region is entered is the constant the host wrote there. -/
theorem V_cst3 (c : Dev nD) : (V m c main_cst_2 : S40x40.Idx → EReal) = Tables.tbl3 := by
  dsimp only [Gen.V, Gen.hostOps0]; after_results; rfl

/-- Table 4's array when the region is entered is the constant the host wrote there. -/
theorem V_cst4 (c : Dev nD) : (V m c main_cst_3 : S24x24.Idx → EReal) = Tables.tbl4 := by
  dsimp only [Gen.V, Gen.hostOps0]; after_results; rfl

end Cert.KernelIdeal.Consts

end
-- ==== Proof.KernelArray.lean ====
/-
  The kernel's result array after its run, as the one function `Cert.Spec.G` of the argument arrays and the five
  constant tables: each grid point writes back its block of that function, and the blocks cover the array.
-/
import proofs.«140027_j62843961475556_1_alg».proof.Proof.Gen.KernelIdeal.Value
import proofs.«140027_j62843961475556_1_alg».proof.Proof.KernelBlock
import proofs.«140027_j62843961475556_1_alg».proof.Proof.KernelConsts

noncomputable section

namespace Cert.KernelIdeal.Arr

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The printed index maps, decided over the 32 grid points: the input's and the result's block index is the point's
    number on the row axis and 0 elsewhere; every prototype array and every table is one block at index 0. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 3) = t.val ∧ win0_11.index t (1 : Fin 3) = 0 ∧ win0_11.index t (2 : Fin 3) = 0 :=
  (by decide +kernel : ∀ t : Fin grid0.N, _)

/-- A group's value reads the input only along its row, and the prototypes and the table entry by entry. -/
private theorem grp_congr {N N' K D : ℕ} (x : (⟨2, ![N, D]⟩ : Shape).Idx → EReal) (x' : (⟨2, ![N', D]⟩ : Shape).Idx → EReal)
    (P P' : (⟨2, ![K, D]⟩ : Shape).Idx → EReal) (A A' : (⟨2, ![K, K]⟩ : Shape).Idx → EReal) (R : Fin N) (R' : Fin N') (d : Fin D)
    (hx : ∀ j, x (ix2 R j) = x' (ix2 R' j)) (hP : ∀ k j, P (ix2 k j) = P' (ix2 k j)) (hA : ∀ k1 k2, A (ix2 k1 k2) = A' (ix2 k1 k2)) :
    Cert.Spec.grp x P A R d = Cert.Spec.grp x' P' A' R' d := by
  unfold Cert.Spec.grp
  simp only [hx, hP, hA]

/-- The input window's block at point `t` is rows `1024 t … 1024 t + 1023` of the input: a block's coordinate is the
    block index times the block's extent plus the coordinate inside the block. -/
private theorem iblk0_apply (c : Dev nD) (t : Fin cfg0.N) (r : Fin 1024) (j : Fin 512) (R : Fin 32768) (hR : R.val = 1024 * t.val + r.val) :
    (iblk m c 0 t : S1024x512.Idx → EReal) (ix2 r j) = (m ((c : Thread nD τ).loc main_arg0) : S32768x512.Idx → EReal) (ix2 R j) := by
  obtain ⟨e0, e1, -⟩ := idx_facts t
  unfold iblk
  rw [View.read_apply]
  show V m c main_arg0 _ = _
  rw [V_main_arg0 m c]
  congr 1
  funext a
  apply Fin.ext
  match a with
  | ⟨0, _⟩ => show win0_0.index t (0 : Fin 2) * 1024 + 1 * r.val = R.val; omega
  | ⟨1, _⟩ => show win0_0.index t (1 : Fin 2) * 512 + 1 * j.val = j.val; omega

/-- The first prototype window's block is the whole prototype array at every point (block index 0 on both axes). -/
private theorem iblk1_apply (c : Dev nD) (t : Fin cfg0.N) (k : Fin 2) (j : Fin 512) :
    (iblk m c 1 t : S2x512.Idx → EReal) (ix2 k j) = (m ((c : Thread nD τ).loc main_arg1) : S2x512.Idx → EReal) (ix2 k j) := by
  obtain ⟨-, -, e0, e1, -⟩ := idx_facts t
  unfold iblk
  rw [View.read_apply]
  show V m c main_arg1 _ = _
  rw [V_main_arg1 m c]
  congr 1
  funext a
  apply Fin.ext
  match a with
  | ⟨0, _⟩ => show win0_1.index t (0 : Fin 2) * 2 + 1 * k.val = k.val; omega
  | ⟨1, _⟩ => show win0_1.index t (1 : Fin 2) * 512 + 1 * j.val = j.val; omega

/-- The second prototype window's block is the whole prototype array at every point (block index 0 on both axes). -/
private theorem iblk2_apply (c : Dev nD) (t : Fin cfg0.N) (k : Fin 15) (j : Fin 512) :
    (iblk m c 2 t : S15x512.Idx → EReal) (ix2 k j) = (m ((c : Thread nD τ).loc main_arg2) : S15x512.Idx → EReal) (ix2 k j) := by
  obtain ⟨-, -, -, -, e0, e1, -⟩ := idx_facts t
  unfold iblk
  rw [View.read_apply]
  show V m c main_arg2 _ = _
  rw [V_main_arg2 m c]
  congr 1
  funext a
  apply Fin.ext
  match a with
  | ⟨0, _⟩ => show win0_2.index t (0 : Fin 2) * 15 + 1 * k.val = k.val; omega
  | ⟨1, _⟩ => show win0_2.index t (1 : Fin 2) * 512 + 1 * j.val = j.val; omega

/-- The third prototype window's block is the whole prototype array at every point (block index 0 on both axes). -/
private theorem iblk3_apply (c : Dev nD) (t : Fin cfg0.N) (k : Fin 40) (j : Fin 512) :
    (iblk m c 3 t : S40x512.Idx → EReal) (ix2 k j) = (m ((c : Thread nD τ).loc main_arg3) : S40x512.Idx → EReal) (ix2 k j) := by
  obtain ⟨-, -, -, -, -, -, e0, e1, -⟩ := idx_facts t
  unfold iblk
  rw [View.read_apply]
  show V m c main_arg3 _ = _
  rw [V_main_arg3 m c]
  congr 1
  funext a
  apply Fin.ext
  match a with
  | ⟨0, _⟩ => show win0_3.index t (0 : Fin 2) * 40 + 1 * k.val = k.val; omega
  | ⟨1, _⟩ => show win0_3.index t (1 : Fin 2) * 512 + 1 * j.val = j.val; omega

/-- The fourth prototype window's block is the whole prototype array at every point (block index 0 on both axes). -/
private theorem iblk4_apply (c : Dev nD) (t : Fin cfg0.N) (k : Fin 40) (j : Fin 512) :
    (iblk m c 4 t : S40x512.Idx → EReal) (ix2 k j) = (m ((c : Thread nD τ).loc main_arg4) : S40x512.Idx → EReal) (ix2 k j) := by
  obtain ⟨-, -, -, -, -, -, -, -, e0, e1, -⟩ := idx_facts t
  unfold iblk
  rw [View.read_apply]
  show V m c main_arg4 _ = _
  rw [V_main_arg4 m c]
  congr 1
  funext a
  apply Fin.ext
  match a with
  | ⟨0, _⟩ => show win0_4.index t (0 : Fin 2) * 40 + 1 * k.val = k.val; omega
  | ⟨1, _⟩ => show win0_4.index t (1 : Fin 2) * 512 + 1 * j.val = j.val; omega

/-- The fifth prototype window's block is the whole prototype array at every point (block index 0 on both axes). -/
private theorem iblk5_apply (c : Dev nD) (t : Fin cfg0.N) (k : Fin 24) (j : Fin 512) :
    (iblk m c 5 t : S24x512.Idx → EReal) (ix2 k j) = (m ((c : Thread nD τ).loc main_arg5) : S24x512.Idx → EReal) (ix2 k j) := by
  obtain ⟨-, -, -, -, -, -, -, -, -, -, e0, e1, -⟩ := idx_facts t
  unfold iblk
  rw [View.read_apply]
  show V m c main_arg5 _ = _
  rw [V_main_arg5 m c]
  congr 1
  funext a
  apply Fin.ext
  match a with
  | ⟨0, _⟩ => show win0_5.index t (0 : Fin 2) * 24 + 1 * k.val = k.val; omega
  | ⟨1, _⟩ => show win0_5.index t (1 : Fin 2) * 512 + 1 * j.val = j.val; omega

/-- The first table window's block is the whole constant table at every point (block index 0 on both axes). -/
private theorem iblk6_apply (c : Dev nD) (t : Fin cfg0.N) (k1 k2 : Fin 2) :
    (iblk m c 6 t : S2x2.Idx → EReal) (ix2 k1 k2) = Tables.tbl0 (ix2 k1 k2) := by
  obtain ⟨-, -, -, -, -, -, -, -, -, -, -, -, e0, e1, -⟩ := idx_facts t
  unfold iblk
  rw [View.read_apply]
  show V m c main_cst _ = _
  rw [Consts.V_cst0 m c]
  congr 1
  funext a
  apply Fin.ext
  match a with
  | ⟨0, _⟩ => show win0_6.index t (0 : Fin 2) * 2 + 1 * k1.val = k1.val; omega
  | ⟨1, _⟩ => show win0_6.index t (1 : Fin 2) * 2 + 1 * k2.val = k2.val; omega

/-- The second table window's block is the whole constant table at every point (block index 0 on both axes). -/
private theorem iblk7_apply (c : Dev nD) (t : Fin cfg0.N) (k1 k2 : Fin 15) :
    (iblk m c 7 t : S15x15.Idx → EReal) (ix2 k1 k2) = Tables.tbl1 (ix2 k1 k2) := by
  obtain ⟨-, -, -, -, -, -, -, -, -, -, -, -, -, -, e0, e1, -⟩ := idx_facts t
  unfold iblk
  rw [View.read_apply]
  show V m c main_cst_0 _ = _
  rw [Consts.V_cst1 m c]
  congr 1
  funext a
  apply Fin.ext
  match a with
  | ⟨0, _⟩ => show win0_7.index t (0 : Fin 2) * 15 + 1 * k1.val = k1.val; omega
  | ⟨1, _⟩ => show win0_7.index t (1 : Fin 2) * 15 + 1 * k2.val = k2.val; omega

/-- The third table window's block is the whole constant table at every point (block index 0 on both axes). -/
private theorem iblk8_apply (c : Dev nD) (t : Fin cfg0.N) (k1 k2 : Fin 40) :
    (iblk m c 8 t : S40x40.Idx → EReal) (ix2 k1 k2) = Tables.tbl2 (ix2 k1 k2) := by
  obtain ⟨-, -, -, -, -, -, -, -, -, -, -, -, -, -, -, -, e0, e1, -⟩ := idx_facts t
  unfold iblk
  rw [View.read_apply]
  show V m c main_cst_1 _ = _
  rw [Consts.V_cst2 m c]
  congr 1
  funext a
  apply Fin.ext
  match a with
  | ⟨0, _⟩ => show win0_8.index t (0 : Fin 2) * 40 + 1 * k1.val = k1.val; omega
  | ⟨1, _⟩ => show win0_8.index t (1 : Fin 2) * 40 + 1 * k2.val = k2.val; omega

/-- The fourth table window's block is the whole constant table at every point (block index 0 on both axes). -/
private theorem iblk9_apply (c : Dev nD) (t : Fin cfg0.N) (k1 k2 : Fin 40) :
    (iblk m c 9 t : S40x40.Idx → EReal) (ix2 k1 k2) = Tables.tbl3 (ix2 k1 k2) := by
  obtain ⟨-, -, -, -, -, -, -, -, -, -, -, -, -, -, -, -, -, -, e0, e1, -⟩ := idx_facts t
  unfold iblk
  rw [View.read_apply]
  show V m c main_cst_2 _ = _
  rw [Consts.V_cst3 m c]
  congr 1
  funext a
  apply Fin.ext
  match a with
  | ⟨0, _⟩ => show win0_9.index t (0 : Fin 2) * 40 + 1 * k1.val = k1.val; omega
  | ⟨1, _⟩ => show win0_9.index t (1 : Fin 2) * 40 + 1 * k2.val = k2.val; omega

/-- The fifth table window's block is the whole constant table at every point (block index 0 on both axes). -/
private theorem iblk10_apply (c : Dev nD) (t : Fin cfg0.N) (k1 k2 : Fin 24) :
    (iblk m c 10 t : S24x24.Idx → EReal) (ix2 k1 k2) = Tables.tbl4 (ix2 k1 k2) := by
  obtain ⟨-, -, -, -, -, -, -, -, -, -, -, -, -, -, -, -, -, -, -, -, e0, e1, -⟩ := idx_facts t
  unfold iblk
  rw [View.read_apply]
  show V m c main_cst_3 _ = _
  rw [Consts.V_cst4 m c]
  congr 1
  funext a
  apply Fin.ext
  match a with
  | ⟨0, _⟩ => show win0_10.index t (0 : Fin 2) * 24 + 1 * k1.val = k1.val; omega
  | ⟨1, _⟩ => show win0_10.index t (1 : Fin 2) * 24 + 1 * k2.val = k2.val; omega

/-- The result window's block at point `t` sits at rows `1024 t … 1024 t + 1023`, all five groups, all features. -/
private theorem emb11 (t : Fin cfg0.N) (r : Fin 1024) (g : Fin 5) (d : Fin 512) (R : Fin 32768) (hR : R.val = 1024 * t.val + r.val) :
    ((cfg0.win 11).blk t).view.emb (ix3 r g d) = (ix3 R g d : S32768x5x512.Idx) := by
  obtain ⟨-, -, -, -, -, -, -, -, -, -, -, -, -, -, -, -, -, -, -, -, -, -, e0, e1, e2⟩ := idx_facts t
  funext a
  apply Fin.ext
  match a with
  | ⟨0, _⟩ => show win0_11.index t (0 : Fin 3) * 1024 + 1 * r.val = R.val; omega
  | ⟨1, _⟩ => show win0_11.index t (1 : Fin 3) * 5 + 1 * g.val = g.val; omega
  | ⟨2, _⟩ => show win0_11.index t (2 : Fin 3) * 512 + 1 * d.val = d.val; omega

/-- The function the result array ends holding: `Cert.Spec.G` of the six arguments as launched and the five tables. -/
private abbrev result (c : Dev nD) : S32768x5x512.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) Tables.tbl0 Tables.tbl1 Tables.tbl2 Tables.tbl3 Tables.tbl4

/-- WHAT POINT `t` WRITES BACK is block `t` of the result function: at (r, g, d) of the block the body leaves group g's
    value of row r of the input block, which is row `1024 t + r` of the input, over the whole prototype array and table. -/
private theorem flushed_eq (c : Dev nD) (t : Fin cfg0.N) :
    (dats m 0 c).flushed 11 t = ((cfg0.win 11).blk t).view.read (Elt Ideal) (result m c) := by
  rw [Value.flushed11]
  funext y
  obtain ⟨r, g, d, rfl⟩ : ∃ (r : Fin 1024) (g : Fin 5) (d : Fin 512), y = ix3 r g d := ⟨y 0, y 1, y 2, eq_ix3 y⟩
  have hN : cfg0.N = 32 := N_0
  have hR : 1024 * t.val + r.val < 32768 := by have := t.isLt; omega
  rw [View.read_apply, emb11 t r g d ⟨1024 * t.val + r.val, hR⟩ rfl]
  match g with
  | 0 =>
    exact (Block.out_apply0 (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans
      (grp_congr _ _ _ _ _ _ r ⟨1024 * t.val + r.val, hR⟩ d (fun j => iblk0_apply m c t r j ⟨1024 * t.val + r.val, hR⟩ rfl)
        (fun k j => iblk1_apply m c t k j) (fun k1 k2 => iblk6_apply m c t k1 k2))
  | 1 =>
    exact (Block.out_apply1 (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans
      (grp_congr _ _ _ _ _ _ r ⟨1024 * t.val + r.val, hR⟩ d (fun j => iblk0_apply m c t r j ⟨1024 * t.val + r.val, hR⟩ rfl)
        (fun k j => iblk2_apply m c t k j) (fun k1 k2 => iblk7_apply m c t k1 k2))
  | 2 =>
    exact (Block.out_apply2 (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans
      (grp_congr _ _ _ _ _ _ r ⟨1024 * t.val + r.val, hR⟩ d (fun j => iblk0_apply m c t r j ⟨1024 * t.val + r.val, hR⟩ rfl)
        (fun k j => iblk3_apply m c t k j) (fun k1 k2 => iblk8_apply m c t k1 k2))
  | 3 =>
    exact (Block.out_apply3 (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans
      (grp_congr _ _ _ _ _ _ r ⟨1024 * t.val + r.val, hR⟩ d (fun j => iblk0_apply m c t r j ⟨1024 * t.val + r.val, hR⟩ rfl)
        (fun k j => iblk4_apply m c t k j) (fun k1 k2 => iblk9_apply m c t k1 k2))
  | 4 =>
    exact (Block.out_apply4 (iblk m c 0 t) (iblk m c 1 t) (iblk m c 2 t) (iblk m c 3 t) (iblk m c 4 t) (iblk m c 5 t) (iblk m c 6 t) (iblk m c 7 t) (iblk m c 8 t) (iblk m c 9 t) (iblk m c 10 t) r d).trans
      (grp_congr _ _ _ _ _ _ r ⟨1024 * t.val + r.val, hR⟩ d (fun j => iblk0_apply m c t r j ⟨1024 * t.val + r.val, hR⟩ rfl)
        (fun k j => iblk5_apply m c t k j) (fun k1 k2 => iblk10_apply m c t k1 k2))

/-- An index of the result array is in point `t`'s block iff each coordinate is in the block's range on its axis. -/
private theorem mem_blk (t : Fin cfg0.N) (i : S32768x5x512.Idx) :
    i ∈ ((cfg0.win 11).blk t).view.set ↔ ∀ a : Fin 3, win0_11.index t a * S1024x5x512.size a ≤ (i a).val ∧ (i a).val < win0_11.index t a * S1024x5x512.size a + S1024x5x512.size a := by
  show i ∈ ((View.whole main_v0).slice (win0_11.rect t)).set ↔ _
  rw [View.set_slice_whole, Rect.mem_set_unit]
  exact Iff.rfl

/-- The 32 blocks cover the result array: row R lies in the block of point `R / 1024`, which holds every group and
    every feature. -/
private theorem cover (i : S32768x5x512.Idx) :
    ∃ t : Fin cfg0.N, (cfg0.win 11).flush t = true ∧ i ∈ ((cfg0.win 11).blk t).view.set := by
  have hN : cfg0.N = 32 := N_0
  have h0 : (i 0).val < 32768 := (i 0).isLt
  have h1 : (i 1).val < 5 := (i 1).isLt
  have h2 : (i 2).val < 512 := (i 2).isLt
  obtain ⟨t, ht⟩ : ∃ t : Fin cfg0.N, t.val = (i 0).val / 1024 := ⟨⟨(i 0).val / 1024, by omega⟩, rfl⟩
  obtain ⟨-, -, -, -, -, -, -, -, -, -, -, -, -, -, -, -, -, -, -, -, -, -, e0, e1, e2⟩ := idx_facts t
  refine ⟨t, flush0_11 t, ?_⟩
  rw [mem_blk]
  intro a
  match a with
  | ⟨0, _⟩ => show win0_11.index t (0 : Fin 3) * 1024 ≤ (i 0).val ∧ (i 0).val < win0_11.index t (0 : Fin 3) * 1024 + 1024; omega
  | ⟨1, _⟩ => show win0_11.index t (1 : Fin 3) * 5 ≤ (i 1).val ∧ (i 1).val < win0_11.index t (1 : Fin 3) * 5 + 5; omega
  | ⟨2, _⟩ => show win0_11.index t (2 : Fin 3) * 512 ≤ (i 2).val ∧ (i 2).val < win0_11.index t (2 : Fin 3) * 512 + 512; omega

/-- So the result array ends holding the result function: every point writes its block of it, and the blocks cover. -/
private theorem final (c : Dev nD) : (dats m 0 c).arrAt 11 cfg0.N = result m c :=
  (dats m 0 c).arrAt_eq_of_cover 11 (result m c) (fun t _ => flushed_eq m c t) cover

/-- Every weakly fair execution of the idealized kernel's @main ends with the result array at `Cert.Spec.G` of the
    arguments and the tables, the arguments unchanged. -/
theorem run : θ_run (defs (F := Ideal)) (onTc (τ := τ) (main (F := Ideal))) ⟨m, fun _ => 0, ρ⟩ fun r => ∀ c : Dev nD,
      r.2.mem ((c : Thread nD τ).loc main_v0) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) Tables.tbl0 Tables.tbl1 Tables.tbl2 Tables.tbl3 Tables.tbl4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run (defs (F := Ideal)) _ _).mono (fun r h c => ⟨(h c).1.trans (final m c), (h c).2⟩) (Value.run_blocks m ρ)

end Cert.KernelIdeal.Arr

end
-- ==== Proof.HostChain.lean ====
/-
  The reference's host operations for one group, stated once for any row count M, prototype count K and feature
  width D, and what each stage holds at an index over the extended reals: the same rows of `Cert.Rows` the kernel's
  stages hold.
-/
import proofs.«140027_j62843961475556_1_alg».proof.Proof.Rows
import proofs.«140027_j62843961475556_1_alg».proof.Proof.LibPlainDot
import Idealize.ShloMosaic.Lib.Pipeline.Value
import Idealize.ShloMosaic.Lib.ValueLayout
import Idealize.ShloMosaic.Lib.IdealHost

noncomputable section

open scoped BigOperators

namespace Cert.HostChain

open Idealize.ShloMosaic Idealize.ShloMosaic.ValueIdx Cert.Rows

variable {F : FTy → Type} [FloatOps F]

/-- The rank-zero shape of a scalar operand. -/
abbrev S0 : Shape := ⟨0, ![]⟩

/-- The column [a, 1] of the square roots of the row sums of squares of an [a, b] array (the outlined norm). -/
def lengths (a b : ℕ) (x : FVec F ⟨2, ![a, b]⟩ .f32)
    (hr : (⟨2, ![a, b]⟩ : Shape).ReducesTo [1] ⟨1, ![a]⟩) (h0 : 0 < S0.numel)
    (hb0 : (⟨1, ![a]⟩ : Shape).BroadcastsInDim ⟨2, ![a, 1]⟩ (![0] : Fin 1 → Fin (⟨2, ![a, 1]⟩ : Shape).rank)) : FVec F ⟨2, ![a, 1]⟩ .f32 :=
  Host.sqrt (broadcastInDim ⟨2, ![a, 1]⟩ ![0] hb0 (Host.reduceAdd (mulf x x) (constant S0 .f32 0x00000000#32) hr h0))

/-- Each row of an [a, b] array divided by its length `len` plus the small constant. -/
def unitRows (a b : ℕ) (x : FVec F ⟨2, ![a, b]⟩ .f32) (len : FVec F ⟨2, ![a, 1]⟩ .f32)
    (hbs : S0.BroadcastsInDim ⟨2, ![a, 1]⟩ (![] : Fin 0 → Fin (⟨2, ![a, 1]⟩ : Shape).rank))
    (hb01 : (⟨2, ![a, 1]⟩ : Shape).BroadcastsInDim ⟨2, ![a, b]⟩ (![0, 1] : Fin 2 → Fin (⟨2, ![a, b]⟩ : Shape).rank)) : FVec F ⟨2, ![a, b]⟩ .f32 :=
  Host.divf x (broadcastInDim ⟨2, ![a, b]⟩ ![0, 1] hb01 (addf len (broadcastInDim ⟨2, ![a, 1]⟩ ![] hbs (constant S0 .f32 0x358637BD#32))))

/-- The [M, K] similarities of the unit rows `xn` with the unit prototypes `pn`, over the temperature. -/
def logits (M K D : ℕ) (xn : FVec F ⟨2, ![M, D]⟩ .f32) (pn : FVec F ⟨2, ![K, D]⟩ .f32)
    (ht : (⟨2, ![K, D]⟩ : Shape).Transposes [1, 0] ⟨2, ![D, K]⟩)
    (d1 : DotDims ⟨2, ![M, D]⟩ ⟨2, ![D, K]⟩ ⟨2, ![M, K]⟩)
    (hbs : S0.BroadcastsInDim ⟨2, ![M, K]⟩ (![] : Fin 0 → Fin (⟨2, ![M, K]⟩ : Shape).rank)) : FVec F ⟨2, ![M, K]⟩ .f32 :=
  Host.divf (Host.dotGeneral d1 none xn (transpose ⟨2, ![D, K]⟩ [1, 0] pn ht))
    (broadcastInDim ⟨2, ![M, K]⟩ ![] hbs (constant S0 .f32 0x3D8F5C29#32))

/-- The softmax of each row of `z`, as jax.nn.softmax lowers it. -/
def softmax (M K : ℕ) (z : FVec F ⟨2, ![M, K]⟩ .f32)
    (hr : (⟨2, ![M, K]⟩ : Shape).ReducesTo [1] ⟨1, ![M]⟩) (h0 : 0 < S0.numel)
    (hbs1 : S0.BroadcastsInDim ⟨1, ![M]⟩ (![] : Fin 0 → Fin (⟨1, ![M]⟩ : Shape).rank))
    (hb0 : (⟨1, ![M]⟩ : Shape).BroadcastsInDim ⟨2, ![M, 1]⟩ (![0] : Fin 1 → Fin (⟨2, ![M, 1]⟩ : Shape).rank))
    (hb01 : (⟨2, ![M, 1]⟩ : Shape).BroadcastsInDim ⟨2, ![M, K]⟩ (![0, 1] : Fin 2 → Fin (⟨2, ![M, K]⟩ : Shape).rank)) : FVec F ⟨2, ![M, K]⟩ .f32 :=
  have e : FVec F ⟨2, ![M, K]⟩ .f32 := Host.exp (subf z (broadcastInDim ⟨2, ![M, K]⟩ ![0, 1] hb01 (broadcastInDim ⟨2, ![M, 1]⟩ ![0] hb0
    (maximumf (broadcastInDim ⟨1, ![M]⟩ ![] hbs1 (constant S0 .f32 0xFF800000#32))
      (Host.reduce FloatOps.maximumf z (constant S0 .f32 0xFF800000#32) hr h0)))))
  Host.divf e (broadcastInDim ⟨2, ![M, K]⟩ ![0, 1] hb01 (broadcastInDim ⟨2, ![M, 1]⟩ ![0] hb0 (Host.reduceAdd e (constant S0 .f32 0x00000000#32) hr h0)))

/-- The assignment `q` times the affinity table `A`, each row divided by its total plus the small constant. -/
def renorm (M K : ℕ) (A : FVec F ⟨2, ![K, K]⟩ .f32) (q : FVec F ⟨2, ![M, K]⟩ .f32)
    (d2 : DotDims ⟨2, ![M, K]⟩ ⟨2, ![K, K]⟩ ⟨2, ![M, K]⟩)
    (hr : (⟨2, ![M, K]⟩ : Shape).ReducesTo [1] ⟨1, ![M]⟩) (h0 : 0 < S0.numel)
    (hb0 : (⟨1, ![M]⟩ : Shape).BroadcastsInDim ⟨2, ![M, 1]⟩ (![0] : Fin 1 → Fin (⟨2, ![M, 1]⟩ : Shape).rank))
    (hbs : S0.BroadcastsInDim ⟨2, ![M, 1]⟩ (![] : Fin 0 → Fin (⟨2, ![M, 1]⟩ : Shape).rank))
    (hb01 : (⟨2, ![M, 1]⟩ : Shape).BroadcastsInDim ⟨2, ![M, K]⟩ (![0, 1] : Fin 2 → Fin (⟨2, ![M, K]⟩ : Shape).rank)) : FVec F ⟨2, ![M, K]⟩ .f32 :=
  have qa : FVec F ⟨2, ![M, K]⟩ .f32 := Host.dotGeneral d2 none q A
  Host.divf qa (broadcastInDim ⟨2, ![M, K]⟩ ![0, 1] hb01 (addf (broadcastInDim ⟨2, ![M, 1]⟩ ![0] hb0 (Host.reduceAdd qa (constant S0 .f32 0x00000000#32) hr h0))
    (broadcastInDim ⟨2, ![M, 1]⟩ ![] hbs (constant S0 .f32 0x358637BD#32))))

/-- The prototypes mixed by the weights `w`, as the [M, 1, D] slab the stacking concatenates. -/
def mixed (M K D : ℕ) (w : FVec F ⟨2, ![M, K]⟩ .f32) (P : FVec F ⟨2, ![K, D]⟩ .f32)
    (d3 : DotDims ⟨2, ![M, K]⟩ ⟨2, ![K, D]⟩ ⟨2, ![M, D]⟩)
    (hb02 : (⟨2, ![M, D]⟩ : Shape).BroadcastsInDim ⟨3, ![M, 1, D]⟩ (![0, 2] : Fin 2 → Fin (⟨3, ![M, 1, D]⟩ : Shape).rank)) : FVec F ⟨3, ![M, 1, D]⟩ .f32 :=
  broadcastInDim ⟨3, ![M, 1, D]⟩ ![0, 2] hb02 (Host.dotGeneral d3 none w P)

/-- One group's slab from the unit rows `xn`, the group's prototypes `P` and its affinity table `A`. -/
def group (M K D : ℕ) (xn : FVec F ⟨2, ![M, D]⟩ .f32) (P : FVec F ⟨2, ![K, D]⟩ .f32) (A : FVec F ⟨2, ![K, K]⟩ .f32)
    (hrP : (⟨2, ![K, D]⟩ : Shape).ReducesTo [1] ⟨1, ![K]⟩) (h0 : 0 < S0.numel)
    (hb0P : (⟨1, ![K]⟩ : Shape).BroadcastsInDim ⟨2, ![K, 1]⟩ (![0] : Fin 1 → Fin (⟨2, ![K, 1]⟩ : Shape).rank))
    (hbsP : S0.BroadcastsInDim ⟨2, ![K, 1]⟩ (![] : Fin 0 → Fin (⟨2, ![K, 1]⟩ : Shape).rank))
    (hb01P : (⟨2, ![K, 1]⟩ : Shape).BroadcastsInDim ⟨2, ![K, D]⟩ (![0, 1] : Fin 2 → Fin (⟨2, ![K, D]⟩ : Shape).rank))
    (ht : (⟨2, ![K, D]⟩ : Shape).Transposes [1, 0] ⟨2, ![D, K]⟩)
    (d1 : DotDims ⟨2, ![M, D]⟩ ⟨2, ![D, K]⟩ ⟨2, ![M, K]⟩) (d2 : DotDims ⟨2, ![M, K]⟩ ⟨2, ![K, K]⟩ ⟨2, ![M, K]⟩)
    (d3 : DotDims ⟨2, ![M, K]⟩ ⟨2, ![K, D]⟩ ⟨2, ![M, D]⟩)
    (hbsMK : S0.BroadcastsInDim ⟨2, ![M, K]⟩ (![] : Fin 0 → Fin (⟨2, ![M, K]⟩ : Shape).rank))
    (hr : (⟨2, ![M, K]⟩ : Shape).ReducesTo [1] ⟨1, ![M]⟩)
    (hbs1 : S0.BroadcastsInDim ⟨1, ![M]⟩ (![] : Fin 0 → Fin (⟨1, ![M]⟩ : Shape).rank))
    (hb0 : (⟨1, ![M]⟩ : Shape).BroadcastsInDim ⟨2, ![M, 1]⟩ (![0] : Fin 1 → Fin (⟨2, ![M, 1]⟩ : Shape).rank))
    (hb01 : (⟨2, ![M, 1]⟩ : Shape).BroadcastsInDim ⟨2, ![M, K]⟩ (![0, 1] : Fin 2 → Fin (⟨2, ![M, K]⟩ : Shape).rank))
    (hbsM1 : S0.BroadcastsInDim ⟨2, ![M, 1]⟩ (![] : Fin 0 → Fin (⟨2, ![M, 1]⟩ : Shape).rank))
    (hb02 : (⟨2, ![M, D]⟩ : Shape).BroadcastsInDim ⟨3, ![M, 1, D]⟩ (![0, 2] : Fin 2 → Fin (⟨3, ![M, 1, D]⟩ : Shape).rank)) : FVec F ⟨3, ![M, 1, D]⟩ .f32 :=
  mixed M K D (renorm M K A (softmax M K (logits M K D xn (unitRows K D P (lengths K D P hrP h0 hb0P) hbsP hb01P) ht d1 hbsMK) hr h0 hbs1 hb0 hb01)
    d2 hr h0 hb0 hbsM1 hb01) P d3 hb02

/-! ## The stages at an index, over the extended reals -/

/-- A shape fact of the host's reduce into a rank-one shape is the kernel-side one: the result has an axis. -/
private theorem reduces_of {a b : ℕ} (hr : (⟨2, ![a, b]⟩ : Shape).ReducesTo [1] ⟨1, ![a]⟩) :
    (⟨2, ![a, b]⟩ : Shape).Reduces [1] ⟨1, ![a]⟩ := ⟨hr.1, Nat.one_pos, hr.2⟩

/-- The reduced index r with the column k put back is (r, k). -/
private theorem lift_ix2 {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  apply Fin.ext
  rw [Shape.Reduces.lift_val]
  match ax with
  | ⟨0, _⟩ => rfl
  | ⟨1, _⟩ => rfl

/-- The host's sum of an [a, b] array over its second axis, from the zero word, at row r: the sum of the row. -/
private theorem rowSum_apply {a b : ℕ} (x : FVec Ideal ⟨2, ![a, b]⟩ .f32)
    (hr : (⟨2, ![a, b]⟩ : Shape).ReducesTo [1] ⟨1, ![a]⟩) (h0 : 0 < S0.numel) (r : Fin a) :
    Host.reduceAdd x (constant S0 .f32 0x00000000#32) hr h0 (ix1 r) = ∑ k : Fin b, x (ix2 r k) := by
  refine (Ideal.hostReduceAdd_single hr (reduces_of hr) x _ (ix1 r)).trans ?_
  rw [constant_apply, Ideal.ofBits_zero_f32, zero_add]
  exact Finset.sum_congr rfl fun k _ => congrArg x (lift_ix2 (reduces_of hr) r k)

/-- The host's maximum of an [a, b] array over its second axis, from minus infinity, at row r: the fold of max over the row. -/
private theorem rowMax_apply {a b : ℕ} (x : FVec Ideal ⟨2, ![a, b]⟩ .f32)
    (hr : (⟨2, ![a, b]⟩ : Shape).ReducesTo [1] ⟨1, ![a]⟩) (h0 : 0 < S0.numel) (r : Fin a) :
    Host.reduce FloatOps.maximumf x (constant S0 .f32 0xFF800000#32) hr h0 (ix1 r)
      = (Finset.univ : Finset (Fin b)).fold max ninf fun k => x (ix2 r k) := by
  rw [Host.reduce_eq_fold_single FloatOps.maximumf x _ hr (reduces_of hr) h0]
  have hf : (x ∘ (reduces_of hr).lift (ix1 r)) = fun k : Fin b => x (ix2 r k) :=
    funext fun k => congrArg x (lift_ix2 (reduces_of hr) r k)
  exact congrArg (fun f => Finset.fold max ninf f (Finset.univ : Finset (Fin b))) hf

/-- A vector [a] spread to the column [a, 1] reads, at (r, ·), the vector at r. -/
private theorem col_apply {α : Type} {a : ℕ} (hb0 : (⟨1, ![a]⟩ : Shape).BroadcastsInDim ⟨2, ![a, 1]⟩ (![0] : Fin 1 → Fin (⟨2, ![a, 1]⟩ : Shape).rank))
    (v : (⟨1, ![a]⟩ : Shape).Idx → α) (r : Fin a) (u : Fin 1) :
    broadcastInDim ⟨2, ![a, 1]⟩ ![0] hb0 v (ix2 r u) = v (ix1 r) := by
  refine broadcastInDim_apply _ hb0 v (ix2 r u) (ix1 r) fun ax => ?_
  match ax with
  | ⟨0, _⟩ =>
    show r.val = if a = 1 then 0 else r.val
    split
    · have := r.isLt; omega
    · rfl

/-- A column [a, 1] spread along its rows to [a, b] reads, at (r, j), the column at row r. -/
private theorem spread_apply {α : Type} {a b : ℕ}
    (hb01 : (⟨2, ![a, 1]⟩ : Shape).BroadcastsInDim ⟨2, ![a, b]⟩ (![0, 1] : Fin 2 → Fin (⟨2, ![a, b]⟩ : Shape).rank))
    (c : (⟨2, ![a, 1]⟩ : Shape).Idx → α) (r : Fin a) (j : Fin b) :
    broadcastInDim ⟨2, ![a, b]⟩ ![0, 1] hb01 c (ix2 r j) = c (ix2 r (0 : Fin 1)) := by
  refine broadcastInDim_apply _ hb01 c (ix2 r j) (ix2 r (0 : Fin 1)) fun ax => ?_
  match ax with
  | ⟨0, _⟩ =>
    show r.val = if a = 1 then 0 else r.val
    split
    · have := r.isLt; omega
    · rfl
  | ⟨1, _⟩ => rfl

/-- An [M, D] array given a unit middle axis reads, at (r, ·, d), the array at (r, d). -/
private theorem slab_apply {α : Type} {M D : ℕ}
    (hb02 : (⟨2, ![M, D]⟩ : Shape).BroadcastsInDim ⟨3, ![M, 1, D]⟩ (![0, 2] : Fin 2 → Fin (⟨3, ![M, 1, D]⟩ : Shape).rank))
    (v : (⟨2, ![M, D]⟩ : Shape).Idx → α) (r : Fin M) (u : Fin 1) (d : Fin D) :
    broadcastInDim ⟨3, ![M, 1, D]⟩ ![0, 2] hb02 v (ix3 r u d) = v (ix2 r d) := by
  refine broadcastInDim_apply _ hb02 v (ix3 r u d) (ix2 r d) fun ax => ?_
  match ax with
  | ⟨0, _⟩ =>
    show r.val = if M = 1 then 0 else r.val
    split
    · have := r.isLt; omega
    · rfl
  | ⟨1, _⟩ =>
    show d.val = if D = 1 then 0 else d.val
    split
    · have := d.isLt; omega
    · rfl

theorem lengths_apply (a b : ℕ) (x : FVec Ideal ⟨2, ![a, b]⟩ .f32) (hr h0 hb0) (r : Fin a) (u : Fin 1) :
    lengths a b x hr h0 hb0 (ix2 r u) = Ideal.sqrt (∑ k, x (ix2 r k) * x (ix2 r k)) := by
  unfold lengths
  show Ideal.sqrt (broadcastInDim ⟨2, ![a, 1]⟩ ![0] hb0 (Host.reduceAdd (mulf x x) (constant S0 .f32 0x00000000#32) hr h0) (ix2 r u)) = _
  rw [col_apply, rowSum_apply]
  rfl

theorem unitRows_apply (a b : ℕ) (x : FVec Ideal ⟨2, ![a, b]⟩ .f32) (hr h0 hb0 hbs hb01) (r : Fin a) (j : Fin b) :
    unitRows a b x (lengths a b x hr h0 hb0) hbs hb01 (ix2 r j) = unitRow (fun j' => x (ix2 r j')) j := by
  unfold unitRows unitRow
  show Ideal.div (x (ix2 r j)) (broadcastInDim ⟨2, ![a, b]⟩ ![0, 1] hb01
    (addf (lengths a b x hr h0 hb0) (broadcastInDim ⟨2, ![a, 1]⟩ ![] hbs (constant (F := Ideal) S0 .f32 0x358637BD#32))) (ix2 r j)) = _
  rw [spread_apply, addf_apply, lengths_apply, broadcastInDim_scalar_apply]
  rfl

theorem logits_apply (M K D : ℕ) (xn : FVec Ideal ⟨2, ![M, D]⟩ .f32) (pn : FVec Ideal ⟨2, ![K, D]⟩ .f32) (ht)
    (d1 : DotDims ⟨2, ![M, D]⟩ ⟨2, ![D, K]⟩ ⟨2, ![M, K]⟩) (e1 : d1 = DotDims.plain M D K) (hbs) (r : Fin M) (k : Fin K) :
    logits M K D xn pn ht d1 hbs (ix2 r k) = logitRow (fun j => xn (ix2 r j)) (fun k' j => pn (ix2 k' j)) k := by
  subst e1
  unfold logits logitRow
  show Ideal.div (FloatOps.dotGeneral (DotDims.plain M D K) none .single xn (transpose ⟨2, ![D, K]⟩ [1, 0] pn ht) (ix2 r k))
    (broadcastInDim ⟨2, ![M, K]⟩ ![] hbs (constant (F := Ideal) S0 .f32 0x3D8F5C29#32) (ix2 r k)) = _
  rw [PlainDot.dotGeneral_apply, broadcastInDim_scalar_apply]
  refine congrArg₂ Ideal.div (Finset.sum_congr rfl fun j _ => ?_) rfl
  exact congrArg (fun t => xn (ix2 r j) * t) (transpose_ix2_apply pn ht j k)

/-- The maximum the softmax subtracts, at (r, k): from minus infinity, the fold of max over row r. -/
private theorem softMax_apply (M K : ℕ) (z : FVec Ideal ⟨2, ![M, K]⟩ .f32)
    (hr : (⟨2, ![M, K]⟩ : Shape).ReducesTo [1] ⟨1, ![M]⟩) (h0 : 0 < S0.numel)
    (hbs1 : S0.BroadcastsInDim ⟨1, ![M]⟩ (![] : Fin 0 → Fin (⟨1, ![M]⟩ : Shape).rank))
    (hb0 : (⟨1, ![M]⟩ : Shape).BroadcastsInDim ⟨2, ![M, 1]⟩ (![0] : Fin 1 → Fin (⟨2, ![M, 1]⟩ : Shape).rank))
    (hb01 : (⟨2, ![M, 1]⟩ : Shape).BroadcastsInDim ⟨2, ![M, K]⟩ (![0, 1] : Fin 2 → Fin (⟨2, ![M, K]⟩ : Shape).rank)) (r : Fin M) (k : Fin K) :
    broadcastInDim ⟨2, ![M, K]⟩ ![0, 1] hb01 (broadcastInDim ⟨2, ![M, 1]⟩ ![0] hb0
      (maximumf (broadcastInDim ⟨1, ![M]⟩ ![] hbs1 (constant (F := Ideal) S0 .f32 0xFF800000#32))
        (Host.reduce FloatOps.maximumf z (constant S0 .f32 0xFF800000#32) hr h0))) (ix2 r k)
      = (Finset.univ : Finset (Fin K)).fold max ninf fun k' => z (ix2 r k') := by
  rw [spread_apply, col_apply, maximumf_apply, broadcastInDim_scalar_apply, rowMax_apply]
  exact max_eq_right ((Finset.le_fold_max _).mpr (Or.inl le_rfl))

/-- The exponentials the softmax divides, at (r, k). -/
private theorem softExp_apply (M K : ℕ) (z : FVec Ideal ⟨2, ![M, K]⟩ .f32)
    (hr : (⟨2, ![M, K]⟩ : Shape).ReducesTo [1] ⟨1, ![M]⟩) (h0 : 0 < S0.numel)
    (hbs1 : S0.BroadcastsInDim ⟨1, ![M]⟩ (![] : Fin 0 → Fin (⟨1, ![M]⟩ : Shape).rank))
    (hb0 : (⟨1, ![M]⟩ : Shape).BroadcastsInDim ⟨2, ![M, 1]⟩ (![0] : Fin 1 → Fin (⟨2, ![M, 1]⟩ : Shape).rank))
    (hb01 : (⟨2, ![M, 1]⟩ : Shape).BroadcastsInDim ⟨2, ![M, K]⟩ (![0, 1] : Fin 2 → Fin (⟨2, ![M, K]⟩ : Shape).rank)) (r : Fin M) (k : Fin K) :
    Host.exp (subf z (broadcastInDim ⟨2, ![M, K]⟩ ![0, 1] hb01 (broadcastInDim ⟨2, ![M, 1]⟩ ![0] hb0
      (maximumf (broadcastInDim ⟨1, ![M]⟩ ![] hbs1 (constant (F := Ideal) S0 .f32 0xFF800000#32))
        (Host.reduce FloatOps.maximumf z (constant S0 .f32 0xFF800000#32) hr h0))))) (ix2 r k)
      = Ideal.exp (z (ix2 r k) - (Finset.univ : Finset (Fin K)).fold max ninf fun k' => z (ix2 r k')) := by
  show Ideal.exp (z (ix2 r k) - broadcastInDim ⟨2, ![M, K]⟩ ![0, 1] hb01 (broadcastInDim ⟨2, ![M, 1]⟩ ![0] hb0
      (maximumf (broadcastInDim ⟨1, ![M]⟩ ![] hbs1 (constant (F := Ideal) S0 .f32 0xFF800000#32))
        (Host.reduce FloatOps.maximumf z (constant S0 .f32 0xFF800000#32) hr h0))) (ix2 r k)) = _
  rw [softMax_apply]

theorem softmax_apply (M K : ℕ) (z : FVec Ideal ⟨2, ![M, K]⟩ .f32) (hr h0 hbs1 hb0 hb01) (r : Fin M) (k : Fin K) :
    softmax M K z hr h0 hbs1 hb0 hb01 (ix2 r k) = softRow (fun k' => z (ix2 r k')) k := by
  unfold softmax softRow
  generalize hE : Host.exp (subf z (broadcastInDim ⟨2, ![M, K]⟩ ![0, 1] hb01 (broadcastInDim ⟨2, ![M, 1]⟩ ![0] hb0
      (maximumf (broadcastInDim ⟨1, ![M]⟩ ![] hbs1 (constant (F := Ideal) S0 .f32 0xFF800000#32))
        (Host.reduce FloatOps.maximumf z (constant S0 .f32 0xFF800000#32) hr h0))))) = E
  have hEv : ∀ k' : Fin K, E (ix2 r k')
      = Ideal.exp (z (ix2 r k') - (Finset.univ : Finset (Fin K)).fold max ninf fun k'' => z (ix2 r k'')) := fun k' => by
    rw [← hE]; exact softExp_apply M K z hr h0 hbs1 hb0 hb01 r k'
  show Ideal.div (E (ix2 r k)) (broadcastInDim ⟨2, ![M, K]⟩ ![0, 1] hb01 (broadcastInDim ⟨2, ![M, 1]⟩ ![0] hb0
    (Host.reduceAdd E (constant S0 .f32 0x00000000#32) hr h0)) (ix2 r k)) = _
  rw [spread_apply, col_apply, rowSum_apply, hEv k]
  exact congrArg (Ideal.div _) (Finset.sum_congr rfl fun k' _ => hEv k')

theorem renorm_apply (M K : ℕ) (A : FVec Ideal ⟨2, ![K, K]⟩ .f32) (q : FVec Ideal ⟨2, ![M, K]⟩ .f32)
    (d2 : DotDims ⟨2, ![M, K]⟩ ⟨2, ![K, K]⟩ ⟨2, ![M, K]⟩) (e2 : d2 = DotDims.plain M K K) (hr h0 hb0 hbs hb01) (r : Fin M) (k : Fin K) :
    renorm M K A q d2 hr h0 hb0 hbs hb01 (ix2 r k) = renormRow (fun k1 k2 => A (ix2 k1 k2)) (fun k' => q (ix2 r k')) k := by
  subst e2
  unfold renorm renormRow
  generalize hQ : Host.dotGeneral (DotDims.plain M K K) none q A = Q
  have hQv : ∀ k2 : Fin K, Q (ix2 r k2) = ∑ k' : Fin K, q (ix2 r k') * A (ix2 k' k2) := fun k2 => by
    rw [← hQ]; exact PlainDot.dotGeneral_apply M K K .single q A (ix2 r k2)
  show Ideal.div (Q (ix2 r k)) (broadcastInDim ⟨2, ![M, K]⟩ ![0, 1] hb01
    (addf (broadcastInDim ⟨2, ![M, 1]⟩ ![0] hb0 (Host.reduceAdd Q (constant S0 .f32 0x00000000#32) hr h0))
      (broadcastInDim ⟨2, ![M, 1]⟩ ![] hbs (constant (F := Ideal) S0 .f32 0x358637BD#32))) (ix2 r k)) = _
  rw [spread_apply, addf_apply, col_apply, rowSum_apply, broadcastInDim_scalar_apply, hQv k]
  exact congrArg (fun t => Ideal.div _ (t + eps)) (Finset.sum_congr rfl fun k2 _ => hQv k2)

theorem mixed_apply (M K D : ℕ) (w : FVec Ideal ⟨2, ![M, K]⟩ .f32) (P : FVec Ideal ⟨2, ![K, D]⟩ .f32)
    (d3 : DotDims ⟨2, ![M, K]⟩ ⟨2, ![K, D]⟩ ⟨2, ![M, D]⟩) (e3 : d3 = DotDims.plain M K D) (hb02) (r : Fin M) (u : Fin 1) (d : Fin D) :
    mixed M K D w P d3 hb02 (ix3 r u d) = outRow (fun k => w (ix2 r k)) (fun k j => P (ix2 k j)) d := by
  subst e3
  unfold mixed outRow
  rw [slab_apply]
  exact PlainDot.dotGeneral_apply M K D .single w P (ix2 r d)

/-- One group's slab at (r, ·, d): the group's row function of row r of the unit input. -/
theorem group_apply (M K D : ℕ) (xn : FVec Ideal ⟨2, ![M, D]⟩ .f32) (P : FVec Ideal ⟨2, ![K, D]⟩ .f32) (A : FVec Ideal ⟨2, ![K, K]⟩ .f32)
    (hrP h0 hb0P hbsP hb01P ht) (d1 : DotDims ⟨2, ![M, D]⟩ ⟨2, ![D, K]⟩ ⟨2, ![M, K]⟩) (d2 : DotDims ⟨2, ![M, K]⟩ ⟨2, ![K, K]⟩ ⟨2, ![M, K]⟩)
    (d3 : DotDims ⟨2, ![M, K]⟩ ⟨2, ![K, D]⟩ ⟨2, ![M, D]⟩) (e1 : d1 = DotDims.plain M D K) (e2 : d2 = DotDims.plain M K K)
    (e3 : d3 = DotDims.plain M K D) (hbsMK hr hbs1 hb0 hb01 hbsM1 hb02) (r : Fin M) (u : Fin 1) (d : Fin D) :
    group M K D xn P A hrP h0 hb0P hbsP hb01P ht d1 d2 d3 hbsMK hr hbs1 hb0 hb01 hbsM1 hb02 (ix3 r u d)
      = groupRow (fun j => xn (ix2 r j)) (fun k j => P (ix2 k j)) (fun k1 k2 => A (ix2 k1 k2)) d := by
  unfold group groupRow
  rw [mixed_apply M K D _ P d3 e3 hb02 r u d]
  refine congrArg (fun w => outRow w (fun k j => P (ix2 k j)) d) (funext fun k => ?_)
  rw [renorm_apply M K A _ d2 e2 hr h0 hb0 hbsM1 hb01 r k]
  refine congrArg (fun q => renormRow (fun k1 k2 => A (ix2 k1 k2)) q k) (funext fun k' => ?_)
  rw [softmax_apply M K _ hr h0 hbs1 hb0 hb01 r k']
  refine congrArg (fun z => softRow z k') (funext fun k'' => ?_)
  rw [logits_apply M K D xn _ ht d1 e1 hbsMK r k'']
  refine congrArg (fun pn => logitRow (fun j => xn (ix2 r j)) pn k'') (funext fun c => funext fun j => ?_)
  exact unitRows_apply K D P hrP h0 hb0P hbsP hb01P c j

end Cert.HostChain

end
-- ==== Proof.RefOut.lean ====
/-
  The reference's result as one closed term of its argument arrays: the input's rows scaled to unit length, each
  group's slab over its prototypes and its constant affinity table (`Cert.HostChain.group`), and the five slabs
  stacked along the middle axis.
-/
import proofs.«140027_j62843961475556_1_alg».proof.ReferenceIdeal
import proofs.«140027_j62843961475556_1_alg».proof.Proof.HostChain

noncomputable section

namespace Cert.ReferenceIdeal.RefValue

open Idealize.ShloMosaic Cert.ReferenceIdeal

variable {F : FTy → Type} [FloatOps F] [Facts]
open Facts₀ Facts

/-- Group 0's constant affinity table, as the program's constant prints it. -/
def tbl0 : FVec F S2x2 .f32 := fun i => FloatOps.ofBits .f32 (lit0 (S2x2.rowMajor i))
/-- Group 1's constant affinity table, as the program's constant prints it. -/
def tbl1 : FVec F S15x15 .f32 := fun i => FloatOps.ofBits .f32 (lit1 (S15x15.rowMajor i))
/-- Group 2's constant affinity table, as the program's constant prints it. -/
def tbl2 : FVec F S40x40 .f32 := fun i => FloatOps.ofBits .f32 (lit2 (S40x40.rowMajor i))
/-- Group 3's constant affinity table, as the program's constant prints it. -/
def tbl3 : FVec F S40x40 .f32 := fun i => FloatOps.ofBits .f32 (lit3 (S40x40.rowMajor i))
/-- Group 4's constant affinity table, as the program's constant prints it. -/
def tbl4 : FVec F S24x24 .f32 := fun i => FloatOps.ofBits .f32 (lit4 (S24x24.rowMajor i))

/-- The input's rows scaled to unit length. -/
def unitInput (x : FVec F S32768x512 .f32) : FVec F S32768x512 .f32 :=
  HostChain.unitRows 32768 512 x (HostChain.lengths 32768 512 x reducesTo_S32768x512_S32768_d1 h_S_ bcast_S32768_S32768x1_0)
    bcast_S_S32768x1 bcast_S32768x1_S32768x512_0_1

/-- Group 0's [32768, 1, 512] slab. -/
def slab0 (x : FVec F S32768x512 .f32) (P0 : FVec F S2x512 .f32) : FVec F S32768x1x512 .f32 :=
  HostChain.group 32768 2 512 (unitInput x) P0 (tbl0 (F := F))
    reducesTo_S2x512_S2_d1 h_S_ bcast_S2_S2x1_0 bcast_S_S2x1 bcast_S2x1_S2x512_0_1 transposes_S2x512_S512x2_1_0
    dot_S32768x512_S512x2_S32768x2_1_0_0_1_n_n dot_S32768x2_S2x2_S32768x2_1_0_0_1_n_n dot_S32768x2_S2x512_S32768x512_1_0_0_1_n_n
    bcast_S_S32768x2 reducesTo_S32768x2_S32768_d1 bcast_S_S32768 bcast_S32768_S32768x1_0 bcast_S32768x1_S32768x2_0_1 bcast_S_S32768x1
    bcast_S32768x512_S32768x1x512_0_2

/-- Group 1's [32768, 1, 512] slab. -/
def slab1 (x : FVec F S32768x512 .f32) (P1 : FVec F S15x512 .f32) : FVec F S32768x1x512 .f32 :=
  HostChain.group 32768 15 512 (unitInput x) P1 (tbl1 (F := F))
    reducesTo_S15x512_S15_d1 h_S_ bcast_S15_S15x1_0 bcast_S_S15x1 bcast_S15x1_S15x512_0_1 transposes_S15x512_S512x15_1_0
    dot_S32768x512_S512x15_S32768x15_1_0_0_1_n_n dot_S32768x15_S15x15_S32768x15_1_0_0_1_n_n dot_S32768x15_S15x512_S32768x512_1_0_0_1_n_n
    bcast_S_S32768x15 reducesTo_S32768x15_S32768_d1 bcast_S_S32768 bcast_S32768_S32768x1_0 bcast_S32768x1_S32768x15_0_1 bcast_S_S32768x1
    bcast_S32768x512_S32768x1x512_0_2

/-- Group 2's [32768, 1, 512] slab. -/
def slab2 (x : FVec F S32768x512 .f32) (P2 : FVec F S40x512 .f32) : FVec F S32768x1x512 .f32 :=
  HostChain.group 32768 40 512 (unitInput x) P2 (tbl2 (F := F))
    reducesTo_S40x512_S40_d1 h_S_ bcast_S40_S40x1_0 bcast_S_S40x1 bcast_S40x1_S40x512_0_1 transposes_S40x512_S512x40_1_0
    dot_S32768x512_S512x40_S32768x40_1_0_0_1_n_n dot_S32768x40_S40x40_S32768x40_1_0_0_1_n_n dot_S32768x40_S40x512_S32768x512_1_0_0_1_n_n
    bcast_S_S32768x40 reducesTo_S32768x40_S32768_d1 bcast_S_S32768 bcast_S32768_S32768x1_0 bcast_S32768x1_S32768x40_0_1 bcast_S_S32768x1
    bcast_S32768x512_S32768x1x512_0_2

/-- Group 3's [32768, 1, 512] slab. -/
def slab3 (x : FVec F S32768x512 .f32) (P3 : FVec F S40x512 .f32) : FVec F S32768x1x512 .f32 :=
  HostChain.group 32768 40 512 (unitInput x) P3 (tbl3 (F := F))
    reducesTo_S40x512_S40_d1 h_S_ bcast_S40_S40x1_0 bcast_S_S40x1 bcast_S40x1_S40x512_0_1 transposes_S40x512_S512x40_1_0
    dot_S32768x512_S512x40_S32768x40_1_0_0_1_n_n dot_S32768x40_S40x40_S32768x40_1_0_0_1_n_n dot_S32768x40_S40x512_S32768x512_1_0_0_1_n_n
    bcast_S_S32768x40 reducesTo_S32768x40_S32768_d1 bcast_S_S32768 bcast_S32768_S32768x1_0 bcast_S32768x1_S32768x40_0_1 bcast_S_S32768x1
    bcast_S32768x512_S32768x1x512_0_2

/-- Group 4's [32768, 1, 512] slab. -/
def slab4 (x : FVec F S32768x512 .f32) (P4 : FVec F S24x512 .f32) : FVec F S32768x1x512 .f32 :=
  HostChain.group 32768 24 512 (unitInput x) P4 (tbl4 (F := F))
    reducesTo_S24x512_S24_d1 h_S_ bcast_S24_S24x1_0 bcast_S_S24x1 bcast_S24x1_S24x512_0_1 transposes_S24x512_S512x24_1_0
    dot_S32768x512_S512x24_S32768x24_1_0_0_1_n_n dot_S32768x24_S24x24_S32768x24_1_0_0_1_n_n dot_S32768x24_S24x512_S32768x512_1_0_0_1_n_n
    bcast_S_S32768x24 reducesTo_S32768x24_S32768_d1 bcast_S_S32768 bcast_S32768_S32768x1_0 bcast_S32768x1_S32768x24_0_1 bcast_S_S32768x1
    bcast_S32768x512_S32768x1x512_0_2

/-- The reference's result: the five slabs stacked along axis 1. -/
def refOut (x : FVec F S32768x512 .f32) (P0 : FVec F S2x512 .f32) (P1 : FVec F S15x512 .f32) (P2 : FVec F S40x512 .f32)
    (P3 : FVec F S40x512 .f32) (P4 : FVec F S24x512 .f32) : FVec F S32768x5x512 .f32 :=
  concatenate S32768x5x512 1 [⟨S32768x1x512, slab0 x P0⟩, ⟨S32768x1x512, slab1 x P1⟩, ⟨S32768x1x512, slab2 x P2⟩, ⟨S32768x1x512, slab3 x P3⟩, ⟨S32768x1x512, slab4 x P4⟩]
    concatenates_S32768x1x512_S32768x1x512_S32768x1x512_S32768x1x512_S32768x1x512_S32768x5x512_d1

end Cert.ReferenceIdeal.RefValue

end
-- ==== Proof.LibNary5.lean ====
/-
  The result of an operation over a LITERAL family of five operand references, with each operand's contents read at its
  own reference: the five-operand companion of the library's four-operand statement. A stack of five arrays is such an
  operation; with the operands' contents standing at their own references, the contents of each can be rewritten further.
-/
import Idealize.ShloMosaic.Lib.StableHlo.Run

noncomputable section

namespace Idealize.ShloMosaic.StableHlo

variable {τ : Topo} {sig : RefSig} {Val : EltTy → Type}
variable {x a b c e y : Ref sig .tc}

/-- An operation over the literal family `![x, a, b, c, e]` leaves in its result buffer its function applied to the five
    operands' contents, each read at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same statement with the result reference kept out of the simplifier's index, for use as a simp lemma. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Idealize.ShloMosaic.StableHlo

end
-- ==== Proof.RefRun.lean ====
/-
  The reference program's run: its @main is a straight line of host operations (the outlined norms' operations in
  place at their calls), so every weakly fair execution ends with the result buffer at the closed term
  `RefValue.refOut` of the argument arrays, the arguments unchanged.
-/
import proofs.«140027_j62843961475556_1_alg».proof.Proof.Gen.ReferenceIdeal
import proofs.«140027_j62843961475556_1_alg».proof.Proof.RefOut
import Idealize.ShloMosaic.Lib.StableHlo.Run
import Idealize.ShloMosaic.Lib.Pipeline.Frame
import proofs.«140027_j62843961475556_1_alg».proof.Proof.RefRunOps
import proofs.«140027_j62843961475556_1_alg».proof.Proof.LibNary5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line of its operations -/

/-- The whole line: the ten lists in order, grouped as the printed @main's four windows. -/
abbrev ops : List (HloOp τ sig (Elt F)) :=
  (opsA ++ (opsG0 ++ opsG1a)) ++ ((opsG1b ++ (opsG2 ++ opsG3a)) ++ ((opsG3b ++ opsG4a) ++ (opsG4b ++ opsZ)))

set_option maxRecDepth 4096 in
theorem main_part0_eq (c : Dev nD) : main_part0 (F := F) c = seq (opsA ++ (opsG0 ++ opsG1a)) := by
  simp only [main_part0, fn_norm.body, fn_norm_0.body, fn_norm_1.body, opsA, opsG0, opsG1a, List.cons_append, List.nil_append,
    seq, bind_assoc, pure_bind]
  rfl

set_option maxRecDepth 4096 in
theorem main_part1_eq (c : Dev nD) : main_part1 (F := F) c = seq (opsG1b ++ (opsG2 ++ opsG3a)) := by
  simp only [main_part1, fn_norm_2.body, opsG1b, opsG2, opsG3a, List.cons_append, List.nil_append, seq, bind_assoc, pure_bind]
  rfl

set_option maxRecDepth 4096 in
theorem main_part2_eq (c : Dev nD) : main_part2 (F := F) c = seq (opsG3b ++ opsG4a) := by
  simp only [main_part2, fn_norm_3.body, opsG3b, opsG4a, List.cons_append, List.nil_append, seq, bind_assoc, pure_bind]
  rfl

theorem main_part3_eq (c : Dev nD) : main_part3 (F := F) c = seq (opsG4b ++ opsZ) := by
  simp only [main_part3, opsG4b, opsZ, List.cons_append, List.nil_append, seq, bind_assoc, pure_bind]

/-- @main runs its four windows in order, and a line of two lists is the first list's line and then the second's. -/
theorem main_eq (c : Dev nD) : main (F := F) c = seq ops := by
  simp only [main, ops, main_part0_eq, main_part1_eq, main_part2_eq, main_part3_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- A property of every member of two lists holds of every member of the two in a row. -/
private theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append opsA_sub (forall_append opsG0_sub opsG1a_sub))
    (forall_append (forall_append opsG1b_sub (forall_append opsG2_sub opsG3a_sub))
      (forall_append (forall_append opsG3b_sub opsG4a_sub) (forall_append opsG4b_sub opsZ_sub)))

/-! ## Every operation determines its results -/

theorem opsA_fresh : (opsA : List (HloOp τ sig (Elt F))).Forall fun op => op.fresh = ∅ := by
  simp only [opsA, List.Forall]; repeat' constructor
theorem opsG0_fresh : (opsG0 : List (HloOp τ sig (Elt F))).Forall fun op => op.fresh = ∅ := by
  simp only [opsG0, List.Forall]; repeat' constructor
theorem opsG1a_fresh : (opsG1a : List (HloOp τ sig (Elt F))).Forall fun op => op.fresh = ∅ := by
  simp only [opsG1a, List.Forall]; repeat' constructor
theorem opsG1b_fresh : (opsG1b : List (HloOp τ sig (Elt F))).Forall fun op => op.fresh = ∅ := by
  simp only [opsG1b, List.Forall]; repeat' constructor
theorem opsG2_fresh : (opsG2 : List (HloOp τ sig (Elt F))).Forall fun op => op.fresh = ∅ := by
  simp only [opsG2, List.Forall]; repeat' constructor
theorem opsG3a_fresh : (opsG3a : List (HloOp τ sig (Elt F))).Forall fun op => op.fresh = ∅ := by
  simp only [opsG3a, List.Forall]; repeat' constructor
theorem opsG3b_fresh : (opsG3b : List (HloOp τ sig (Elt F))).Forall fun op => op.fresh = ∅ := by
  simp only [opsG3b, List.Forall]; repeat' constructor
theorem opsG4a_fresh : (opsG4a : List (HloOp τ sig (Elt F))).Forall fun op => op.fresh = ∅ := by
  simp only [opsG4a, List.Forall]; repeat' constructor
theorem opsG4b_fresh : (opsG4b : List (HloOp τ sig (Elt F))).Forall fun op => op.fresh = ∅ := by
  simp only [opsG4b, List.Forall]; repeat' constructor
theorem opsZ_fresh : (opsZ : List (HloOp τ sig (Elt F))).Forall fun op => op.fresh = ∅ := by
  simp only [opsZ, List.Forall]; repeat' constructor

theorem ops_fresh : ∀ op ∈ (ops : List (HloOp τ sig (Elt F))), op.fresh = ∅ :=
  List.forall_iff_forall_mem.mp
    (forall_append (forall_append opsA_fresh (forall_append opsG0_fresh opsG1a_fresh))
      (forall_append (forall_append opsG1b_fresh (forall_append opsG2_fresh opsG3a_fresh))
        (forall_append (forall_append opsG3b_fresh opsG4a_fresh) (forall_append opsG4b_fresh opsZ_fresh))))

/-- The run, read at every reference: each TensorCore buffer ends at the line's fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What each list writes, and what it leaves -/

/-- Each operation of a literal list writes its own result reference, which the list of written references names. -/
local macro "writes_tac" : tactic =>
  `(tactic| (repeat' constructor
             all_goals (simp only [nullary_writes, unary_writes, binary_writes, nary_writes, Finset.singleton_subset_iff, List.mem_toFinset]
                        exact List.mem_map_of_mem (by decide))))

theorem opsA_writes : (opsA : List (HloOp τ sig (Elt F))).Forall fun op => op.writes ⊆ (opsA_W.map (Proc.devRef (τ := τ) .tc)).toFinset := by
  simp only [opsA, List.Forall]; writes_tac
/-- A buffer `opsA` does not write keeps its contents through it. -/
theorem keepA (V : Valuation τ sig (Elt F)) {r : Ref sig .tc} (h : r ∉ opsA_W) :
    after opsA V (no_index (Proc.devRef .tc r)) = V (Proc.devRef .tc r) :=
  after_of_writes_sub opsA V opsA_writes h

theorem opsG0_writes : (opsG0 : List (HloOp τ sig (Elt F))).Forall fun op => op.writes ⊆ (opsG0_W.map (Proc.devRef (τ := τ) .tc)).toFinset := by
  simp only [opsG0, List.Forall]; writes_tac
/-- A buffer `opsG0` does not write keeps its contents through it. -/
theorem keepG0 (V : Valuation τ sig (Elt F)) {r : Ref sig .tc} (h : r ∉ opsG0_W) :
    after opsG0 V (no_index (Proc.devRef .tc r)) = V (Proc.devRef .tc r) :=
  after_of_writes_sub opsG0 V opsG0_writes h

theorem opsG1a_writes : (opsG1a : List (HloOp τ sig (Elt F))).Forall fun op => op.writes ⊆ (opsG1a_W.map (Proc.devRef (τ := τ) .tc)).toFinset := by
  simp only [opsG1a, List.Forall]; writes_tac
/-- A buffer `opsG1a` does not write keeps its contents through it. -/
theorem keepG1a (V : Valuation τ sig (Elt F)) {r : Ref sig .tc} (h : r ∉ opsG1a_W) :
    after opsG1a V (no_index (Proc.devRef .tc r)) = V (Proc.devRef .tc r) :=
  after_of_writes_sub opsG1a V opsG1a_writes h

theorem opsG1b_writes : (opsG1b : List (HloOp τ sig (Elt F))).Forall fun op => op.writes ⊆ (opsG1b_W.map (Proc.devRef (τ := τ) .tc)).toFinset := by
  simp only [opsG1b, List.Forall]; writes_tac
/-- A buffer `opsG1b` does not write keeps its contents through it. -/
theorem keepG1b (V : Valuation τ sig (Elt F)) {r : Ref sig .tc} (h : r ∉ opsG1b_W) :
    after opsG1b V (no_index (Proc.devRef .tc r)) = V (Proc.devRef .tc r) :=
  after_of_writes_sub opsG1b V opsG1b_writes h

theorem opsG2_writes : (opsG2 : List (HloOp τ sig (Elt F))).Forall fun op => op.writes ⊆ (opsG2_W.map (Proc.devRef (τ := τ) .tc)).toFinset := by
  simp only [opsG2, List.Forall]; writes_tac
/-- A buffer `opsG2` does not write keeps its contents through it. -/
theorem keepG2 (V : Valuation τ sig (Elt F)) {r : Ref sig .tc} (h : r ∉ opsG2_W) :
    after opsG2 V (no_index (Proc.devRef .tc r)) = V (Proc.devRef .tc r) :=
  after_of_writes_sub opsG2 V opsG2_writes h

theorem opsG3a_writes : (opsG3a : List (HloOp τ sig (Elt F))).Forall fun op => op.writes ⊆ (opsG3a_W.map (Proc.devRef (τ := τ) .tc)).toFinset := by
  simp only [opsG3a, List.Forall]; writes_tac
/-- A buffer `opsG3a` does not write keeps its contents through it. -/
theorem keepG3a (V : Valuation τ sig (Elt F)) {r : Ref sig .tc} (h : r ∉ opsG3a_W) :
    after opsG3a V (no_index (Proc.devRef .tc r)) = V (Proc.devRef .tc r) :=
  after_of_writes_sub opsG3a V opsG3a_writes h

theorem opsG3b_writes : (opsG3b : List (HloOp τ sig (Elt F))).Forall fun op => op.writes ⊆ (opsG3b_W.map (Proc.devRef (τ := τ) .tc)).toFinset := by
  simp only [opsG3b, List.Forall]; writes_tac
/-- A buffer `opsG3b` does not write keeps its contents through it. -/
theorem keepG3b (V : Valuation τ sig (Elt F)) {r : Ref sig .tc} (h : r ∉ opsG3b_W) :
    after opsG3b V (no_index (Proc.devRef .tc r)) = V (Proc.devRef .tc r) :=
  after_of_writes_sub opsG3b V opsG3b_writes h

theorem opsG4a_writes : (opsG4a : List (HloOp τ sig (Elt F))).Forall fun op => op.writes ⊆ (opsG4a_W.map (Proc.devRef (τ := τ) .tc)).toFinset := by
  simp only [opsG4a, List.Forall]; writes_tac
/-- A buffer `opsG4a` does not write keeps its contents through it. -/
theorem keepG4a (V : Valuation τ sig (Elt F)) {r : Ref sig .tc} (h : r ∉ opsG4a_W) :
    after opsG4a V (no_index (Proc.devRef .tc r)) = V (Proc.devRef .tc r) :=
  after_of_writes_sub opsG4a V opsG4a_writes h

theorem opsG4b_writes : (opsG4b : List (HloOp τ sig (Elt F))).Forall fun op => op.writes ⊆ (opsG4b_W.map (Proc.devRef (τ := τ) .tc)).toFinset := by
  simp only [opsG4b, List.Forall]; writes_tac
/-- A buffer `opsG4b` does not write keeps its contents through it. -/
theorem keepG4b (V : Valuation τ sig (Elt F)) {r : Ref sig .tc} (h : r ∉ opsG4b_W) :
    after opsG4b V (no_index (Proc.devRef .tc r)) = V (Proc.devRef .tc r) :=
  after_of_writes_sub opsG4b V opsG4b_writes h

theorem opsZ_writes : (opsZ : List (HloOp τ sig (Elt F))).Forall fun op => op.writes ⊆ (opsZ_W.map (Proc.devRef (τ := τ) .tc)).toFinset := by
  simp only [opsZ, List.Forall]; writes_tac
/-- A buffer `opsZ` does not write keeps its contents through it. -/
theorem keepZ (V : Valuation τ sig (Elt F)) {r : Ref sig .tc} (h : r ∉ opsZ_W) :
    after opsZ V (no_index (Proc.devRef .tc r)) = V (Proc.devRef .tc r) :=
  after_of_writes_sub opsZ V opsZ_writes h

/-! ## The stages' values -/

/-- After the first list the input's rows scaled to unit length stand in `main_v4`: the outlined norm's column of lengths,
    the small constant added, the rows divided. -/
theorem A_v4 (V : Valuation τ sig (Elt F)) :
    after opsA V (no_index (Proc.devRef .tc main_v4)) = RefValue.unitInput (V (Proc.devRef .tc main_arg0)) := by
  simp only [opsA]
  after_results_simp
  simp only [TRef.ofBuf, TRef.toBuf, cast_eq]
  unfold RefValue.unitInput HostChain.unitRows HostChain.lengths
  rfl

/-- The first list writes group 0's constant table into `main_cst`. -/
theorem A_cst (V : Valuation τ sig (Elt F)) :
    after opsA V (no_index (Proc.devRef .tc main_cst)) = RefValue.tbl0 (F := F) := by
  simp only [opsA]
  after_results_simp
  rfl

/-- The first list writes group 1's constant table into `main_cst_0`. -/
theorem A_cst_0 (V : Valuation τ sig (Elt F)) :
    after opsA V (no_index (Proc.devRef .tc main_cst_0)) = RefValue.tbl1 (F := F) := by
  simp only [opsA]
  after_results_simp
  rfl

/-- The first list writes group 2's constant table into `main_cst_1`. -/
theorem A_cst_1 (V : Valuation τ sig (Elt F)) :
    after opsA V (no_index (Proc.devRef .tc main_cst_1)) = RefValue.tbl2 (F := F) := by
  simp only [opsA]
  after_results_simp
  rfl

/-- The first list writes group 3's constant table into `main_cst_2`. -/
theorem A_cst_2 (V : Valuation τ sig (Elt F)) :
    after opsA V (no_index (Proc.devRef .tc main_cst_2)) = RefValue.tbl3 (F := F) := by
  simp only [opsA]
  after_results_simp
  rfl

/-- The first list writes group 4's constant table into `main_cst_3`. -/
theorem A_cst_3 (V : Valuation τ sig (Elt F)) :
    after opsA V (no_index (Proc.devRef .tc main_cst_3)) = RefValue.tbl4 (F := F) := by
  simp only [opsA]
  after_results_simp
  rfl

/-- Group 0's operations leave in `main_v32` what, given the slab's middle axis, is the group's slab of the unit rows in
    `main_v4`, the prototypes in `main_arg1` and the table in `main_cst`. -/
theorem G0_slab (W : Valuation τ sig (Elt F)) :
    broadcastInDim S32768x1x512 ![0, 2] bcast_S32768x512_S32768x1x512_0_2 (after opsG0 W (no_index (Proc.devRef .tc main_v32)))
      = HostChain.group 32768 2 512 (W (Proc.devRef .tc main_v4)) (W (Proc.devRef .tc main_arg1)) (W (Proc.devRef .tc main_cst))
          reducesTo_S2x512_S2_d1 h_S_ bcast_S2_S2x1_0 bcast_S_S2x1 bcast_S2x1_S2x512_0_1 transposes_S2x512_S512x2_1_0
          dot_S32768x512_S512x2_S32768x2_1_0_0_1_n_n dot_S32768x2_S2x2_S32768x2_1_0_0_1_n_n dot_S32768x2_S2x512_S32768x512_1_0_0_1_n_n
          bcast_S_S32768x2 reducesTo_S32768x2_S32768_d1 bcast_S_S32768 bcast_S32768_S32768x1_0 bcast_S32768x1_S32768x2_0_1 bcast_S_S32768x1
          bcast_S32768x512_S32768x1x512_0_2 := by
  simp only [opsG0]
  after_results_simp
  simp only [TRef.ofBuf, TRef.toBuf, cast_eq]
  unfold HostChain.group HostChain.mixed HostChain.renorm HostChain.softmax HostChain.logits HostChain.unitRows HostChain.lengths
  rfl

/-- Group 1's operations leave in `main_v60` what, given the slab's middle axis, is the group's slab of the unit rows in
    `main_v4`, the prototypes in `main_arg2` and the table in `main_cst_0`. -/
theorem G1_slab (W : Valuation τ sig (Elt F)) :
    broadcastInDim S32768x1x512 ![0, 2] bcast_S32768x512_S32768x1x512_0_2 (after opsG1b (after opsG1a W) (no_index (Proc.devRef .tc main_v60)))
      = HostChain.group 32768 15 512 (W (Proc.devRef .tc main_v4)) (W (Proc.devRef .tc main_arg2)) (W (Proc.devRef .tc main_cst_0))
          reducesTo_S15x512_S15_d1 h_S_ bcast_S15_S15x1_0 bcast_S_S15x1 bcast_S15x1_S15x512_0_1 transposes_S15x512_S512x15_1_0
          dot_S32768x512_S512x15_S32768x15_1_0_0_1_n_n dot_S32768x15_S15x15_S32768x15_1_0_0_1_n_n dot_S32768x15_S15x512_S32768x512_1_0_0_1_n_n
          bcast_S_S32768x15 reducesTo_S32768x15_S32768_d1 bcast_S_S32768 bcast_S32768_S32768x1_0 bcast_S32768x1_S32768x15_0_1 bcast_S_S32768x1
          bcast_S32768x512_S32768x1x512_0_2 := by
  rw [← after_append]
  simp only [opsG1a, opsG1b, List.cons_append, List.nil_append]
  after_results_simp
  simp only [TRef.ofBuf, TRef.toBuf, cast_eq]
  unfold HostChain.group HostChain.mixed HostChain.renorm HostChain.softmax HostChain.logits HostChain.unitRows HostChain.lengths
  rfl

/-- Group 2's operations leave in `main_v88` what, given the slab's middle axis, is the group's slab of the unit rows in
    `main_v4`, the prototypes in `main_arg3` and the table in `main_cst_1`. -/
theorem G2_slab (W : Valuation τ sig (Elt F)) :
    broadcastInDim S32768x1x512 ![0, 2] bcast_S32768x512_S32768x1x512_0_2 (after opsG2 W (no_index (Proc.devRef .tc main_v88)))
      = HostChain.group 32768 40 512 (W (Proc.devRef .tc main_v4)) (W (Proc.devRef .tc main_arg3)) (W (Proc.devRef .tc main_cst_1))
          reducesTo_S40x512_S40_d1 h_S_ bcast_S40_S40x1_0 bcast_S_S40x1 bcast_S40x1_S40x512_0_1 transposes_S40x512_S512x40_1_0
          dot_S32768x512_S512x40_S32768x40_1_0_0_1_n_n dot_S32768x40_S40x40_S32768x40_1_0_0_1_n_n dot_S32768x40_S40x512_S32768x512_1_0_0_1_n_n
          bcast_S_S32768x40 reducesTo_S32768x40_S32768_d1 bcast_S_S32768 bcast_S32768_S32768x1_0 bcast_S32768x1_S32768x40_0_1 bcast_S_S32768x1
          bcast_S32768x512_S32768x1x512_0_2 := by
  simp only [opsG2]
  after_results_simp
  simp only [TRef.ofBuf, TRef.toBuf, cast_eq]
  unfold HostChain.group HostChain.mixed HostChain.renorm HostChain.softmax HostChain.logits HostChain.unitRows HostChain.lengths
  rfl

/-- Group 3's operations leave in `main_v116` what, given the slab's middle axis, is the group's slab of the unit rows in
    `main_v4`, the prototypes in `main_arg4` and the table in `main_cst_2`. -/
theorem G3_slab (W : Valuation τ sig (Elt F)) :
    broadcastInDim S32768x1x512 ![0, 2] bcast_S32768x512_S32768x1x512_0_2 (after opsG3b (after opsG3a W) (no_index (Proc.devRef .tc main_v116)))
      = HostChain.group 32768 40 512 (W (Proc.devRef .tc main_v4)) (W (Proc.devRef .tc main_arg4)) (W (Proc.devRef .tc main_cst_2))
          reducesTo_S40x512_S40_d1 h_S_ bcast_S40_S40x1_0 bcast_S_S40x1 bcast_S40x1_S40x512_0_1 transposes_S40x512_S512x40_1_0
          dot_S32768x512_S512x40_S32768x40_1_0_0_1_n_n dot_S32768x40_S40x40_S32768x40_1_0_0_1_n_n dot_S32768x40_S40x512_S32768x512_1_0_0_1_n_n
          bcast_S_S32768x40 reducesTo_S32768x40_S32768_d1 bcast_S_S32768 bcast_S32768_S32768x1_0 bcast_S32768x1_S32768x40_0_1 bcast_S_S32768x1
          bcast_S32768x512_S32768x1x512_0_2 := by
  rw [← after_append]
  simp only [opsG3a, opsG3b, List.cons_append, List.nil_append]
  after_results_simp
  simp only [TRef.ofBuf, TRef.toBuf, cast_eq]
  unfold HostChain.group HostChain.mixed HostChain.renorm HostChain.softmax HostChain.logits HostChain.unitRows HostChain.lengths
  rfl

/-- Group 4's operations leave in `main_v144` what, given the slab's middle axis, is the group's slab of the unit rows in
    `main_v4`, the prototypes in `main_arg5` and the table in `main_cst_3`. -/
theorem G4_slab (W : Valuation τ sig (Elt F)) :
    broadcastInDim S32768x1x512 ![0, 2] bcast_S32768x512_S32768x1x512_0_2 (after opsG4b (after opsG4a W) (no_index (Proc.devRef .tc main_v144)))
      = HostChain.group 32768 24 512 (W (Proc.devRef .tc main_v4)) (W (Proc.devRef .tc main_arg5)) (W (Proc.devRef .tc main_cst_3))
          reducesTo_S24x512_S24_d1 h_S_ bcast_S24_S24x1_0 bcast_S_S24x1 bcast_S24x1_S24x512_0_1 transposes_S24x512_S512x24_1_0
          dot_S32768x512_S512x24_S32768x24_1_0_0_1_n_n dot_S32768x24_S24x24_S32768x24_1_0_0_1_n_n dot_S32768x24_S24x512_S32768x512_1_0_0_1_n_n
          bcast_S_S32768x24 reducesTo_S32768x24_S32768_d1 bcast_S_S32768 bcast_S32768_S32768x1_0 bcast_S32768x1_S32768x24_0_1 bcast_S_S32768x1
          bcast_S32768x512_S32768x1x512_0_2 := by
  rw [← after_append]
  simp only [opsG4a, opsG4b, List.cons_append, List.nil_append]
  after_results_simp
  simp only [TRef.ofBuf, TRef.toBuf, cast_eq]
  unfold HostChain.group HostChain.mixed HostChain.renorm HostChain.softmax HostChain.logits HostChain.unitRows HostChain.lengths
  rfl

/-- The last list stacks along the middle axis the five [32768, 512] results, each given that axis. -/
theorem Z_out (W : Valuation τ sig (Elt F)) :
    after opsZ W (Proc.devRef .tc main_v150)
      = concatenate S32768x5x512 1
          [⟨S32768x1x512, broadcastInDim S32768x1x512 ![0, 2] bcast_S32768x512_S32768x1x512_0_2 (W (Proc.devRef .tc main_v32))⟩,
           ⟨S32768x1x512, broadcastInDim S32768x1x512 ![0, 2] bcast_S32768x512_S32768x1x512_0_2 (W (Proc.devRef .tc main_v60))⟩,
           ⟨S32768x1x512, broadcastInDim S32768x1x512 ![0, 2] bcast_S32768x512_S32768x1x512_0_2 (W (Proc.devRef .tc main_v88))⟩,
           ⟨S32768x1x512, broadcastInDim S32768x1x512 ![0, 2] bcast_S32768x512_S32768x1x512_0_2 (W (Proc.devRef .tc main_v116))⟩,
           ⟨S32768x1x512, broadcastInDim S32768x1x512 ![0, 2] bcast_S32768x512_S32768x1x512_0_2 (W (Proc.devRef .tc main_v144))⟩]
          concatenates_S32768x1x512_S32768x1x512_S32768x1x512_S32768x1x512_S32768x1x512_S32768x5x512_d1 := by
  simp only [opsZ, after_cons, after_nil]
  rw [nary5_result]
  repeat (first | rw [unary_result] | (rw [unary_result_ne]; rotate_left; decide))
  rfl

/-! ## The line's fold at the result and at the arguments -/

/-- Group 0's slab as the last list reads it: `main_v32` kept through the lists after its group's, the group's list run on what
    the first list left (the unit rows, the table) and on the group's argument. -/
theorem slab0_eq (V : Valuation τ sig (Elt F)) :
    broadcastInDim S32768x1x512 ![0, 2] bcast_S32768x512_S32768x1x512_0_2 ((after opsG4b (after opsG4a (after opsG3b (after opsG3a (after opsG2 (after opsG1b (after opsG1a (after opsG0 (after opsA V))))))))) (Proc.devRef .tc main_v32))
      = RefValue.slab0 (V (Proc.devRef .tc main_arg0)) (V (Proc.devRef .tc main_arg1)) := by
  simp (disch := decide) only [keepZ, keepG4b, keepG4a, keepG3b, keepG3a, keepG2, keepG1b, keepG1a, keepG0, keepA]
  rw [G0_slab]
  simp (disch := decide) only [keepZ, keepG4b, keepG4a, keepG3b, keepG3a, keepG2, keepG1b, keepG1a, keepG0, keepA, A_v4, A_cst]
  rfl

/-- Group 1's slab as the last list reads it: `main_v60` kept through the lists after its group's, the group's list run on what
    the first list left (the unit rows, the table) and on the group's argument. -/
theorem slab1_eq (V : Valuation τ sig (Elt F)) :
    broadcastInDim S32768x1x512 ![0, 2] bcast_S32768x512_S32768x1x512_0_2 ((after opsG4b (after opsG4a (after opsG3b (after opsG3a (after opsG2 (after opsG1b (after opsG1a (after opsG0 (after opsA V))))))))) (Proc.devRef .tc main_v60))
      = RefValue.slab1 (V (Proc.devRef .tc main_arg0)) (V (Proc.devRef .tc main_arg2)) := by
  simp (disch := decide) only [keepZ, keepG4b, keepG4a, keepG3b, keepG3a, keepG2, keepG1b, keepG1a, keepG0, keepA]
  rw [G1_slab]
  simp (disch := decide) only [keepZ, keepG4b, keepG4a, keepG3b, keepG3a, keepG2, keepG1b, keepG1a, keepG0, keepA, A_v4, A_cst_0]
  rfl

/-- Group 2's slab as the last list reads it: `main_v88` kept through the lists after its group's, the group's list run on what
    the first list left (the unit rows, the table) and on the group's argument. -/
theorem slab2_eq (V : Valuation τ sig (Elt F)) :
    broadcastInDim S32768x1x512 ![0, 2] bcast_S32768x512_S32768x1x512_0_2 ((after opsG4b (after opsG4a (after opsG3b (after opsG3a (after opsG2 (after opsG1b (after opsG1a (after opsG0 (after opsA V))))))))) (Proc.devRef .tc main_v88))
      = RefValue.slab2 (V (Proc.devRef .tc main_arg0)) (V (Proc.devRef .tc main_arg3)) := by
  simp (disch := decide) only [keepZ, keepG4b, keepG4a, keepG3b, keepG3a, keepG2, keepG1b, keepG1a, keepG0, keepA]
  rw [G2_slab]
  simp (disch := decide) only [keepZ, keepG4b, keepG4a, keepG3b, keepG3a, keepG2, keepG1b, keepG1a, keepG0, keepA, A_v4, A_cst_1]
  rfl

/-- Group 3's slab as the last list reads it: `main_v116` kept through the lists after its group's, the group's list run on what
    the first list left (the unit rows, the table) and on the group's argument. -/
theorem slab3_eq (V : Valuation τ sig (Elt F)) :
    broadcastInDim S32768x1x512 ![0, 2] bcast_S32768x512_S32768x1x512_0_2 ((after opsG4b (after opsG4a (after opsG3b (after opsG3a (after opsG2 (after opsG1b (after opsG1a (after opsG0 (after opsA V))))))))) (Proc.devRef .tc main_v116))
      = RefValue.slab3 (V (Proc.devRef .tc main_arg0)) (V (Proc.devRef .tc main_arg4)) := by
  simp (disch := decide) only [keepZ, keepG4b, keepG4a, keepG3b, keepG3a, keepG2, keepG1b, keepG1a, keepG0, keepA]
  rw [G3_slab]
  simp (disch := decide) only [keepZ, keepG4b, keepG4a, keepG3b, keepG3a, keepG2, keepG1b, keepG1a, keepG0, keepA, A_v4, A_cst_2]
  rfl

/-- Group 4's slab as the last list reads it: `main_v144` kept through the lists after its group's, the group's list run on what
    the first list left (the unit rows, the table) and on the group's argument. -/
theorem slab4_eq (V : Valuation τ sig (Elt F)) :
    broadcastInDim S32768x1x512 ![0, 2] bcast_S32768x512_S32768x1x512_0_2 ((after opsG4b (after opsG4a (after opsG3b (after opsG3a (after opsG2 (after opsG1b (after opsG1a (after opsG0 (after opsA V))))))))) (Proc.devRef .tc main_v144))
      = RefValue.slab4 (V (Proc.devRef .tc main_arg0)) (V (Proc.devRef .tc main_arg5)) := by
  rw [G4_slab]
  simp (disch := decide) only [keepZ, keepG4b, keepG4a, keepG3b, keepG3a, keepG2, keepG1b, keepG1a, keepG0, keepA, A_v4, A_cst_3]
  rfl

/-- The result buffer after the whole line: the five slabs stacked. -/
theorem out_eq (V : Valuation τ sig (Elt F)) :
    after ops V (Proc.devRef .tc main_v150)
      = RefValue.refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops, after_append]
  rw [Z_out, slab0_eq, slab1_eq, slab2_eq, slab3_eq, slab4_eq]
  rfl

/-- No operation writes argument 0. -/
theorem arg0_eq (V : Valuation τ sig (Elt F)) :
    after ops V (Proc.devRef .tc main_arg0) = V (Proc.devRef .tc main_arg0) := by
  simp (disch := decide) only [ops, after_append, keepZ, keepG4b, keepG4a, keepG3b, keepG3a, keepG2, keepG1b, keepG1a, keepG0, keepA]

/-- No operation writes argument 1. -/
theorem arg1_eq (V : Valuation τ sig (Elt F)) :
    after ops V (Proc.devRef .tc main_arg1) = V (Proc.devRef .tc main_arg1) := by
  simp (disch := decide) only [ops, after_append, keepZ, keepG4b, keepG4a, keepG3b, keepG3a, keepG2, keepG1b, keepG1a, keepG0, keepA]

/-- No operation writes argument 2. -/
theorem arg2_eq (V : Valuation τ sig (Elt F)) :
    after ops V (Proc.devRef .tc main_arg2) = V (Proc.devRef .tc main_arg2) := by
  simp (disch := decide) only [ops, after_append, keepZ, keepG4b, keepG4a, keepG3b, keepG3a, keepG2, keepG1b, keepG1a, keepG0, keepA]

/-- No operation writes argument 3. -/
theorem arg3_eq (V : Valuation τ sig (Elt F)) :
    after ops V (Proc.devRef .tc main_arg3) = V (Proc.devRef .tc main_arg3) := by
  simp (disch := decide) only [ops, after_append, keepZ, keepG4b, keepG4a, keepG3b, keepG3a, keepG2, keepG1b, keepG1a, keepG0, keepA]

/-- No operation writes argument 4. -/
theorem arg4_eq (V : Valuation τ sig (Elt F)) :
    after ops V (Proc.devRef .tc main_arg4) = V (Proc.devRef .tc main_arg4) := by
  simp (disch := decide) only [ops, after_append, keepZ, keepG4b, keepG4a, keepG3b, keepG3a, keepG2, keepG1b, keepG1a, keepG0, keepA]

/-- No operation writes argument 5. -/
theorem arg5_eq (V : Valuation τ sig (Elt F)) :
    after ops V (Proc.devRef .tc main_arg5) = V (Proc.devRef .tc main_arg5) := by
  simp (disch := decide) only [ops, after_append, keepZ, keepG4b, keepG4a, keepG3b, keepG3a, keepG2, keepG1b, keepG1a, keepG0, keepA]

/-- On every device, from any memory with zero counters: every weakly fair execution of @main terminates with the
    result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v150) = RefValue.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v150).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c))⟩)
    (run_all m ρ)

end Cert.ReferenceIdeal.RefRun

end
-- ==== Proof.RefValue.lean ====
/-
  The reference's closed result term, read index by index over the extended reals, is `Cert.Spec.G` of the argument
  arrays and the reference's five constant tables: the stack of five unit slabs reads slab g at (R, g, d), and slab g
  there is group g's row function of row R of the unit input (`Cert.HostChain.group_apply`, `unitRows_apply`).
-/
import proofs.«140027_j62843961475556_1_alg».proof.Proof.Gen.ReferenceIdeal
import proofs.«140027_j62843961475556_1_alg».proof.Proof.RefOut
import proofs.«140027_j62843961475556_1_alg».proof.Proof.Spec

noncomputable section

namespace Cert.ReferenceIdeal.RefValue

open Idealize.ShloMosaic Idealize.ShloMosaic.ValueIdx Cert.ReferenceIdeal

section Auxiliary

open Facts₀ Facts

/-- Row R of the unit input is the unit row of row R of the input. -/
private theorem unitInput_row (x : FVec Ideal S32768x512 .f32) (R : Fin 32768) :
    (fun j : Fin 512 => unitInput (F := Ideal) x (ix2 R j)) = fun j => Cert.Rows.unitRow (fun j' => x (ix2 R j')) j := by
  funext j
  unfold unitInput
  exact HostChain.unitRows_apply 32768 512 x reducesTo_S32768x512_S32768_d1 h_S_ bcast_S32768_S32768x1_0
    bcast_S_S32768x1 bcast_S32768x1_S32768x512_0_1 R j

/-- Group 0's slab at (R, ·, d) is the group's value at row R, feature d. -/
private theorem slab0_apply (x : FVec Ideal S32768x512 .f32) (P0 : FVec Ideal S2x512 .f32) (R : Fin 32768) (u : Fin 1) (d : Fin 512) :
    slab0 (F := Ideal) x P0 (ix3 R u d) = Cert.Spec.grp x P0 (tbl0 (F := Ideal)) R d := by
  unfold slab0
  refine (HostChain.group_apply 32768 2 512 (unitInput x) P0 (tbl0 (F := Ideal))
    reducesTo_S2x512_S2_d1 h_S_ bcast_S2_S2x1_0 bcast_S_S2x1 bcast_S2x1_S2x512_0_1 transposes_S2x512_S512x2_1_0
    dot_S32768x512_S512x2_S32768x2_1_0_0_1_n_n dot_S32768x2_S2x2_S32768x2_1_0_0_1_n_n dot_S32768x2_S2x512_S32768x512_1_0_0_1_n_n
    rfl rfl rfl
    bcast_S_S32768x2 reducesTo_S32768x2_S32768_d1 bcast_S_S32768 bcast_S32768_S32768x1_0 bcast_S32768x1_S32768x2_0_1 bcast_S_S32768x1
    bcast_S32768x512_S32768x1x512_0_2 R u d).trans ?_
  unfold Cert.Spec.grp
  rw [unitInput_row x R]

/-- Group 1's slab at (R, ·, d) is the group's value at row R, feature d. -/
private theorem slab1_apply (x : FVec Ideal S32768x512 .f32) (P1 : FVec Ideal S15x512 .f32) (R : Fin 32768) (u : Fin 1) (d : Fin 512) :
    slab1 (F := Ideal) x P1 (ix3 R u d) = Cert.Spec.grp x P1 (tbl1 (F := Ideal)) R d := by
  unfold slab1
  refine (HostChain.group_apply 32768 15 512 (unitInput x) P1 (tbl1 (F := Ideal))
    reducesTo_S15x512_S15_d1 h_S_ bcast_S15_S15x1_0 bcast_S_S15x1 bcast_S15x1_S15x512_0_1 transposes_S15x512_S512x15_1_0
    dot_S32768x512_S512x15_S32768x15_1_0_0_1_n_n dot_S32768x15_S15x15_S32768x15_1_0_0_1_n_n dot_S32768x15_S15x512_S32768x512_1_0_0_1_n_n
    rfl rfl rfl
    bcast_S_S32768x15 reducesTo_S32768x15_S32768_d1 bcast_S_S32768 bcast_S32768_S32768x1_0 bcast_S32768x1_S32768x15_0_1 bcast_S_S32768x1
    bcast_S32768x512_S32768x1x512_0_2 R u d).trans ?_
  unfold Cert.Spec.grp
  rw [unitInput_row x R]

/-- Group 2's slab at (R, ·, d) is the group's value at row R, feature d. -/
private theorem slab2_apply (x : FVec Ideal S32768x512 .f32) (P2 : FVec Ideal S40x512 .f32) (R : Fin 32768) (u : Fin 1) (d : Fin 512) :
    slab2 (F := Ideal) x P2 (ix3 R u d) = Cert.Spec.grp x P2 (tbl2 (F := Ideal)) R d := by
  unfold slab2
  refine (HostChain.group_apply 32768 40 512 (unitInput x) P2 (tbl2 (F := Ideal))
    reducesTo_S40x512_S40_d1 h_S_ bcast_S40_S40x1_0 bcast_S_S40x1 bcast_S40x1_S40x512_0_1 transposes_S40x512_S512x40_1_0
    dot_S32768x512_S512x40_S32768x40_1_0_0_1_n_n dot_S32768x40_S40x40_S32768x40_1_0_0_1_n_n dot_S32768x40_S40x512_S32768x512_1_0_0_1_n_n
    rfl rfl rfl
    bcast_S_S32768x40 reducesTo_S32768x40_S32768_d1 bcast_S_S32768 bcast_S32768_S32768x1_0 bcast_S32768x1_S32768x40_0_1 bcast_S_S32768x1
    bcast_S32768x512_S32768x1x512_0_2 R u d).trans ?_
  unfold Cert.Spec.grp
  rw [unitInput_row x R]

/-- Group 3's slab at (R, ·, d) is the group's value at row R, feature d. -/
private theorem slab3_apply (x : FVec Ideal S32768x512 .f32) (P3 : FVec Ideal S40x512 .f32) (R : Fin 32768) (u : Fin 1) (d : Fin 512) :
    slab3 (F := Ideal) x P3 (ix3 R u d) = Cert.Spec.grp x P3 (tbl3 (F := Ideal)) R d := by
  unfold slab3
  refine (HostChain.group_apply 32768 40 512 (unitInput x) P3 (tbl3 (F := Ideal))
    reducesTo_S40x512_S40_d1 h_S_ bcast_S40_S40x1_0 bcast_S_S40x1 bcast_S40x1_S40x512_0_1 transposes_S40x512_S512x40_1_0
    dot_S32768x512_S512x40_S32768x40_1_0_0_1_n_n dot_S32768x40_S40x40_S32768x40_1_0_0_1_n_n dot_S32768x40_S40x512_S32768x512_1_0_0_1_n_n
    rfl rfl rfl
    bcast_S_S32768x40 reducesTo_S32768x40_S32768_d1 bcast_S_S32768 bcast_S32768_S32768x1_0 bcast_S32768x1_S32768x40_0_1 bcast_S_S32768x1
    bcast_S32768x512_S32768x1x512_0_2 R u d).trans ?_
  unfold Cert.Spec.grp
  rw [unitInput_row x R]

/-- Group 4's slab at (R, ·, d) is the group's value at row R, feature d. -/
private theorem slab4_apply (x : FVec Ideal S32768x512 .f32) (P4 : FVec Ideal S24x512 .f32) (R : Fin 32768) (u : Fin 1) (d : Fin 512) :
    slab4 (F := Ideal) x P4 (ix3 R u d) = Cert.Spec.grp x P4 (tbl4 (F := Ideal)) R d := by
  unfold slab4
  refine (HostChain.group_apply 32768 24 512 (unitInput x) P4 (tbl4 (F := Ideal))
    reducesTo_S24x512_S24_d1 h_S_ bcast_S24_S24x1_0 bcast_S_S24x1 bcast_S24x1_S24x512_0_1 transposes_S24x512_S512x24_1_0
    dot_S32768x512_S512x24_S32768x24_1_0_0_1_n_n dot_S32768x24_S24x24_S32768x24_1_0_0_1_n_n dot_S32768x24_S24x512_S32768x512_1_0_0_1_n_n
    rfl rfl rfl
    bcast_S_S32768x24 reducesTo_S32768x24_S32768_d1 bcast_S_S32768 bcast_S32768_S32768x1_0 bcast_S32768x1_S32768x24_0_1 bcast_S_S32768x1
    bcast_S32768x512_S32768x1x512_0_2 R u d).trans ?_
  unfold Cert.Spec.grp
  rw [unitInput_row x R]

/-- Off the stacking axis, the index (R, 0, d) of a unit slab and the index (R, g, d) of the stack have the same coordinates. -/
private theorem off_axis (R : Fin 32768) (g : Fin 5) (d : Fin 512) :
    ∀ b : Fin S32768x1x512.rank, b.cast (rfl : S32768x1x512.rank = S32768x5x512.rank) ≠ (1 : Fin S32768x5x512.rank) →
      ((ix3 R (0 : Fin 1) d : S32768x1x512.Idx) b).val = ((ix3 R g d : S32768x5x512.Idx) (b.cast rfl)).val := by
  intro b hb
  match b with
  | ⟨0, _⟩ => rfl
  | ⟨1, _⟩ => exact absurd rfl hb
  | ⟨2, _⟩ => rfl

/-- The stack at (R, g, d) is slab g at (R, 0, d), which is group g's value at row R, feature d. -/
private theorem refOut_at (x : FVec Ideal S32768x512 .f32) (P0 : FVec Ideal S2x512 .f32) (P1 : FVec Ideal S15x512 .f32) (P2 : FVec Ideal S40x512 .f32)
    (P3 : FVec Ideal S40x512 .f32) (P4 : FVec Ideal S24x512 .f32) (R : Fin 32768) (g : Fin 5) (d : Fin 512) :
    refOut (F := Ideal) x P0 P1 P2 P3 P4 (ix3 R g d)
      = Cert.Spec.Gat x P0 P1 P2 P3 P4 (tbl0 (F := Ideal)) (tbl1 (F := Ideal)) (tbl2 (F := Ideal)) (tbl3 (F := Ideal)) (tbl4 (F := Ideal)) R g d := by
  unfold refOut
  match g with
  | 0 =>
    refine (concatenate_apply_piece (t := S32768x5x512) 1 _ _ (ix3 R 0 d) 0 ?_ S32768x1x512 (slab0 x P0) ?_ rfl 0 ?_
      (ix3 R 0 d) ?_ ?_).trans (slab0_apply x P0 R 0 d)
    · exact (by decide : 0 < 5)
    · rfl
    · rfl
    · exact off_axis R 0 d
    · rfl
  | 1 =>
    refine (concatenate_apply_piece (t := S32768x5x512) 1 _ _ (ix3 R 1 d) 1 ?_ S32768x1x512 (slab1 x P1) ?_ rfl 1 ?_
      (ix3 R 0 d) ?_ ?_).trans (slab1_apply x P1 R 0 d)
    · exact (by decide : 1 < 5)
    · rfl
    · rfl
    · exact off_axis R 1 d
    · rfl
  | 2 =>
    refine (concatenate_apply_piece (t := S32768x5x512) 1 _ _ (ix3 R 2 d) 2 ?_ S32768x1x512 (slab2 x P2) ?_ rfl 2 ?_
      (ix3 R 0 d) ?_ ?_).trans (slab2_apply x P2 R 0 d)
    · exact (by decide : 2 < 5)
    · rfl
    · rfl
    · exact off_axis R 2 d
    · rfl
  | 3 =>
    refine (concatenate_apply_piece (t := S32768x5x512) 1 _ _ (ix3 R 3 d) 3 ?_ S32768x1x512 (slab3 x P3) ?_ rfl 3 ?_
      (ix3 R 0 d) ?_ ?_).trans (slab3_apply x P3 R 0 d)
    · exact (by decide : 3 < 5)
    · rfl
    · rfl
    · exact off_axis R 3 d
    · rfl
  | 4 =>
    refine (concatenate_apply_piece (t := S32768x5x512) 1 _ _ (ix3 R 4 d) 4 ?_ S32768x1x512 (slab4 x P4) ?_ rfl 4 ?_
      (ix3 R 0 d) ?_ ?_).trans (slab4_apply x P4 R 0 d)
    · exact (by decide : 4 < 5)
    · rfl
    · rfl
    · exact off_axis R 4 d
    · rfl

end Auxiliary

/-- The reference's result is the specification at the reference's tables. -/
theorem refOut_eq (x : FVec Ideal S32768x512 .f32) (P0 : FVec Ideal S2x512 .f32) (P1 : FVec Ideal S15x512 .f32) (P2 : FVec Ideal S40x512 .f32)
    (P3 : FVec Ideal S40x512 .f32) (P4 : FVec Ideal S24x512 .f32) :
    refOut (F := Ideal) x P0 P1 P2 P3 P4 = Cert.Spec.G x P0 P1 P2 P3 P4 (tbl0 (F := Ideal)) (tbl1 (F := Ideal)) (tbl2 (F := Ideal)) (tbl3 (F := Ideal)) (tbl4 (F := Ideal)) := by
  funext i
  obtain ⟨R, g, d, rfl⟩ : ∃ (R : Fin 32768) (g : Fin 5) (d : Fin 512), i = ix3 R g d := ⟨i 0, i 1, i 2, eq_ix3 i⟩
  exact refOut_at x P0 P1 P2 P3 P4 R g d

end Cert.ReferenceIdeal.RefValue

end
-- ==== Proof.Tables.lean ====
/-
  The two programs print the same five constant affinity tables: entry by entry the words are equal (decided over
  each table's row-major positions), so the extended-real arrays they denote are equal.
-/
import proofs.«140027_j62843961475556_1_alg».proof.Proof.KernelTables
import proofs.«140027_j62843961475556_1_alg».proof.Proof.RefOut
import proofs.«140027_j62843961475556_1_alg».proof.Proof.Gen.ReferenceIdeal

noncomputable section

namespace Cert.Tables

open Idealize.ShloMosaic

/-- Table 0: the same word at every row-major position. -/
theorem lit0_eq : ∀ j : Fin 4, Cert.KernelIdeal.lit0 j = Cert.ReferenceIdeal.lit0 j := by decide +kernel

theorem tbl0_eq : Cert.KernelIdeal.Tables.tbl0 = Cert.ReferenceIdeal.RefValue.tbl0 (F := Ideal) :=
  funext fun _ => congrArg (FloatOps.ofBits (F := Ideal) .f32) (lit0_eq _)

/-- Table 1: the same word at every row-major position. -/
theorem lit1_eq : ∀ j : Fin 225, Cert.KernelIdeal.lit1 j = Cert.ReferenceIdeal.lit1 j := by decide +kernel

theorem tbl1_eq : Cert.KernelIdeal.Tables.tbl1 = Cert.ReferenceIdeal.RefValue.tbl1 (F := Ideal) :=
  funext fun _ => congrArg (FloatOps.ofBits (F := Ideal) .f32) (lit1_eq _)

/-- Table 2: the same word at every row-major position. -/
theorem lit2_eq : ∀ j : Fin 1600, Cert.KernelIdeal.lit2 j = Cert.ReferenceIdeal.lit2 j := by decide +kernel

theorem tbl2_eq : Cert.KernelIdeal.Tables.tbl2 = Cert.ReferenceIdeal.RefValue.tbl2 (F := Ideal) :=
  funext fun _ => congrArg (FloatOps.ofBits (F := Ideal) .f32) (lit2_eq _)

/-- Table 3: the same word at every row-major position. -/
theorem lit3_eq : ∀ j : Fin 1600, Cert.KernelIdeal.lit3 j = Cert.ReferenceIdeal.lit3 j := by decide +kernel

theorem tbl3_eq : Cert.KernelIdeal.Tables.tbl3 = Cert.ReferenceIdeal.RefValue.tbl3 (F := Ideal) :=
  funext fun _ => congrArg (FloatOps.ofBits (F := Ideal) .f32) (lit3_eq _)

/-- Table 4: the same word at every row-major position. -/
theorem lit4_eq : ∀ j : Fin 576, Cert.KernelIdeal.lit4 j = Cert.ReferenceIdeal.lit4 j := by decide +kernel

theorem tbl4_eq : Cert.KernelIdeal.Tables.tbl4 = Cert.ReferenceIdeal.RefValue.tbl4 (F := Ideal) :=
  funext fun _ => congrArg (FloatOps.ofBits (F := Ideal) .f32) (lit4_eq _)

end Cert.Tables

end
-- ==== Proof.lean ====
/-
  Both programs compute, for every input row and each of the five attribute groups, the same row function: the row
  scaled to unit length (its length plus a small constant in the divisor), its similarities to the group's unit
  prototypes over the temperature, the softmax of those, that soft assignment spread through the group's constant
  affinity table and divided by its total plus the same small constant, and the prototypes mixed by the result.
  The kernel does this for blocks of 1024 rows and stores the five groups' slabs side by side; the reference does it
  for all rows at once and stacks the five results. Over the extended reals every operation of one side is the same
  operation of the other (a matrix product into a zero accumulator against the host's product, a lane sum against the
  host's sum, a lane maximum against the host's maximum started from minus infinity), so both results are the one
  function `Cert.Spec.G` of the arguments and the tables, and the two programs' tables hold the same words. No law
  of arithmetic beyond `0 + s = s` and `max (-∞) s = s` is used, and the precondition is never opened.
-/
import proofs.«140027_j62843961475556_1_alg».proof.Defs
import proofs.«140027_j62843961475556_1_alg».proof.Proof.Gen.Kernel
import proofs.«140027_j62843961475556_1_alg».proof.Proof.Gen.Kernel.Skeleton
import proofs.«140027_j62843961475556_1_alg».proof.Proof.Gen.Kernel.Launch
import proofs.«140027_j62843961475556_1_alg».proof.Proof.Gen.Kernel.Points
import proofs.«140027_j62843961475556_1_alg».proof.Proof.Gen.Kernel.Frame
import proofs.«140027_j62843961475556_1_alg».proof.Proof.Gen.KernelIdeal
import proofs.«140027_j62843961475556_1_alg».proof.Proof.Gen.KernelIdeal.Skeleton
import proofs.«140027_j62843961475556_1_alg».proof.Proof.Gen.KernelIdeal.Launch
import proofs.«140027_j62843961475556_1_alg».proof.Proof.Gen.KernelIdeal.Points
import proofs.«140027_j62843961475556_1_alg».proof.Proof.Gen.KernelIdeal.Frame
import proofs.«140027_j62843961475556_1_alg».proof.Proof.Gen.ReferenceIdeal
import proofs.«140027_j62843961475556_1_alg».proof.Proof.Gen.Pre_finite_inputs
import proofs.«140027_j62843961475556_1_alg».proof.Proof.KernelArray
import proofs.«140027_j62843961475556_1_alg».proof.Proof.RefRun
import proofs.«140027_j62843961475556_1_alg».proof.Proof.RefValue
import proofs.«140027_j62843961475556_1_alg».proof.Proof.Tables
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both runs end at `Cert.Spec.G` of arguments that agree, at tables that hold the same words. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      Cert.KernelIdeal.Tables.tbl0 Cert.KernelIdeal.Tables.tbl1 Cert.KernelIdeal.Tables.tbl2 Cert.KernelIdeal.Tables.tbl3 Cert.KernelIdeal.Tables.tbl4,
    Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2.1, (hagree c).2.2.2.1, (hagree c).2.2.2.2.1,
    (hagree c).2.2.2.2.2, ← Cert.Tables.tbl0_eq, ← Cert.Tables.tbl1_eq, ← Cert.Tables.tbl2_eq, ← Cert.Tables.tbl3_eq, ← Cert.Tables.tbl4_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
